-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x341x4 : Shape := ⟨4, ![256, 64, 341, 4]⟩
abbrev S_ : Shape := ⟨0, ![]⟩

class Facts : Prop where
  bcast_S_S256x64x341x4 : S_.BroadcastsInDim S256x64x341x4 (![] : Fin 0 → Fin S256x64x341x4.rank)
  reducesTo_S256x64x341x4_S_d0_1_2_3 : S256x64x341x4.ReducesTo [0, 1, 2, 3] S_
  h_S_ : 0 < S_.numel

variable [Facts]

def fn {F : FTy → Type} [FloatOps F] (main_arg0 : FVec F S256x64x341x4 .f32) : IVec S_ 1 :=
  let main_v0 : FVec F S256x64x341x4 .f32 := Host.absf main_arg0
  let main_cst : FVec F S_ .f32 := constant S_ .f32 0x7F800000#32
  let main_v1 : FVec F S256x64x341x4 .f32 := broadcastInDim S256x64x341x4 ![] bcast_S_S256x64x341x4 main_cst
  let main_v2 : IVec S256x64x341x4 1 := cmpf .olt main_v0 main_v1
  let main_c : IVec S_ 1 := constantI S_ 1 1#1
  let main_v3 : IVec S_ 1 := (fun x v => Host.reduce IntOp.andi x v reducesTo_S256x64x341x4_S_d0_1_2_3 h_S_) main_v2 main_c
  main_v3
-- ==== Kernel.lean ====
abbrev S256x64x341x4 : Shape := ⟨4, ![256, 64, 341, 4]⟩
abbrev S341x4x256x64 : Shape := ⟨4, ![341, 4, 256, 64]⟩
abbrev S341x4x16384 : Shape := ⟨3, ![341, 4, 16384]⟩
abbrev S1024x16384 : Shape := ⟨2, ![1024, 16384]⟩
abbrev S341x4x512 : Shape := ⟨3, ![341, 4, 512]⟩
abbrev S1024x512 : Shape := ⟨2, ![1024, 512]⟩
abbrev S341x512 : Shape := ⟨2, ![341, 512]⟩
abbrev S341x1x512 : Shape := ⟨3, ![341, 1, 512]⟩
abbrev S1x512 : Shape := ⟨2, ![1, 512]⟩
abbrev S1x4x512 : Shape := ⟨3, ![1, 4, 512]⟩
abbrev S4x512 : Shape := ⟨2, ![4, 512]⟩
abbrev S16x512 : Shape := ⟨2, ![16, 512]⟩
abbrev S64x512 : Shape := ⟨2, ![64, 512]⟩
abbrev S256x512 : Shape := ⟨2, ![256, 512]⟩
abbrev S1024x256x64 : Shape := ⟨3, ![1024, 256, 64]⟩
abbrev S256x64x1024 : Shape := ⟨3, ![256, 64, 1024]⟩

abbrev nBuf : Space → Nat
  | .hbm => 6
  | .vmem => 4
  | .smem => 0
  | _ => 0

abbrev bufTy : (tb : Table) → Fin (tcTables nBuf tb) → BufTy
  | .hbm, ⟨0, _⟩ => ⟨S256x64x341x4, .f32⟩
  | .hbm, ⟨1, _⟩ => ⟨S341x4x256x64, .f32⟩
  | .hbm, ⟨2, _⟩ => ⟨S341x4x16384, .f32⟩
  | .hbm, ⟨3, _⟩ => ⟨S1024x16384, .f32⟩
  | .hbm, ⟨4, _⟩ => ⟨S1024x256x64, .f32⟩
  | .hbm, ⟨5, _⟩ => ⟨S256x64x1024, .f32⟩
  | .local _ .vmem, ⟨0, _⟩ => ⟨S341x4x512, .f32⟩
  | .local _ .vmem, ⟨1, _⟩ => ⟨S341x4x512, .f32⟩
  | .local _ .vmem, ⟨2, _⟩ => ⟨S1024x512, .f32⟩
  | .local _ .vmem, ⟨3, _⟩ => ⟨S1024x512, .f32⟩
  | _, _ => ⟨S256x64x341x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S341x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S256x64x341x4_S341x4x256x64_2_3_0_1 : S256x64x341x4.Transposes [2, 3, 0, 1] S341x4x256x64
  shapeCasts_S341x4x256x64_S341x4x16384 : S341x4x256x64.ShapeCasts S341x4x16384
  inb_S341x4x512_S341x4x512_0_0_0 : ∀ a, (![0, 0, 0] : Fin 3 → Nat) a + S341x4x512.size a ≤ S341x4x512.size a
  h_S341x4x512 : 0 < S341x4x512.numel
  shapeCasts_S341x4x512_S341x4x512 : S341x4x512.ShapeCasts S341x4x512
  reduces_S341x4x512_S341x512 : S341x4x512.Reduces [1] S341x512
  shapeCasts_S341x512_S341x1x512 : S341x512.ShapeCasts S341x1x512
  broadcasts_S341x1x512_S341x4x512 : S341x1x512.Broadcasts S341x4x512
  slices_S341x4x512_o0_0_0_S1x4x512 : S341x4x512.Slices ![0, 0, 0] S1x4x512
  shapeCasts_S1x4x512_S4x512 : S1x4x512.ShapeCasts S4x512
  shapeCasts_S1x512_S1x512 : S1x512.ShapeCasts S1x512
  broadcasts_S1x512_S4x512 : S1x512.Broadcasts S4x512
  slices_S341x4x512_o1_0_0_S1x4x512 : S341x4x512.Slices ![1, 0, 0] S1x4x512
  slices_S341x4x512_o86_0_0_S1x4x512 : S341x4x512.Slices ![86, 0, 0] S1x4x512
  slices_S341x4x512_o171_0_0_S1x4x512 : S341x4x512.Slices ![171, 0, 0] S1x4x512
  slices_S341x4x512_o256_0_0_S1x4x512 : S341x4x512.Slices ![256, 0, 0] S1x4x512
  concatenates_S4x512_S4x512_S4x512_S4x512_S16x512_d0 : Shape.Concatenates [S4x512, S4x512, S4x512, S4x512] S16x512 0
  slices_S4x512_o0_0_S1x512 : S4x512.Slices ![0, 0] S1x512
  slices_S4x512_o1_0_S1x512 : S4x512.Slices ![1, 0] S1x512
  slices_S4x512_o2_0_S1x512 : S4x512.Slices ![2, 0] S1x512
  slices_S4x512_o3_0_S1x512 : S4x512.Slices ![3, 0] S1x512
  slices_S341x4x512_o2_0_0_S1x4x512 : S341x4x512.Slices ![2, 0, 0] S1x4x512
  slices_S341x4x512_o23_0_0_S1x4x512 : S341x4x512.Slices ![23, 0, 0] S1x4x512
  slices_S341x4x512_o44_0_0_S1x4x512 : S341x4x512.Slices ![44, 0, 0] S1x4x512
  slices_S341x4x512_o65_0_0_S1x4x512 : S341x4x512.Slices ![65, 0, 0] S1x4x512
  slices_S341x4x512_o87_0_0_S1x4x512 : S341x4x512.Slices ![87, 0, 0] S1x4x512
  slices_S341x4x512_o108_0_0_S1x4x512 : S341x4x512.Slices ![108, 0, 0] S1x4x512
  slices_S341x4x512_o129_0_0_S1x4x512 : S341x4x512.Slices ![129, 0, 0] S1x4x512
  slices_S341x4x512_o150_0_0_S1x4x512 : S341x4x512.Slices ![150, 0, 0] S1x4x512
  slices_S341x4x512_o172_0_0_S1x4x512 : S341x4x512.Slices ![172, 0, 0] S1x4x512
  slices_S341x4x512_o193_0_0_S1x4x512 : S341x4x512.Slices ![193, 0, 0] S1x4x512
  slices_S341x4x512_o214_0_0_S1x4x512 : S341x4x512.Slices ![214, 0, 0] S1x4x512
  slices_S341x4x512_o235_0_0_S1x4x512 : S341x4x512.Slices ![235, 0, 0] S1x4x512
  slices_S341x4x512_o257_0_0_S1x4x512 : S341x4x512.Slices ![257, 0, 0] S1x4x512
  slices_S341x4x512_o278_0_0_S1x4x512 : S341x4x512.Slices ![278, 0, 0] S1x4x512
  slices_S341x4x512_o299_0_0_S1x4x512 : S341x4x512.Slices ![299, 0, 0] S1x4x512
  slices_S341x4x512_o320_0_0_S1x4x512 : S341x4x512.Slices ![320, 0, 0] S1x4x512
  concatenates_S4x512_S4x512_S4x512_S4x512_S4x512_S4x512_S4x512_S4x512_S4x512_S4x512_S4x512_S4x512_S4x512_S4x512_S4x512_S4x512_S64x512_d0 : Shape.Concatenates [S4x512, S4x512, S4x512, S4x512, S4x512, S4x512, S4x512, S4x512, S4x512, S4x512, S4x512, S4x512, S4x512, S4x512, S4x512, S4x512] S64x512 0
  slices_S16x512_o0_0_S1x512 : S16x512.Slices ![0, 0] S1x512
  slices_S16x512_o1_0_S1x512 : S16x512.Slices ![1, 0] S1x512
  slices_S16x512_o2_0_S1x512 : S16x512.Slices ![2, 0] S1x512
  slices_S16x512_o3_0_S1x512 : S16x512.Slices ![3, 0] S1x512
  slices_S16x512_o4_0_S1x512 : S16x512.Slices ![4, 0] S1x512
  slices_S16x512_o5_0_S1x512 : S16x512.Slices ![5, 0] S1x512
  slices_S16x512_o6_0_S1x512 : S16x512.Slices ![6, 0] S1x512
  slices_S16x512_o7_0_S1x512 : S16x512.Slices ![7, 0] S1x512
  slices_S16x512_o8_0_S1x512 : S16x512.Slices ![8, 0] S1x512
  slices_S16x512_o9_0_S1x512 : S16x512.Slices ![9, 0] S1x512
  slices_S16x512_o10_0_S1x512 : S16x512.Slices ![10, 0] S1x512
  slices_S16x512_o11_0_S1x512 : S16x512.Slices ![11, 0] S1x512
  slices_S16x512_o12_0_S1x512 : S16x512.Slices ![12, 0] S1x512
  slices_S16x512_o13_0_S1x512 : S16x512.Slices ![13, 0] S1x512
  slices_S16x512_o14_0_S1x512 : S16x512.Slices ![14, 0] S1x512
  slices_S16x512_o15_0_S1x512 : S16x512.Slices ![15, 0] S1x512
  slices_S341x4x512_o3_0_0_S1x4x512 : S341x4x512.Slices ![3, 0, 0] S1x4x512
  slices_S341x4x512_o8_0_0_S1x4x512 : S341x4x512.Slices ![8, 0, 0] S1x4x512
  slices_S341x4x512_o13_0_0_S1x4x512 : S341x4x512.Slices ![13, 0, 0] S1x4x512
  slices_S341x4x512_o18_0_0_S1x4x512 : S341x4x512.Slices ![18, 0, 0] S1x4x512
  slices_S341x4x512_o24_0_0_S1x4x512 : S341x4x512.Slices ![24, 0, 0] S1x4x512
  slices_S341x4x512_o29_0_0_S1x4x512 : S341x4x512.Slices ![29, 0, 0] S1x4x512
  slices_S341x4x512_o34_0_0_S1x4x512 : S341x4x512.Slices ![34, 0, 0] S1x4x512
  slices_S341x4x512_o39_0_0_S1x4x512 : S341x4x512.Slices ![39, 0, 0] S1x4x512
  slices_S341x4x512_o45_0_0_S1x4x512 : S341x4x512.Slices ![45, 0, 0] S1x4x512
  slices_S341x4x512_o50_0_0_S1x4x512 : S341x4x512.Slices ![50, 0, 0] S1x4x512
  slices_S341x4x512_o55_0_0_S1x4x512 : S341x4x512.Slices ![55, 0, 0] S1x4x512
  slices_S341x4x512_o60_0_0_S1x4x512 : S341x4x512.Slices ![60, 0, 0] S1x4x512
  slices_S341x4x512_o66_0_0_S1x4x512 : S341x4x512.Slices ![66, 0, 0] S1x4x512
  slices_S341x4x512_o71_0_0_S1x4x512 : S341x4x512.Slices ![71, 0, 0] S1x4x512
  slices_S341x4x512_o76_0_0_S1x4x512 : S341x4x512.Slices ![76, 0, 0] S1x4x512
  slices_S341x4x512_o81_0_0_S1x4x512 : S341x4x512.Slices ![81, 0, 0] S1x4x512
  slices_S341x4x512_o88_0_0_S1x4x512 : S341x4x512.Slices ![88, 0, 0] S1x4x512
  slices_S341x4x512_o93_0_0_S1x4x512 : S341x4x512.Slices ![93, 0, 0] S1x4x512
  slices_S341x4x512_o98_0_0_S1x4x512 : S341x4x512.Slices ![98, 0, 0] S1x4x512
  slices_S341x4x512_o103_0_0_S1x4x512 : S341x4x512.Slices ![103, 0, 0] S1x4x512
  slices_S341x4x512_o109_0_0_S1x4x512 : S341x4x512.Slices ![109, 0, 0] S1x4x512
  slices_S341x4x512_o114_0_0_S1x4x512 : S341x4x512.Slices ![114, 0, 0] S1x4x512
  slices_S341x4x512_o119_0_0_S1x4x512 : S341x4x512.Slices ![119, 0, 0] S1x4x512
  slices_S341x4x512_o124_0_0_S1x4x512 : S341x4x512.Slices ![124, 0, 0] S1x4x512
  slices_S341x4x512_o130_0_0_S1x4x512 : S341x4x512.Slices ![130, 0, 0] S1x4x512
  slices_S341x4x512_o135_0_0_S1x4x512 : S341x4x512.Slices ![135, 0, 0] S1x4x512
  slices_S341x4x512_o140_0_0_S1x4x512 : S341x4x512.Slices ![140, 0, 0] S1x4x512
  slices_S341x4x512_o145_0_0_S1x4x512 : S341x4x512.Slices ![145, 0, 0] S1x4x512
  slices_S341x4x512_o151_0_0_S1x4x512 : S341x4x512.Slices ![151, 0, 0] S1x4x512
  slices_S341x4x512_o156_0_0_S1x4x512 : S341x4x512.Slices ![156, 0, 0] S1x4x512
  slices_S341x4x512_o161_0_0_S1x4x512 : S341x4x512.Slices ![161, 0, 0] S1x4x512
  slices_S341x4x512_o166_0_0_S1x4x512 : S341x4x512.Slices ![166, 0, 0] S1x4x512
  slices_S341x4x512_o173_0_0_S1x4x512 : S341x4x512.Slices ![173, 0, 0] S1x4x512
  slices_S341x4x512_o178_0_0_S1x4x512 : S341x4x512.Slices ![178, 0, 0] S1x4x512
  slices_S341x4x512_o183_0_0_S1x4x512 : S341x4x512.Slices ![183, 0, 0] S1x4x512
  slices_S341x4x512_o188_0_0_S1x4x512 : S341x4x512.Slices ![188, 0, 0] S1x4x512
  slices_S341x4x512_o194_0_0_S1x4x512 : S341x4x512.Slices ![194, 0, 0] S1x4x512
  slices_S341x4x512_o199_0_0_S1x4x512 : S341x4x512.Slices ![199, 0, 0] S1x4x512
  slices_S341x4x512_o204_0_0_S1x4x512 : S341x4x512.Slices ![204, 0, 0] S1x4x512
  slices_S341x4x512_o209_0_0_S1x4x512 : S341x4x512.Slices ![209, 0, 0] S1x4x512
  slices_S341x4x512_o215_0_0_S1x4x512 : S341x4x512.Slices ![215, 0, 0] S1x4x512
  slices_S341x4x512_o220_0_0_S1x4x512 : S341x4x512.Slices ![220, 0, 0] S1x4x512
  slices_S341x4x512_o225_0_0_S1x4x512 : S341x4x512.Slices ![225, 0, 0] S1x4x512
  slices_S341x4x512_o230_0_0_S1x4x512 : S341x4x512.Slices ![230, 0, 0] S1x4x512
  slices_S341x4x512_o236_0_0_S1x4x512 : S341x4x512.Slices ![236, 0, 0] S1x4x512
  slices_S341x4x512_o241_0_0_S1x4x512 : S341x4x512.Slices ![241, 0, 0] S1x4x512
  slices_S341x4x512_o246_0_0_S1x4x512 : S341x4x512.Slices ![246, 0, 0] S1x4x512
  slices_S341x4x512_o251_0_0_S1x4x512 : S341x4x512.Slices ![251, 0, 0] S1x4x512
  slices_S341x4x512_o258_0_0_S1x4x512 : S341x4x512.Slices ![258, 0, 0] S1x4x512
  slices_S341x4x512_o263_0_0_S1x4x512 : S341x4x512.Slices ![263, 0, 0] S1x4x512
  slices_S341x4x512_o268_0_0_S1x4x512 : S341x4x512.Slices ![268, 0, 0] S1x4x512
  slices_S341x4x512_o273_0_0_S1x4x512 : S341x4x512.Slices ![273, 0, 0] S1x4x512
  slices_S341x4x512_o279_0_0_S1x4x512 : S341x4x512.Slices ![279, 0, 0] S1x4x512
  slices_S341x4x512_o284_0_0_S1x4x512 : S341x4x512.Slices ![284, 0, 0] S1x4x512
  slices_S341x4x512_o289_0_0_S1x4x512 : S341x4x512.Slices ![289, 0, 0] S1x4x512
  slices_S341x4x512_o294_0_0_S1x4x512 : S341x4x512.Slices ![294, 0, 0] S1x4x512
  slices_S341x4x512_o300_0_0_S1x4x512 : S341x4x512.Slices ![300, 0, 0] S1x4x512
  slices_S341x4x512_o305_0_0_S1x4x512 : S341x4x512.Slices ![305, 0, 0] S1x4x512
  slices_S341x4x512_o310_0_0_S1x4x512 : S341x4x512.Slices ![310, 0, 0] S1x4x512
  slices_S341x4x512_o315_0_0_S1x4x512 : S341x4x512.Slices ![315, 0, 0] S1x4x512
  slices_S341x4x512_o321_0_0_S1x4x512 : S341x4x512.Slices ![321, 0, 0] S1x4x512
  slices_S341x4x512_o326_0_0_S1x4x512 : S341x4x512.Slices ![326, 0, 0] S1x4x512
  slices_S341x4x512_o331_0_0_S1x4x512 : S341x4x512.Slices ![331, 0, 0] S1x4x512
  slices_S341x4x512_o336_0_0_S1x4x512 : S341x4x512.Slices ![336, 0, 0] S1x4x512
  concatenates_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S256x512_d0 : Shape.Concatenates (S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: []) S256x512 0
  slices_S64x512_o0_0_S1x512 : S64x512.Slices ![0, 0] S1x512
  slices_S64x512_o1_0_S1x512 : S64x512.Slices ![1, 0] S1x512
  slices_S64x512_o2_0_S1x512 : S64x512.Slices ![2, 0] S1x512
  slices_S64x512_o3_0_S1x512 : S64x512.Slices ![3, 0] S1x512
  slices_S64x512_o4_0_S1x512 : S64x512.Slices ![4, 0] S1x512
  slices_S64x512_o5_0_S1x512 : S64x512.Slices ![5, 0] S1x512
  slices_S64x512_o6_0_S1x512 : S64x512.Slices ![6, 0] S1x512
  slices_S64x512_o7_0_S1x512 : S64x512.Slices ![7, 0] S1x512
  slices_S64x512_o8_0_S1x512 : S64x512.Slices ![8, 0] S1x512
  slices_S64x512_o9_0_S1x512 : S64x512.Slices ![9, 0] S1x512
  slices_S64x512_o10_0_S1x512 : S64x512.Slices ![10, 0] S1x512
  slices_S64x512_o11_0_S1x512 : S64x512.Slices ![11, 0] S1x512
  slices_S64x512_o12_0_S1x512 : S64x512.Slices ![12, 0] S1x512
  slices_S64x512_o13_0_S1x512 : S64x512.Slices ![13, 0] S1x512
  slices_S64x512_o14_0_S1x512 : S64x512.Slices ![14, 0] S1x512
  slices_S64x512_o15_0_S1x512 : S64x512.Slices ![15, 0] S1x512
  slices_S64x512_o16_0_S1x512 : S64x512.Slices ![16, 0] S1x512
  slices_S64x512_o17_0_S1x512 : S64x512.Slices ![17, 0] S1x512
  slices_S64x512_o18_0_S1x512 : S64x512.Slices ![18, 0] S1x512
  slices_S64x512_o19_0_S1x512 : S64x512.Slices ![19, 0] S1x512
  slices_S64x512_o20_0_S1x512 : S64x512.Slices ![20, 0] S1x512
  slices_S64x512_o21_0_S1x512 : S64x512.Slices ![21, 0] S1x512
  slices_S64x512_o22_0_S1x512 : S64x512.Slices ![22, 0] S1x512
  slices_S64x512_o23_0_S1x512 : S64x512.Slices ![23, 0] S1x512
  slices_S64x512_o24_0_S1x512 : S64x512.Slices ![24, 0] S1x512
  slices_S64x512_o25_0_S1x512 : S64x512.Slices ![25, 0] S1x512
  slices_S64x512_o26_0_S1x512 : S64x512.Slices ![26, 0] S1x512
  slices_S64x512_o27_0_S1x512 : S64x512.Slices ![27, 0] S1x512
  slices_S64x512_o28_0_S1x512 : S64x512.Slices ![28, 0] S1x512
  slices_S64x512_o29_0_S1x512 : S64x512.Slices ![29, 0] S1x512
  slices_S64x512_o30_0_S1x512 : S64x512.Slices ![30, 0] S1x512
  slices_S64x512_o31_0_S1x512 : S64x512.Slices ![31, 0] S1x512
  slices_S64x512_o32_0_S1x512 : S64x512.Slices ![32, 0] S1x512
  slices_S64x512_o33_0_S1x512 : S64x512.Slices ![33, 0] S1x512
  slices_S64x512_o34_0_S1x512 : S64x512.Slices ![34, 0] S1x512
  slices_S64x512_o35_0_S1x512 : S64x512.Slices ![35, 0] S1x512
  slices_S64x512_o36_0_S1x512 : S64x512.Slices ![36, 0] S1x512
  slices_S64x512_o37_0_S1x512 : S64x512.Slices ![37, 0] S1x512
  slices_S64x512_o38_0_S1x512 : S64x512.Slices ![38, 0] S1x512
  slices_S64x512_o39_0_S1x512 : S64x512.Slices ![39, 0] S1x512
  slices_S64x512_o40_0_S1x512 : S64x512.Slices ![40, 0] S1x512
  slices_S64x512_o41_0_S1x512 : S64x512.Slices ![41, 0] S1x512
  slices_S64x512_o42_0_S1x512 : S64x512.Slices ![42, 0] S1x512
  slices_S64x512_o43_0_S1x512 : S64x512.Slices ![43, 0] S1x512
  slices_S64x512_o44_0_S1x512 : S64x512.Slices ![44, 0] S1x512
  slices_S64x512_o45_0_S1x512 : S64x512.Slices ![45, 0] S1x512
  slices_S64x512_o46_0_S1x512 : S64x512.Slices ![46, 0] S1x512
  slices_S64x512_o47_0_S1x512 : S64x512.Slices ![47, 0] S1x512
  slices_S64x512_o48_0_S1x512 : S64x512.Slices ![48, 0] S1x512
  slices_S64x512_o49_0_S1x512 : S64x512.Slices ![49, 0] S1x512
  slices_S64x512_o50_0_S1x512 : S64x512.Slices ![50, 0] S1x512
  slices_S64x512_o51_0_S1x512 : S64x512.Slices ![51, 0] S1x512
  slices_S64x512_o52_0_S1x512 : S64x512.Slices ![52, 0] S1x512
  slices_S64x512_o53_0_S1x512 : S64x512.Slices ![53, 0] S1x512
  slices_S64x512_o54_0_S1x512 : S64x512.Slices ![54, 0] S1x512
  slices_S64x512_o55_0_S1x512 : S64x512.Slices ![55, 0] S1x512
  slices_S64x512_o56_0_S1x512 : S64x512.Slices ![56, 0] S1x512
  slices_S64x512_o57_0_S1x512 : S64x512.Slices ![57, 0] S1x512
  slices_S64x512_o58_0_S1x512 : S64x512.Slices ![58, 0] S1x512
  slices_S64x512_o59_0_S1x512 : S64x512.Slices ![59, 0] S1x512
  slices_S64x512_o60_0_S1x512 : S64x512.Slices ![60, 0] S1x512
  slices_S64x512_o61_0_S1x512 : S64x512.Slices ![61, 0] S1x512
  slices_S64x512_o62_0_S1x512 : S64x512.Slices ![62, 0] S1x512
  slices_S64x512_o63_0_S1x512 : S64x512.Slices ![63, 0] S1x512
  slices_S341x4x512_o4_0_0_S1x4x512 : S341x4x512.Slices ![4, 0, 0] S1x4x512
  slices_S341x4x512_o5_0_0_S1x4x512 : S341x4x512.Slices ![5, 0, 0] S1x4x512
  slices_S341x4x512_o6_0_0_S1x4x512 : S341x4x512.Slices ![6, 0, 0] S1x4x512
  slices_S341x4x512_o7_0_0_S1x4x512 : S341x4x512.Slices ![7, 0, 0] S1x4x512
  slices_S341x4x512_o9_0_0_S1x4x512 : S341x4x512.Slices ![9, 0, 0] S1x4x512
  slices_S341x4x512_o10_0_0_S1x4x512 : S341x4x512.Slices ![10, 0, 0] S1x4x512
  slices_S341x4x512_o11_0_0_S1x4x512 : S341x4x512.Slices ![11, 0, 0] S1x4x512
  slices_S341x4x512_o12_0_0_S1x4x512 : S341x4x512.Slices ![12, 0, 0] S1x4x512
  slices_S341x4x512_o14_0_0_S1x4x512 : S341x4x512.Slices ![14, 0, 0] S1x4x512
  slices_S341x4x512_o15_0_0_S1x4x512 : S341x4x512.Slices ![15, 0, 0] S1x4x512
  slices_S341x4x512_o16_0_0_S1x4x512 : S341x4x512.Slices ![16, 0, 0] S1x4x512
  slices_S341x4x512_o17_0_0_S1x4x512 : S341x4x512.Slices ![17, 0, 0] S1x4x512
  slices_S341x4x512_o19_0_0_S1x4x512 : S341x4x512.Slices ![19, 0, 0] S1x4x512
  slices_S341x4x512_o20_0_0_S1x4x512 : S341x4x512.Slices ![20, 0, 0] S1x4x512
  slices_S341x4x512_o21_0_0_S1x4x512 : S341x4x512.Slices ![21, 0, 0] S1x4x512
  slices_S341x4x512_o22_0_0_S1x4x512 : S341x4x512.Slices ![22, 0, 0] S1x4x512
  slices_S341x4x512_o25_0_0_S1x4x512 : S341x4x512.Slices ![25, 0, 0] S1x4x512
  slices_S341x4x512_o26_0_0_S1x4x512 : S341x4x512.Slices ![26, 0, 0] S1x4x512
  slices_S341x4x512_o27_0_0_S1x4x512 : S341x4x512.Slices ![27, 0, 0] S1x4x512
  slices_S341x4x512_o28_0_0_S1x4x512 : S341x4x512.Slices ![28, 0, 0] S1x4x512
  slices_S341x4x512_o30_0_0_S1x4x512 : S341x4x512.Slices ![30, 0, 0] S1x4x512
  slices_S341x4x512_o31_0_0_S1x4x512 : S341x4x512.Slices ![31, 0, 0] S1x4x512
  slices_S341x4x512_o32_0_0_S1x4x512 : S341x4x512.Slices ![32, 0, 0] S1x4x512
  slices_S341x4x512_o33_0_0_S1x4x512 : S341x4x512.Slices ![33, 0, 0] S1x4x512
  slices_S341x4x512_o35_0_0_S1x4x512 : S341x4x512.Slices ![35, 0, 0] S1x4x512
  slices_S341x4x512_o36_0_0_S1x4x512 : S341x4x512.Slices ![36, 0, 0] S1x4x512
  slices_S341x4x512_o37_0_0_S1x4x512 : S341x4x512.Slices ![37, 0, 0] S1x4x512
  slices_S341x4x512_o38_0_0_S1x4x512 : S341x4x512.Slices ![38, 0, 0] S1x4x512
  slices_S341x4x512_o40_0_0_S1x4x512 : S341x4x512.Slices ![40, 0, 0] S1x4x512
  slices_S341x4x512_o41_0_0_S1x4x512 : S341x4x512.Slices ![41, 0, 0] S1x4x512
  slices_S341x4x512_o42_0_0_S1x4x512 : S341x4x512.Slices ![42, 0, 0] S1x4x512
  slices_S341x4x512_o43_0_0_S1x4x512 : S341x4x512.Slices ![43, 0, 0] S1x4x512
  slices_S341x4x512_o46_0_0_S1x4x512 : S341x4x512.Slices ![46, 0, 0] S1x4x512
  slices_S341x4x512_o47_0_0_S1x4x512 : S341x4x512.Slices ![47, 0, 0] S1x4x512
  slices_S341x4x512_o48_0_0_S1x4x512 : S341x4x512.Slices ![48, 0, 0] S1x4x512
  slices_S341x4x512_o49_0_0_S1x4x512 : S341x4x512.Slices ![49, 0, 0] S1x4x512
  slices_S341x4x512_o51_0_0_S1x4x512 : S341x4x512.Slices ![51, 0, 0] S1x4x512
  slices_S341x4x512_o52_0_0_S1x4x512 : S341x4x512.Slices ![52, 0, 0] S1x4x512
  slices_S341x4x512_o53_0_0_S1x4x512 : S341x4x512.Slices ![53, 0, 0] S1x4x512
  slices_S341x4x512_o54_0_0_S1x4x512 : S341x4x512.Slices ![54, 0, 0] S1x4x512
  slices_S341x4x512_o56_0_0_S1x4x512 : S341x4x512.Slices ![56, 0, 0] S1x4x512
  slices_S341x4x512_o57_0_0_S1x4x512 : S341x4x512.Slices ![57, 0, 0] S1x4x512
  slices_S341x4x512_o58_0_0_S1x4x512 : S341x4x512.Slices ![58, 0, 0] S1x4x512
  slices_S341x4x512_o59_0_0_S1x4x512 : S341x4x512.Slices ![59, 0, 0] S1x4x512
  slices_S341x4x512_o61_0_0_S1x4x512 : S341x4x512.Slices ![61, 0, 0] S1x4x512
  slices_S341x4x512_o62_0_0_S1x4x512 : S341x4x512.Slices ![62, 0, 0] S1x4x512
  slices_S341x4x512_o63_0_0_S1x4x512 : S341x4x512.Slices ![63, 0, 0] S1x4x512
  slices_S341x4x512_o64_0_0_S1x4x512 : S341x4x512.Slices ![64, 0, 0] S1x4x512
  slices_S341x4x512_o67_0_0_S1x4x512 : S341x4x512.Slices ![67, 0, 0] S1x4x512
  slices_S341x4x512_o68_0_0_S1x4x512 : S341x4x512.Slices ![68, 0, 0] S1x4x512
  slices_S341x4x512_o69_0_0_S1x4x512 : S341x4x512.Slices ![69, 0, 0] S1x4x512
  slices_S341x4x512_o70_0_0_S1x4x512 : S341x4x512.Slices ![70, 0, 0] S1x4x512
  slices_S341x4x512_o72_0_0_S1x4x512 : S341x4x512.Slices ![72, 0, 0] S1x4x512
  slices_S341x4x512_o73_0_0_S1x4x512 : S341x4x512.Slices ![73, 0, 0] S1x4x512
  slices_S341x4x512_o74_0_0_S1x4x512 : S341x4x512.Slices ![74, 0, 0] S1x4x512
  slices_S341x4x512_o75_0_0_S1x4x512 : S341x4x512.Slices ![75, 0, 0] S1x4x512
  slices_S341x4x512_o77_0_0_S1x4x512 : S341x4x512.Slices ![77, 0, 0] S1x4x512
  slices_S341x4x512_o78_0_0_S1x4x512 : S341x4x512.Slices ![78, 0, 0] S1x4x512
  slices_S341x4x512_o79_0_0_S1x4x512 : S341x4x512.Slices ![79, 0, 0] S1x4x512
  slices_S341x4x512_o80_0_0_S1x4x512 : S341x4x512.Slices ![80, 0, 0] S1x4x512
  slices_S341x4x512_o82_0_0_S1x4x512 : S341x4x512.Slices ![82, 0, 0] S1x4x512
  slices_S341x4x512_o83_0_0_S1x4x512 : S341x4x512.Slices ![83, 0, 0] S1x4x512
  slices_S341x4x512_o84_0_0_S1x4x512 : S341x4x512.Slices ![84, 0, 0] S1x4x512
  slices_S341x4x512_o85_0_0_S1x4x512 : S341x4x512.Slices ![85, 0, 0] S1x4x512
  slices_S341x4x512_o89_0_0_S1x4x512 : S341x4x512.Slices ![89, 0, 0] S1x4x512
  slices_S341x4x512_o90_0_0_S1x4x512 : S341x4x512.Slices ![90, 0, 0] S1x4x512
  slices_S341x4x512_o91_0_0_S1x4x512 : S341x4x512.Slices ![91, 0, 0] S1x4x512
  slices_S341x4x512_o92_0_0_S1x4x512 : S341x4x512.Slices ![92, 0, 0] S1x4x512
  slices_S341x4x512_o94_0_0_S1x4x512 : S341x4x512.Slices ![94, 0, 0] S1x4x512
  slices_S341x4x512_o95_0_0_S1x4x512 : S341x4x512.Slices ![95, 0, 0] S1x4x512
  slices_S341x4x512_o96_0_0_S1x4x512 : S341x4x512.Slices ![96, 0, 0] S1x4x512
  slices_S341x4x512_o97_0_0_S1x4x512 : S341x4x512.Slices ![97, 0, 0] S1x4x512
  slices_S341x4x512_o99_0_0_S1x4x512 : S341x4x512.Slices ![99, 0, 0] S1x4x512
  slices_S341x4x512_o100_0_0_S1x4x512 : S341x4x512.Slices ![100, 0, 0] S1x4x512
  slices_S341x4x512_o101_0_0_S1x4x512 : S341x4x512.Slices ![101, 0, 0] S1x4x512
  slices_S341x4x512_o102_0_0_S1x4x512 : S341x4x512.Slices ![102, 0, 0] S1x4x512
  slices_S341x4x512_o104_0_0_S1x4x512 : S341x4x512.Slices ![104, 0, 0] S1x4x512
  slices_S341x4x512_o105_0_0_S1x4x512 : S341x4x512.Slices ![105, 0, 0] S1x4x512
  slices_S341x4x512_o106_0_0_S1x4x512 : S341x4x512.Slices ![106, 0, 0] S1x4x512
  slices_S341x4x512_o107_0_0_S1x4x512 : S341x4x512.Slices ![107, 0, 0] S1x4x512
  slices_S341x4x512_o110_0_0_S1x4x512 : S341x4x512.Slices ![110, 0, 0] S1x4x512
  slices_S341x4x512_o111_0_0_S1x4x512 : S341x4x512.Slices ![111, 0, 0] S1x4x512
  slices_S341x4x512_o112_0_0_S1x4x512 : S341x4x512.Slices ![112, 0, 0] S1x4x512
  slices_S341x4x512_o113_0_0_S1x4x512 : S341x4x512.Slices ![113, 0, 0] S1x4x512
  slices_S341x4x512_o115_0_0_S1x4x512 : S341x4x512.Slices ![115, 0, 0] S1x4x512
  slices_S341x4x512_o116_0_0_S1x4x512 : S341x4x512.Slices ![116, 0, 0] S1x4x512
  slices_S341x4x512_o117_0_0_S1x4x512 : S341x4x512.Slices ![117, 0, 0] S1x4x512
  slices_S341x4x512_o118_0_0_S1x4x512 : S341x4x512.Slices ![118, 0, 0] S1x4x512
  slices_S341x4x512_o120_0_0_S1x4x512 : S341x4x512.Slices ![120, 0, 0] S1x4x512
  slices_S341x4x512_o121_0_0_S1x4x512 : S341x4x512.Slices ![121, 0, 0] S1x4x512
  slices_S341x4x512_o122_0_0_S1x4x512 : S341x4x512.Slices ![122, 0, 0] S1x4x512
  slices_S341x4x512_o123_0_0_S1x4x512 : S341x4x512.Slices ![123, 0, 0] S1x4x512
  slices_S341x4x512_o125_0_0_S1x4x512 : S341x4x512.Slices ![125, 0, 0] S1x4x512
  slices_S341x4x512_o126_0_0_S1x4x512 : S341x4x512.Slices ![126, 0, 0] S1x4x512
  slices_S341x4x512_o127_0_0_S1x4x512 : S341x4x512.Slices ![127, 0, 0] S1x4x512
  slices_S341x4x512_o128_0_0_S1x4x512 : S341x4x512.Slices ![128, 0, 0] S1x4x512
  slices_S341x4x512_o131_0_0_S1x4x512 : S341x4x512.Slices ![131, 0, 0] S1x4x512
  slices_S341x4x512_o132_0_0_S1x4x512 : S341x4x512.Slices ![132, 0, 0] S1x4x512
  slices_S341x4x512_o133_0_0_S1x4x512 : S341x4x512.Slices ![133, 0, 0] S1x4x512
  slices_S341x4x512_o134_0_0_S1x4x512 : S341x4x512.Slices ![134, 0, 0] S1x4x512
  slices_S341x4x512_o136_0_0_S1x4x512 : S341x4x512.Slices ![136, 0, 0] S1x4x512
  slices_S341x4x512_o137_0_0_S1x4x512 : S341x4x512.Slices ![137, 0, 0] S1x4x512
  slices_S341x4x512_o138_0_0_S1x4x512 : S341x4x512.Slices ![138, 0, 0] S1x4x512
  slices_S341x4x512_o139_0_0_S1x4x512 : S341x4x512.Slices ![139, 0, 0] S1x4x512
  slices_S341x4x512_o141_0_0_S1x4x512 : S341x4x512.Slices ![141, 0, 0] S1x4x512
  slices_S341x4x512_o142_0_0_S1x4x512 : S341x4x512.Slices ![142, 0, 0] S1x4x512
  slices_S341x4x512_o143_0_0_S1x4x512 : S341x4x512.Slices ![143, 0, 0] S1x4x512
  slices_S341x4x512_o144_0_0_S1x4x512 : S341x4x512.Slices ![144, 0, 0] S1x4x512
  slices_S341x4x512_o146_0_0_S1x4x512 : S341x4x512.Slices ![146, 0, 0] S1x4x512
  slices_S341x4x512_o147_0_0_S1x4x512 : S341x4x512.Slices ![147, 0, 0] S1x4x512
  slices_S341x4x512_o148_0_0_S1x4x512 : S341x4x512.Slices ![148, 0, 0] S1x4x512
  slices_S341x4x512_o149_0_0_S1x4x512 : S341x4x512.Slices ![149, 0, 0] S1x4x512
  slices_S341x4x512_o152_0_0_S1x4x512 : S341x4x512.Slices ![152, 0, 0] S1x4x512
  slices_S341x4x512_o153_0_0_S1x4x512 : S341x4x512.Slices ![153, 0, 0] S1x4x512
  slices_S341x4x512_o154_0_0_S1x4x512 : S341x4x512.Slices ![154, 0, 0] S1x4x512
  slices_S341x4x512_o155_0_0_S1x4x512 : S341x4x512.Slices ![155, 0, 0] S1x4x512
  slices_S341x4x512_o157_0_0_S1x4x512 : S341x4x512.Slices ![157, 0, 0] S1x4x512
  slices_S341x4x512_o158_0_0_S1x4x512 : S341x4x512.Slices ![158, 0, 0] S1x4x512
  slices_S341x4x512_o159_0_0_S1x4x512 : S341x4x512.Slices ![159, 0, 0] S1x4x512
  slices_S341x4x512_o160_0_0_S1x4x512 : S341x4x512.Slices ![160, 0, 0] S1x4x512
  slices_S341x4x512_o162_0_0_S1x4x512 : S341x4x512.Slices ![162, 0, 0] S1x4x512
  slices_S341x4x512_o163_0_0_S1x4x512 : S341x4x512.Slices ![163, 0, 0] S1x4x512
  slices_S341x4x512_o164_0_0_S1x4x512 : S341x4x512.Slices ![164, 0, 0] S1x4x512
  slices_S341x4x512_o165_0_0_S1x4x512 : S341x4x512.Slices ![165, 0, 0] S1x4x512
  slices_S341x4x512_o167_0_0_S1x4x512 : S341x4x512.Slices ![167, 0, 0] S1x4x512
  slices_S341x4x512_o168_0_0_S1x4x512 : S341x4x512.Slices ![168, 0, 0] S1x4x512
  slices_S341x4x512_o169_0_0_S1x4x512 : S341x4x512.Slices ![169, 0, 0] S1x4x512
  slices_S341x4x512_o170_0_0_S1x4x512 : S341x4x512.Slices ![170, 0, 0] S1x4x512
  slices_S341x4x512_o174_0_0_S1x4x512 : S341x4x512.Slices ![174, 0, 0] S1x4x512
  slices_S341x4x512_o175_0_0_S1x4x512 : S341x4x512.Slices ![175, 0, 0] S1x4x512
  slices_S341x4x512_o176_0_0_S1x4x512 : S341x4x512.Slices ![176, 0, 0] S1x4x512
  slices_S341x4x512_o177_0_0_S1x4x512 : S341x4x512.Slices ![177, 0, 0] S1x4x512
  slices_S341x4x512_o179_0_0_S1x4x512 : S341x4x512.Slices ![179, 0, 0] S1x4x512
  slices_S341x4x512_o180_0_0_S1x4x512 : S341x4x512.Slices ![180, 0, 0] S1x4x512
  slices_S341x4x512_o181_0_0_S1x4x512 : S341x4x512.Slices ![181, 0, 0] S1x4x512
  slices_S341x4x512_o182_0_0_S1x4x512 : S341x4x512.Slices ![182, 0, 0] S1x4x512
  slices_S341x4x512_o184_0_0_S1x4x512 : S341x4x512.Slices ![184, 0, 0] S1x4x512
  slices_S341x4x512_o185_0_0_S1x4x512 : S341x4x512.Slices ![185, 0, 0] S1x4x512
  slices_S341x4x512_o186_0_0_S1x4x512 : S341x4x512.Slices ![186, 0, 0] S1x4x512
  slices_S341x4x512_o187_0_0_S1x4x512 : S341x4x512.Slices ![187, 0, 0] S1x4x512
  slices_S341x4x512_o189_0_0_S1x4x512 : S341x4x512.Slices ![189, 0, 0] S1x4x512
  slices_S341x4x512_o190_0_0_S1x4x512 : S341x4x512.Slices ![190, 0, 0] S1x4x512
  slices_S341x4x512_o191_0_0_S1x4x512 : S341x4x512.Slices ![191, 0, 0] S1x4x512
  slices_S341x4x512_o192_0_0_S1x4x512 : S341x4x512.Slices ![192, 0, 0] S1x4x512
  slices_S341x4x512_o195_0_0_S1x4x512 : S341x4x512.Slices ![195, 0, 0] S1x4x512
  slices_S341x4x512_o196_0_0_S1x4x512 : S341x4x512.Slices ![196, 0, 0] S1x4x512
  slices_S341x4x512_o197_0_0_S1x4x512 : S341x4x512.Slices ![197, 0, 0] S1x4x512
  slices_S341x4x512_o198_0_0_S1x4x512 : S341x4x512.Slices ![198, 0, 0] S1x4x512
  slices_S341x4x512_o200_0_0_S1x4x512 : S341x4x512.Slices ![200, 0, 0] S1x4x512
  slices_S341x4x512_o201_0_0_S1x4x512 : S341x4x512.Slices ![201, 0, 0] S1x4x512
  slices_S341x4x512_o202_0_0_S1x4x512 : S341x4x512.Slices ![202, 0, 0] S1x4x512
  slices_S341x4x512_o203_0_0_S1x4x512 : S341x4x512.Slices ![203, 0, 0] S1x4x512
  slices_S341x4x512_o205_0_0_S1x4x512 : S341x4x512.Slices ![205, 0, 0] S1x4x512
  slices_S341x4x512_o206_0_0_S1x4x512 : S341x4x512.Slices ![206, 0, 0] S1x4x512
  slices_S341x4x512_o207_0_0_S1x4x512 : S341x4x512.Slices ![207, 0, 0] S1x4x512
  slices_S341x4x512_o208_0_0_S1x4x512 : S341x4x512.Slices ![208, 0, 0] S1x4x512
  slices_S341x4x512_o210_0_0_S1x4x512 : S341x4x512.Slices ![210, 0, 0] S1x4x512
  slices_S341x4x512_o211_0_0_S1x4x512 : S341x4x512.Slices ![211, 0, 0] S1x4x512
  slices_S341x4x512_o212_0_0_S1x4x512 : S341x4x512.Slices ![212, 0, 0] S1x4x512
  slices_S341x4x512_o213_0_0_S1x4x512 : S341x4x512.Slices ![213, 0, 0] S1x4x512
  slices_S341x4x512_o216_0_0_S1x4x512 : S341x4x512.Slices ![216, 0, 0] S1x4x512
  slices_S341x4x512_o217_0_0_S1x4x512 : S341x4x512.Slices ![217, 0, 0] S1x4x512
  slices_S341x4x512_o218_0_0_S1x4x512 : S341x4x512.Slices ![218, 0, 0] S1x4x512
  slices_S341x4x512_o219_0_0_S1x4x512 : S341x4x512.Slices ![219, 0, 0] S1x4x512
  slices_S341x4x512_o221_0_0_S1x4x512 : S341x4x512.Slices ![221, 0, 0] S1x4x512
  slices_S341x4x512_o222_0_0_S1x4x512 : S341x4x512.Slices ![222, 0, 0] S1x4x512
  slices_S341x4x512_o223_0_0_S1x4x512 : S341x4x512.Slices ![223, 0, 0] S1x4x512
  slices_S341x4x512_o224_0_0_S1x4x512 : S341x4x512.Slices ![224, 0, 0] S1x4x512
  slices_S341x4x512_o226_0_0_S1x4x512 : S341x4x512.Slices ![226, 0, 0] S1x4x512
  slices_S341x4x512_o227_0_0_S1x4x512 : S341x4x512.Slices ![227, 0, 0] S1x4x512
  slices_S341x4x512_o228_0_0_S1x4x512 : S341x4x512.Slices ![228, 0, 0] S1x4x512
  slices_S341x4x512_o229_0_0_S1x4x512 : S341x4x512.Slices ![229, 0, 0] S1x4x512
  slices_S341x4x512_o231_0_0_S1x4x512 : S341x4x512.Slices ![231, 0, 0] S1x4x512
  slices_S341x4x512_o232_0_0_S1x4x512 : S341x4x512.Slices ![232, 0, 0] S1x4x512
  slices_S341x4x512_o233_0_0_S1x4x512 : S341x4x512.Slices ![233, 0, 0] S1x4x512
  slices_S341x4x512_o234_0_0_S1x4x512 : S341x4x512.Slices ![234, 0, 0] S1x4x512
  slices_S341x4x512_o237_0_0_S1x4x512 : S341x4x512.Slices ![237, 0, 0] S1x4x512
  slices_S341x4x512_o238_0_0_S1x4x512 : S341x4x512.Slices ![238, 0, 0] S1x4x512
  slices_S341x4x512_o239_0_0_S1x4x512 : S341x4x512.Slices ![239, 0, 0] S1x4x512
  slices_S341x4x512_o240_0_0_S1x4x512 : S341x4x512.Slices ![240, 0, 0] S1x4x512
  slices_S341x4x512_o242_0_0_S1x4x512 : S341x4x512.Slices ![242, 0, 0] S1x4x512
  slices_S341x4x512_o243_0_0_S1x4x512 : S341x4x512.Slices ![243, 0, 0] S1x4x512
  slices_S341x4x512_o244_0_0_S1x4x512 : S341x4x512.Slices ![244, 0, 0] S1x4x512
  slices_S341x4x512_o245_0_0_S1x4x512 : S341x4x512.Slices ![245, 0, 0] S1x4x512
  slices_S341x4x512_o247_0_0_S1x4x512 : S341x4x512.Slices ![247, 0, 0] S1x4x512
  slices_S341x4x512_o248_0_0_S1x4x512 : S341x4x512.Slices ![248, 0, 0] S1x4x512
  slices_S341x4x512_o249_0_0_S1x4x512 : S341x4x512.Slices ![249, 0, 0] S1x4x512
  slices_S341x4x512_o250_0_0_S1x4x512 : S341x4x512.Slices ![250, 0, 0] S1x4x512
  slices_S341x4x512_o252_0_0_S1x4x512 : S341x4x512.Slices ![252, 0, 0] S1x4x512
  slices_S341x4x512_o253_0_0_S1x4x512 : S341x4x512.Slices ![253, 0, 0] S1x4x512
  slices_S341x4x512_o254_0_0_S1x4x512 : S341x4x512.Slices ![254, 0, 0] S1x4x512
  slices_S341x4x512_o255_0_0_S1x4x512 : S341x4x512.Slices ![255, 0, 0] S1x4x512
  slices_S341x4x512_o259_0_0_S1x4x512 : S341x4x512.Slices ![259, 0, 0] S1x4x512
  slices_S341x4x512_o260_0_0_S1x4x512 : S341x4x512.Slices ![260, 0, 0] S1x4x512
  slices_S341x4x512_o261_0_0_S1x4x512 : S341x4x512.Slices ![261, 0, 0] S1x4x512
  slices_S341x4x512_o262_0_0_S1x4x512 : S341x4x512.Slices ![262, 0, 0] S1x4x512
  slices_S341x4x512_o264_0_0_S1x4x512 : S341x4x512.Slices ![264, 0, 0] S1x4x512
  slices_S341x4x512_o265_0_0_S1x4x512 : S341x4x512.Slices ![265, 0, 0] S1x4x512
  slices_S341x4x512_o266_0_0_S1x4x512 : S341x4x512.Slices ![266, 0, 0] S1x4x512
  slices_S341x4x512_o267_0_0_S1x4x512 : S341x4x512.Slices ![267, 0, 0] S1x4x512
  slices_S341x4x512_o269_0_0_S1x4x512 : S341x4x512.Slices ![269, 0, 0] S1x4x512
  slices_S341x4x512_o270_0_0_S1x4x512 : S341x4x512.Slices ![270, 0, 0] S1x4x512
  slices_S341x4x512_o271_0_0_S1x4x512 : S341x4x512.Slices ![271, 0, 0] S1x4x512
  slices_S341x4x512_o272_0_0_S1x4x512 : S341x4x512.Slices ![272, 0, 0] S1x4x512
  slices_S341x4x512_o274_0_0_S1x4x512 : S341x4x512.Slices ![274, 0, 0] S1x4x512
  slices_S341x4x512_o275_0_0_S1x4x512 : S341x4x512.Slices ![275, 0, 0] S1x4x512
  slices_S341x4x512_o276_0_0_S1x4x512 : S341x4x512.Slices ![276, 0, 0] S1x4x512
  slices_S341x4x512_o277_0_0_S1x4x512 : S341x4x512.Slices ![277, 0, 0] S1x4x512
  slices_S341x4x512_o280_0_0_S1x4x512 : S341x4x512.Slices ![280, 0, 0] S1x4x512
  slices_S341x4x512_o281_0_0_S1x4x512 : S341x4x512.Slices ![281, 0, 0] S1x4x512
  slices_S341x4x512_o282_0_0_S1x4x512 : S341x4x512.Slices ![282, 0, 0] S1x4x512
  slices_S341x4x512_o283_0_0_S1x4x512 : S341x4x512.Slices ![283, 0, 0] S1x4x512
  slices_S341x4x512_o285_0_0_S1x4x512 : S341x4x512.Slices ![285, 0, 0] S1x4x512
  slices_S341x4x512_o286_0_0_S1x4x512 : S341x4x512.Slices ![286, 0, 0] S1x4x512
  slices_S341x4x512_o287_0_0_S1x4x512 : S341x4x512.Slices ![287, 0, 0] S1x4x512
  slices_S341x4x512_o288_0_0_S1x4x512 : S341x4x512.Slices ![288, 0, 0] S1x4x512
  slices_S341x4x512_o290_0_0_S1x4x512 : S341x4x512.Slices ![290, 0, 0] S1x4x512
  slices_S341x4x512_o291_0_0_S1x4x512 : S341x4x512.Slices ![291, 0, 0] S1x4x512
  slices_S341x4x512_o292_0_0_S1x4x512 : S341x4x512.Slices ![292, 0, 0] S1x4x512
  slices_S341x4x512_o293_0_0_S1x4x512 : S341x4x512.Slices ![293, 0, 0] S1x4x512
  slices_S341x4x512_o295_0_0_S1x4x512 : S341x4x512.Slices ![295, 0, 0] S1x4x512
  slices_S341x4x512_o296_0_0_S1x4x512 : S341x4x512.Slices ![296, 0, 0] S1x4x512
  slices_S341x4x512_o297_0_0_S1x4x512 : S341x4x512.Slices ![297, 0, 0] S1x4x512
  slices_S341x4x512_o298_0_0_S1x4x512 : S341x4x512.Slices ![298, 0, 0] S1x4x512
  slices_S341x4x512_o301_0_0_S1x4x512 : S341x4x512.Slices ![301, 0, 0] S1x4x512
  slices_S341x4x512_o302_0_0_S1x4x512 : S341x4x512.Slices ![302, 0, 0] S1x4x512
  slices_S341x4x512_o303_0_0_S1x4x512 : S341x4x512.Slices ![303, 0, 0] S1x4x512
  slices_S341x4x512_o304_0_0_S1x4x512 : S341x4x512.Slices ![304, 0, 0] S1x4x512
  slices_S341x4x512_o306_0_0_S1x4x512 : S341x4x512.Slices ![306, 0, 0] S1x4x512
  slices_S341x4x512_o307_0_0_S1x4x512 : S341x4x512.Slices ![307, 0, 0] S1x4x512
  slices_S341x4x512_o308_0_0_S1x4x512 : S341x4x512.Slices ![308, 0, 0] S1x4x512
  slices_S341x4x512_o309_0_0_S1x4x512 : S341x4x512.Slices ![309, 0, 0] S1x4x512
  slices_S341x4x512_o311_0_0_S1x4x512 : S341x4x512.Slices ![311, 0, 0] S1x4x512
  slices_S341x4x512_o312_0_0_S1x4x512 : S341x4x512.Slices ![312, 0, 0] S1x4x512
  slices_S341x4x512_o313_0_0_S1x4x512 : S341x4x512.Slices ![313, 0, 0] S1x4x512
  slices_S341x4x512_o314_0_0_S1x4x512 : S341x4x512.Slices ![314, 0, 0] S1x4x512
  slices_S341x4x512_o316_0_0_S1x4x512 : S341x4x512.Slices ![316, 0, 0] S1x4x512
  slices_S341x4x512_o317_0_0_S1x4x512 : S341x4x512.Slices ![317, 0, 0] S1x4x512
  slices_S341x4x512_o318_0_0_S1x4x512 : S341x4x512.Slices ![318, 0, 0] S1x4x512
  slices_S341x4x512_o319_0_0_S1x4x512 : S341x4x512.Slices ![319, 0, 0] S1x4x512
  slices_S341x4x512_o322_0_0_S1x4x512 : S341x4x512.Slices ![322, 0, 0] S1x4x512
  slices_S341x4x512_o323_0_0_S1x4x512 : S341x4x512.Slices ![323, 0, 0] S1x4x512
  slices_S341x4x512_o324_0_0_S1x4x512 : S341x4x512.Slices ![324, 0, 0] S1x4x512
  slices_S341x4x512_o325_0_0_S1x4x512 : S341x4x512.Slices ![325, 0, 0] S1x4x512
  slices_S341x4x512_o327_0_0_S1x4x512 : S341x4x512.Slices ![327, 0, 0] S1x4x512
  slices_S341x4x512_o328_0_0_S1x4x512 : S341x4x512.Slices ![328, 0, 0] S1x4x512
  slices_S341x4x512_o329_0_0_S1x4x512 : S341x4x512.Slices ![329, 0, 0] S1x4x512
  slices_S341x4x512_o330_0_0_S1x4x512 : S341x4x512.Slices ![330, 0, 0] S1x4x512
  slices_S341x4x512_o332_0_0_S1x4x512 : S341x4x512.Slices ![332, 0, 0] S1x4x512
  slices_S341x4x512_o333_0_0_S1x4x512 : S341x4x512.Slices ![333, 0, 0] S1x4x512
  slices_S341x4x512_o334_0_0_S1x4x512 : S341x4x512.Slices ![334, 0, 0] S1x4x512
  slices_S341x4x512_o335_0_0_S1x4x512 : S341x4x512.Slices ![335, 0, 0] S1x4x512
  slices_S341x4x512_o337_0_0_S1x4x512 : S341x4x512.Slices ![337, 0, 0] S1x4x512
  slices_S341x4x512_o338_0_0_S1x4x512 : S341x4x512.Slices ![338, 0, 0] S1x4x512
  slices_S341x4x512_o339_0_0_S1x4x512 : S341x4x512.Slices ![339, 0, 0] S1x4x512
  slices_S341x4x512_o340_0_0_S1x4x512 : S341x4x512.Slices ![340, 0, 0] S1x4x512
  concatenates_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S4x512_S1024x512_d0 : Shape.Concatenates (S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: S4x512 :: []) S1024x512 0
  slices_S256x512_o0_0_S1x512 : S256x512.Slices ![0, 0] S1x512
  slices_S256x512_o1_0_S1x512 : S256x512.Slices ![1, 0] S1x512
  slices_S256x512_o2_0_S1x512 : S256x512.Slices ![2, 0] S1x512
  slices_S256x512_o3_0_S1x512 : S256x512.Slices ![3, 0] S1x512
  slices_S256x512_o4_0_S1x512 : S256x512.Slices ![4, 0] S1x512
  slices_S256x512_o5_0_S1x512 : S256x512.Slices ![5, 0] S1x512
  slices_S256x512_o6_0_S1x512 : S256x512.Slices ![6, 0] S1x512
  slices_S256x512_o7_0_S1x512 : S256x512.Slices ![7, 0] S1x512
  slices_S256x512_o8_0_S1x512 : S256x512.Slices ![8, 0] S1x512
  slices_S256x512_o9_0_S1x512 : S256x512.Slices ![9, 0] S1x512
  slices_S256x512_o10_0_S1x512 : S256x512.Slices ![10, 0] S1x512
  slices_S256x512_o11_0_S1x512 : S256x512.Slices ![11, 0] S1x512
  slices_S256x512_o12_0_S1x512 : S256x512.Slices ![12, 0] S1x512
  slices_S256x512_o13_0_S1x512 : S256x512.Slices ![13, 0] S1x512
  slices_S256x512_o14_0_S1x512 : S256x512.Slices ![14, 0] S1x512
  slices_S256x512_o15_0_S1x512 : S256x512.Slices ![15, 0] S1x512
  slices_S256x512_o16_0_S1x512 : S256x512.Slices ![16, 0] S1x512
  slices_S256x512_o17_0_S1x512 : S256x512.Slices ![17, 0] S1x512
  slices_S256x512_o18_0_S1x512 : S256x512.Slices ![18, 0] S1x512
  slices_S256x512_o19_0_S1x512 : S256x512.Slices ![19, 0] S1x512
  slices_S256x512_o20_0_S1x512 : S256x512.Slices ![20, 0] S1x512
  slices_S256x512_o21_0_S1x512 : S256x512.Slices ![21, 0] S1x512
  slices_S256x512_o22_0_S1x512 : S256x512.Slices ![22, 0] S1x512
  slices_S256x512_o23_0_S1x512 : S256x512.Slices ![23, 0] S1x512
  slices_S256x512_o24_0_S1x512 : S256x512.Slices ![24, 0] S1x512
  slices_S256x512_o25_0_S1x512 : S256x512.Slices ![25, 0] S1x512
  slices_S256x512_o26_0_S1x512 : S256x512.Slices ![26, 0] S1x512
  slices_S256x512_o27_0_S1x512 : S256x512.Slices ![27, 0] S1x512
  slices_S256x512_o28_0_S1x512 : S256x512.Slices ![28, 0] S1x512
  slices_S256x512_o29_0_S1x512 : S256x512.Slices ![29, 0] S1x512
  slices_S256x512_o30_0_S1x512 : S256x512.Slices ![30, 0] S1x512
  slices_S256x512_o31_0_S1x512 : S256x512.Slices ![31, 0] S1x512
  slices_S256x512_o32_0_S1x512 : S256x512.Slices ![32, 0] S1x512
  slices_S256x512_o33_0_S1x512 : S256x512.Slices ![33, 0] S1x512
  slices_S256x512_o34_0_S1x512 : S256x512.Slices ![34, 0] S1x512
  slices_S256x512_o35_0_S1x512 : S256x512.Slices ![35, 0] S1x512
  slices_S256x512_o36_0_S1x512 : S256x512.Slices ![36, 0] S1x512
  slices_S256x512_o37_0_S1x512 : S256x512.Slices ![37, 0] S1x512
  slices_S256x512_o38_0_S1x512 : S256x512.Slices ![38, 0] S1x512
  slices_S256x512_o39_0_S1x512 : S256x512.Slices ![39, 0] S1x512
  slices_S256x512_o40_0_S1x512 : S256x512.Slices ![40, 0] S1x512
  slices_S256x512_o41_0_S1x512 : S256x512.Slices ![41, 0] S1x512
  slices_S256x512_o42_0_S1x512 : S256x512.Slices ![42, 0] S1x512
  slices_S256x512_o43_0_S1x512 : S256x512.Slices ![43, 0] S1x512
  slices_S256x512_o44_0_S1x512 : S256x512.Slices ![44, 0] S1x512
  slices_S256x512_o45_0_S1x512 : S256x512.Slices ![45, 0] S1x512
  slices_S256x512_o46_0_S1x512 : S256x512.Slices ![46, 0] S1x512
  slices_S256x512_o47_0_S1x512 : S256x512.Slices ![47, 0] S1x512
  slices_S256x512_o48_0_S1x512 : S256x512.Slices ![48, 0] S1x512
  slices_S256x512_o49_0_S1x512 : S256x512.Slices ![49, 0] S1x512
  slices_S256x512_o50_0_S1x512 : S256x512.Slices ![50, 0] S1x512
  slices_S256x512_o51_0_S1x512 : S256x512.Slices ![51, 0] S1x512
  slices_S256x512_o52_0_S1x512 : S256x512.Slices ![52, 0] S1x512
  slices_S256x512_o53_0_S1x512 : S256x512.Slices ![53, 0] S1x512
  slices_S256x512_o54_0_S1x512 : S256x512.Slices ![54, 0] S1x512
  slices_S256x512_o55_0_S1x512 : S256x512.Slices ![55, 0] S1x512
  slices_S256x512_o56_0_S1x512 : S256x512.Slices ![56, 0] S1x512
  slices_S256x512_o57_0_S1x512 : S256x512.Slices ![57, 0] S1x512
  slices_S256x512_o58_0_S1x512 : S256x512.Slices ![58, 0] S1x512
  slices_S256x512_o59_0_S1x512 : S256x512.Slices ![59, 0] S1x512
  slices_S256x512_o60_0_S1x512 : S256x512.Slices ![60, 0] S1x512
  slices_S256x512_o61_0_S1x512 : S256x512.Slices ![61, 0] S1x512
  slices_S256x512_o62_0_S1x512 : S256x512.Slices ![62, 0] S1x512
  slices_S256x512_o63_0_S1x512 : S256x512.Slices ![63, 0] S1x512
  slices_S256x512_o64_0_S1x512 : S256x512.Slices ![64, 0] S1x512
  slices_S256x512_o65_0_S1x512 : S256x512.Slices ![65, 0] S1x512
  slices_S256x512_o66_0_S1x512 : S256x512.Slices ![66, 0] S1x512
  slices_S256x512_o67_0_S1x512 : S256x512.Slices ![67, 0] S1x512
  slices_S256x512_o68_0_S1x512 : S256x512.Slices ![68, 0] S1x512
  slices_S256x512_o69_0_S1x512 : S256x512.Slices ![69, 0] S1x512
  slices_S256x512_o70_0_S1x512 : S256x512.Slices ![70, 0] S1x512
  slices_S256x512_o71_0_S1x512 : S256x512.Slices ![71, 0] S1x512
  slices_S256x512_o72_0_S1x512 : S256x512.Slices ![72, 0] S1x512
  slices_S256x512_o73_0_S1x512 : S256x512.Slices ![73, 0] S1x512
  slices_S256x512_o74_0_S1x512 : S256x512.Slices ![74, 0] S1x512
  slices_S256x512_o75_0_S1x512 : S256x512.Slices ![75, 0] S1x512
  slices_S256x512_o76_0_S1x512 : S256x512.Slices ![76, 0] S1x512
  slices_S256x512_o77_0_S1x512 : S256x512.Slices ![77, 0] S1x512
  slices_S256x512_o78_0_S1x512 : S256x512.Slices ![78, 0] S1x512
  slices_S256x512_o79_0_S1x512 : S256x512.Slices ![79, 0] S1x512
  slices_S256x512_o80_0_S1x512 : S256x512.Slices ![80, 0] S1x512
  slices_S256x512_o81_0_S1x512 : S256x512.Slices ![81, 0] S1x512
  slices_S256x512_o82_0_S1x512 : S256x512.Slices ![82, 0] S1x512
  slices_S256x512_o83_0_S1x512 : S256x512.Slices ![83, 0] S1x512
  slices_S256x512_o84_0_S1x512 : S256x512.Slices ![84, 0] S1x512
  slices_S256x512_o85_0_S1x512 : S256x512.Slices ![85, 0] S1x512
  slices_S256x512_o86_0_S1x512 : S256x512.Slices ![86, 0] S1x512
  slices_S256x512_o87_0_S1x512 : S256x512.Slices ![87, 0] S1x512
  slices_S256x512_o88_0_S1x512 : S256x512.Slices ![88, 0] S1x512
  slices_S256x512_o89_0_S1x512 : S256x512.Slices ![89, 0] S1x512
  slices_S256x512_o90_0_S1x512 : S256x512.Slices ![90, 0] S1x512
  slices_S256x512_o91_0_S1x512 : S256x512.Slices ![91, 0] S1x512
  slices_S256x512_o92_0_S1x512 : S256x512.Slices ![92, 0] S1x512
  slices_S256x512_o93_0_S1x512 : S256x512.Slices ![93, 0] S1x512
  slices_S256x512_o94_0_S1x512 : S256x512.Slices ![94, 0] S1x512
  slices_S256x512_o95_0_S1x512 : S256x512.Slices ![95, 0] S1x512
  slices_S256x512_o96_0_S1x512 : S256x512.Slices ![96, 0] S1x512
  slices_S256x512_o97_0_S1x512 : S256x512.Slices ![97, 0] S1x512
  slices_S256x512_o98_0_S1x512 : S256x512.Slices ![98, 0] S1x512
  slices_S256x512_o99_0_S1x512 : S256x512.Slices ![99, 0] S1x512
  slices_S256x512_o100_0_S1x512 : S256x512.Slices ![100, 0] S1x512
  slices_S256x512_o101_0_S1x512 : S256x512.Slices ![101, 0] S1x512
  slices_S256x512_o102_0_S1x512 : S256x512.Slices ![102, 0] S1x512
  slices_S256x512_o103_0_S1x512 : S256x512.Slices ![103, 0] S1x512
  slices_S256x512_o104_0_S1x512 : S256x512.Slices ![104, 0] S1x512
  slices_S256x512_o105_0_S1x512 : S256x512.Slices ![105, 0] S1x512
  slices_S256x512_o106_0_S1x512 : S256x512.Slices ![106, 0] S1x512
  slices_S256x512_o107_0_S1x512 : S256x512.Slices ![107, 0] S1x512
  slices_S256x512_o108_0_S1x512 : S256x512.Slices ![108, 0] S1x512
  slices_S256x512_o109_0_S1x512 : S256x512.Slices ![109, 0] S1x512
  slices_S256x512_o110_0_S1x512 : S256x512.Slices ![110, 0] S1x512
  slices_S256x512_o111_0_S1x512 : S256x512.Slices ![111, 0] S1x512
  slices_S256x512_o112_0_S1x512 : S256x512.Slices ![112, 0] S1x512
  slices_S256x512_o113_0_S1x512 : S256x512.Slices ![113, 0] S1x512
  slices_S256x512_o114_0_S1x512 : S256x512.Slices ![114, 0] S1x512
  slices_S256x512_o115_0_S1x512 : S256x512.Slices ![115, 0] S1x512
  slices_S256x512_o116_0_S1x512 : S256x512.Slices ![116, 0] S1x512
  slices_S256x512_o117_0_S1x512 : S256x512.Slices ![117, 0] S1x512
  slices_S256x512_o118_0_S1x512 : S256x512.Slices ![118, 0] S1x512
  slices_S256x512_o119_0_S1x512 : S256x512.Slices ![119, 0] S1x512
  slices_S256x512_o120_0_S1x512 : S256x512.Slices ![120, 0] S1x512
  slices_S256x512_o121_0_S1x512 : S256x512.Slices ![121, 0] S1x512
  slices_S256x512_o122_0_S1x512 : S256x512.Slices ![122, 0] S1x512
  slices_S256x512_o123_0_S1x512 : S256x512.Slices ![123, 0] S1x512
  slices_S256x512_o124_0_S1x512 : S256x512.Slices ![124, 0] S1x512
  slices_S256x512_o125_0_S1x512 : S256x512.Slices ![125, 0] S1x512
  slices_S256x512_o126_0_S1x512 : S256x512.Slices ![126, 0] S1x512
  slices_S256x512_o127_0_S1x512 : S256x512.Slices ![127, 0] S1x512
  slices_S256x512_o128_0_S1x512 : S256x512.Slices ![128, 0] S1x512
  slices_S256x512_o129_0_S1x512 : S256x512.Slices ![129, 0] S1x512
  slices_S256x512_o130_0_S1x512 : S256x512.Slices ![130, 0] S1x512
  slices_S256x512_o131_0_S1x512 : S256x512.Slices ![131, 0] S1x512
  slices_S256x512_o132_0_S1x512 : S256x512.Slices ![132, 0] S1x512
  slices_S256x512_o133_0_S1x512 : S256x512.Slices ![133, 0] S1x512
  slices_S256x512_o134_0_S1x512 : S256x512.Slices ![134, 0] S1x512
  slices_S256x512_o135_0_S1x512 : S256x512.Slices ![135, 0] S1x512
  slices_S256x512_o136_0_S1x512 : S256x512.Slices ![136, 0] S1x512
  slices_S256x512_o137_0_S1x512 : S256x512.Slices ![137, 0] S1x512
  slices_S256x512_o138_0_S1x512 : S256x512.Slices ![138, 0] S1x512
  slices_S256x512_o139_0_S1x512 : S256x512.Slices ![139, 0] S1x512
  slices_S256x512_o140_0_S1x512 : S256x512.Slices ![140, 0] S1x512
  slices_S256x512_o141_0_S1x512 : S256x512.Slices ![141, 0] S1x512
  slices_S256x512_o142_0_S1x512 : S256x512.Slices ![142, 0] S1x512
  slices_S256x512_o143_0_S1x512 : S256x512.Slices ![143, 0] S1x512
  slices_S256x512_o144_0_S1x512 : S256x512.Slices ![144, 0] S1x512
  slices_S256x512_o145_0_S1x512 : S256x512.Slices ![145, 0] S1x512
  slices_S256x512_o146_0_S1x512 : S256x512.Slices ![146, 0] S1x512
  slices_S256x512_o147_0_S1x512 : S256x512.Slices ![147, 0] S1x512
  slices_S256x512_o148_0_S1x512 : S256x512.Slices ![148, 0] S1x512
  slices_S256x512_o149_0_S1x512 : S256x512.Slices ![149, 0] S1x512
  slices_S256x512_o150_0_S1x512 : S256x512.Slices ![150, 0] S1x512
  slices_S256x512_o151_0_S1x512 : S256x512.Slices ![151, 0] S1x512
  slices_S256x512_o152_0_S1x512 : S256x512.Slices ![152, 0] S1x512
  slices_S256x512_o153_0_S1x512 : S256x512.Slices ![153, 0] S1x512
  slices_S256x512_o154_0_S1x512 : S256x512.Slices ![154, 0] S1x512
  slices_S256x512_o155_0_S1x512 : S256x512.Slices ![155, 0] S1x512
  slices_S256x512_o156_0_S1x512 : S256x512.Slices ![156, 0] S1x512
  slices_S256x512_o157_0_S1x512 : S256x512.Slices ![157, 0] S1x512
  slices_S256x512_o158_0_S1x512 : S256x512.Slices ![158, 0] S1x512
  slices_S256x512_o159_0_S1x512 : S256x512.Slices ![159, 0] S1x512
  slices_S256x512_o160_0_S1x512 : S256x512.Slices ![160, 0] S1x512
  slices_S256x512_o161_0_S1x512 : S256x512.Slices ![161, 0] S1x512
  slices_S256x512_o162_0_S1x512 : S256x512.Slices ![162, 0] S1x512
  slices_S256x512_o163_0_S1x512 : S256x512.Slices ![163, 0] S1x512
  slices_S256x512_o164_0_S1x512 : S256x512.Slices ![164, 0] S1x512
  slices_S256x512_o165_0_S1x512 : S256x512.Slices ![165, 0] S1x512
  slices_S256x512_o166_0_S1x512 : S256x512.Slices ![166, 0] S1x512
  slices_S256x512_o167_0_S1x512 : S256x512.Slices ![167, 0] S1x512
  slices_S256x512_o168_0_S1x512 : S256x512.Slices ![168, 0] S1x512
  slices_S256x512_o169_0_S1x512 : S256x512.Slices ![169, 0] S1x512
  slices_S256x512_o170_0_S1x512 : S256x512.Slices ![170, 0] S1x512
  slices_S256x512_o171_0_S1x512 : S256x512.Slices ![171, 0] S1x512
  slices_S256x512_o172_0_S1x512 : S256x512.Slices ![172, 0] S1x512
  slices_S256x512_o173_0_S1x512 : S256x512.Slices ![173, 0] S1x512
  slices_S256x512_o174_0_S1x512 : S256x512.Slices ![174, 0] S1x512
  slices_S256x512_o175_0_S1x512 : S256x512.Slices ![175, 0] S1x512
  slices_S256x512_o176_0_S1x512 : S256x512.Slices ![176, 0] S1x512
  slices_S256x512_o177_0_S1x512 : S256x512.Slices ![177, 0] S1x512
  slices_S256x512_o178_0_S1x512 : S256x512.Slices ![178, 0] S1x512
  slices_S256x512_o179_0_S1x512 : S256x512.Slices ![179, 0] S1x512
  slices_S256x512_o180_0_S1x512 : S256x512.Slices ![180, 0] S1x512
  slices_S256x512_o181_0_S1x512 : S256x512.Slices ![181, 0] S1x512
  slices_S256x512_o182_0_S1x512 : S256x512.Slices ![182, 0] S1x512
  slices_S256x512_o183_0_S1x512 : S256x512.Slices ![183, 0] S1x512
  slices_S256x512_o184_0_S1x512 : S256x512.Slices ![184, 0] S1x512
  slices_S256x512_o185_0_S1x512 : S256x512.Slices ![185, 0] S1x512
  slices_S256x512_o186_0_S1x512 : S256x512.Slices ![186, 0] S1x512
  slices_S256x512_o187_0_S1x512 : S256x512.Slices ![187, 0] S1x512
  slices_S256x512_o188_0_S1x512 : S256x512.Slices ![188, 0] S1x512
  slices_S256x512_o189_0_S1x512 : S256x512.Slices ![189, 0] S1x512
  slices_S256x512_o190_0_S1x512 : S256x512.Slices ![190, 0] S1x512
  slices_S256x512_o191_0_S1x512 : S256x512.Slices ![191, 0] S1x512
  slices_S256x512_o192_0_S1x512 : S256x512.Slices ![192, 0] S1x512
  slices_S256x512_o193_0_S1x512 : S256x512.Slices ![193, 0] S1x512
  slices_S256x512_o194_0_S1x512 : S256x512.Slices ![194, 0] S1x512
  slices_S256x512_o195_0_S1x512 : S256x512.Slices ![195, 0] S1x512
  slices_S256x512_o196_0_S1x512 : S256x512.Slices ![196, 0] S1x512
  slices_S256x512_o197_0_S1x512 : S256x512.Slices ![197, 0] S1x512
  slices_S256x512_o198_0_S1x512 : S256x512.Slices ![198, 0] S1x512
  slices_S256x512_o199_0_S1x512 : S256x512.Slices ![199, 0] S1x512
  slices_S256x512_o200_0_S1x512 : S256x512.Slices ![200, 0] S1x512
  slices_S256x512_o201_0_S1x512 : S256x512.Slices ![201, 0] S1x512
  slices_S256x512_o202_0_S1x512 : S256x512.Slices ![202, 0] S1x512
  slices_S256x512_o203_0_S1x512 : S256x512.Slices ![203, 0] S1x512
  slices_S256x512_o204_0_S1x512 : S256x512.Slices ![204, 0] S1x512
  slices_S256x512_o205_0_S1x512 : S256x512.Slices ![205, 0] S1x512
  slices_S256x512_o206_0_S1x512 : S256x512.Slices ![206, 0] S1x512
  slices_S256x512_o207_0_S1x512 : S256x512.Slices ![207, 0] S1x512
  slices_S256x512_o208_0_S1x512 : S256x512.Slices ![208, 0] S1x512
  slices_S256x512_o209_0_S1x512 : S256x512.Slices ![209, 0] S1x512
  slices_S256x512_o210_0_S1x512 : S256x512.Slices ![210, 0] S1x512
  slices_S256x512_o211_0_S1x512 : S256x512.Slices ![211, 0] S1x512
  slices_S256x512_o212_0_S1x512 : S256x512.Slices ![212, 0] S1x512
  slices_S256x512_o213_0_S1x512 : S256x512.Slices ![213, 0] S1x512
  slices_S256x512_o214_0_S1x512 : S256x512.Slices ![214, 0] S1x512
  slices_S256x512_o215_0_S1x512 : S256x512.Slices ![215, 0] S1x512
  slices_S256x512_o216_0_S1x512 : S256x512.Slices ![216, 0] S1x512
  slices_S256x512_o217_0_S1x512 : S256x512.Slices ![217, 0] S1x512
  slices_S256x512_o218_0_S1x512 : S256x512.Slices ![218, 0] S1x512
  slices_S256x512_o219_0_S1x512 : S256x512.Slices ![219, 0] S1x512
  slices_S256x512_o220_0_S1x512 : S256x512.Slices ![220, 0] S1x512
  slices_S256x512_o221_0_S1x512 : S256x512.Slices ![221, 0] S1x512
  slices_S256x512_o222_0_S1x512 : S256x512.Slices ![222, 0] S1x512
  slices_S256x512_o223_0_S1x512 : S256x512.Slices ![223, 0] S1x512
  slices_S256x512_o224_0_S1x512 : S256x512.Slices ![224, 0] S1x512
  slices_S256x512_o225_0_S1x512 : S256x512.Slices ![225, 0] S1x512
  slices_S256x512_o226_0_S1x512 : S256x512.Slices ![226, 0] S1x512
  slices_S256x512_o227_0_S1x512 : S256x512.Slices ![227, 0] S1x512
  slices_S256x512_o228_0_S1x512 : S256x512.Slices ![228, 0] S1x512
  slices_S256x512_o229_0_S1x512 : S256x512.Slices ![229, 0] S1x512
  slices_S256x512_o230_0_S1x512 : S256x512.Slices ![230, 0] S1x512
  slices_S256x512_o231_0_S1x512 : S256x512.Slices ![231, 0] S1x512
  slices_S256x512_o232_0_S1x512 : S256x512.Slices ![232, 0] S1x512
  slices_S256x512_o233_0_S1x512 : S256x512.Slices ![233, 0] S1x512
  slices_S256x512_o234_0_S1x512 : S256x512.Slices ![234, 0] S1x512
  slices_S256x512_o235_0_S1x512 : S256x512.Slices ![235, 0] S1x512
  slices_S256x512_o236_0_S1x512 : S256x512.Slices ![236, 0] S1x512
  slices_S256x512_o237_0_S1x512 : S256x512.Slices ![237, 0] S1x512
  slices_S256x512_o238_0_S1x512 : S256x512.Slices ![238, 0] S1x512
  slices_S256x512_o239_0_S1x512 : S256x512.Slices ![239, 0] S1x512
  slices_S256x512_o240_0_S1x512 : S256x512.Slices ![240, 0] S1x512
  slices_S256x512_o241_0_S1x512 : S256x512.Slices ![241, 0] S1x512
  slices_S256x512_o242_0_S1x512 : S256x512.Slices ![242, 0] S1x512
  slices_S256x512_o243_0_S1x512 : S256x512.Slices ![243, 0] S1x512
  slices_S256x512_o244_0_S1x512 : S256x512.Slices ![244, 0] S1x512
  slices_S256x512_o245_0_S1x512 : S256x512.Slices ![245, 0] S1x512
  slices_S256x512_o246_0_S1x512 : S256x512.Slices ![246, 0] S1x512
  slices_S256x512_o247_0_S1x512 : S256x512.Slices ![247, 0] S1x512
  slices_S256x512_o248_0_S1x512 : S256x512.Slices ![248, 0] S1x512
  slices_S256x512_o249_0_S1x512 : S256x512.Slices ![249, 0] S1x512
  slices_S256x512_o250_0_S1x512 : S256x512.Slices ![250, 0] S1x512
  slices_S256x512_o251_0_S1x512 : S256x512.Slices ![251, 0] S1x512
  slices_S256x512_o252_0_S1x512 : S256x512.Slices ![252, 0] S1x512
  slices_S256x512_o253_0_S1x512 : S256x512.Slices ![253, 0] S1x512
  slices_S256x512_o254_0_S1x512 : S256x512.Slices ![254, 0] S1x512
  slices_S256x512_o255_0_S1x512 : S256x512.Slices ![255, 0] S1x512
  inb_S1024x512_S1024x512_0_0 : ∀ a, (![0, 0] : Fin 2 → Nat) a + S1024x512.size a ≤ S1024x512.size a
  h_S1024x512 : 0 < S1024x512.numel
  shapeCasts_S1024x16384_S1024x256x64 : S1024x16384.ShapeCasts S1024x256x64
  transposes_S1024x256x64_S256x64x1024_1_2_0 : S1024x256x64.Transposes [1, 2, 0] S256x64x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S341x4x512.size a ≤ S341x4x16384.size a
  hwx0_0 : ∀ i : grid0.Coords, EltTy.bits .f32 = 32 ∨ (Rect.block (s := S341x4x16384) S341x4x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x16384.size a
  hwx0_1 : ∀ i : grid0.Coords, EltTy.bits .f32 = 32 ∨ (Rect.block (s := S1024x16384) S1024x512.size (cc0_transform_1 i) (hinb0_1 i)).WholeWords (EltTy.packing .f32)

variable [Facts₀]

abbrev win0_0 : Pipeline.Window sig grid0 :=
  Pipeline.Window.ofSpec (Memref.whole main_v1) S341x4x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x64x341x4 : Shape := ⟨4, ![256, 64, 341, 4]⟩
abbrev S1 : Shape := ⟨1, ![1]⟩
abbrev S4 : Shape := ⟨1, ![4]⟩
abbrev S16 : Shape := ⟨1, ![16]⟩
abbrev S64 : Shape := ⟨1, ![64]⟩
abbrev S256 : Shape := ⟨1, ![256]⟩
abbrev S_ : Shape := ⟨0, ![]⟩
abbrev S256x64x341 : Shape := ⟨3, ![256, 64, 341]⟩
abbrev S256x64x341x1 : Shape := ⟨4, ![256, 64, 341, 1]⟩
abbrev S256x64x1 : Shape := ⟨3, ![256, 64, 1]⟩
abbrev S1x1 : Shape := ⟨2, ![1, 1]⟩
abbrev S256x64x1x4 : Shape := ⟨4, ![256, 64, 1, 4]⟩
abbrev S256x64x1x1 : Shape := ⟨4, ![256, 64, 1, 1]⟩
abbrev S256x64x4 : Shape := ⟨3, ![256, 64, 4]⟩
abbrev S4x1 : Shape := ⟨2, ![4, 1]⟩
abbrev S256x64x4x4 : Shape := ⟨4, ![256, 64, 4, 4]⟩
abbrev S256x64x4x1 : Shape := ⟨4, ![256, 64, 4, 1]⟩
abbrev S256x64x16 : Shape := ⟨3, ![256, 64, 16]⟩
abbrev S16x1 : Shape := ⟨2, ![16, 1]⟩
abbrev S256x64x16x4 : Shape := ⟨4, ![256, 64, 16, 4]⟩
abbrev S256x64x16x1 : Shape := ⟨4, ![256, 64, 16, 1]⟩
abbrev S256x64x64 : Shape := ⟨3, ![256, 64, 64]⟩
abbrev S64x1 : Shape := ⟨2, ![64, 1]⟩
abbrev S256x64x64x4 : Shape := ⟨4, ![256, 64, 64, 4]⟩
abbrev S256x64x64x1 : Shape := ⟨4, ![256, 64, 64, 1]⟩
abbrev S256x64x256 : Shape := ⟨3, ![256, 64, 256]⟩
abbrev S256x1 : Shape := ⟨2, ![256, 1]⟩
abbrev S256x64x256x4 : Shape := ⟨4, ![256, 64, 256, 4]⟩
abbrev S256x64x256x1 : Shape := ⟨4, ![256, 64, 256, 1]⟩
abbrev S256x64x1024 : Shape := ⟨3, ![256, 64, 1024]⟩

abbrev nBuf : Space → Nat
  | .hbm => 156
  | .vmem => 0
  | .smem => 0
  | _ => 0

abbrev hbmTy0_0 (i : Nat) : BufTy := match i % 128 with
  | 0 => ⟨S256x64x341x4, .f32⟩
  | 1 => ⟨S1, .i32⟩
  | 2 => ⟨S4, .i32⟩
  | 3 => ⟨S16, .i32⟩
  | 4 => ⟨S64, .i32⟩
  | 5 => ⟨S256, .i32⟩
  | 6 => ⟨S_, .f32⟩
  | 7 => ⟨S256x64x341, .f32⟩
  | 8 => ⟨S_, .f32⟩
  | 9 => ⟨S256x64x341, .f32⟩
  | 10 => ⟨S256x64x341, .f32⟩
  | 11 => ⟨S256x64x341x1, .f32⟩
  | 12 => ⟨S256x64x341x4, .f32⟩
  | 13 => ⟨S256x64x341x4, .f32⟩
  | 14 => ⟨S256x64x341x4, .f32⟩
  | 15 => ⟨S_, .f32⟩
  | 16 => ⟨S256x64x341, .f32⟩
  | 17 => ⟨S256x64x341x1, .f32⟩
  | 18 => ⟨S256x64x341x4, .f32⟩
  | 19 => ⟨S256x64x341x4, .f32⟩
  | 20 => ⟨S_, .f32⟩
  | 21 => ⟨S256x64x1, .f32⟩
  | 22 => ⟨S_, .i32⟩
  | 23 => ⟨S1, .i32⟩
  | 24 => ⟨S1, .i1⟩
  | 25 => ⟨S_, .i32⟩
  | 26 => ⟨S1, .i32⟩
  | 27 => ⟨S1, .i32⟩
  | 28 => ⟨S1, .i32⟩
  | 29 => ⟨S1x1, .i32⟩
  | 30 => ⟨S1, .i32⟩
  | 31 => ⟨S_, .i32⟩
  | 32 => ⟨S1x1, .i32⟩
  | 33 => ⟨S1x1, .i1⟩
  | 34 => ⟨S1x1, .i32⟩
  | 35 => ⟨S1x1, .i1⟩
  | 36 => ⟨S1x1, .i1⟩
  | 37 => ⟨S_, .i1⟩
  | 38 => ⟨S1, .i1⟩
  | 39 => ⟨S256x64x1x4, .f32⟩
  | 40 => ⟨S256x64x1x4, .i1⟩
  | 41 => ⟨S_, .f32⟩
  | 42 => ⟨S256x64x1x4, .f32⟩
  | 43 => ⟨S256x64x1x4, .f32⟩
  | 44 => ⟨S256x64x1x1, .f32⟩
  | 45 => ⟨S256x64x1x4, .f32⟩
  | 46 => ⟨S256x64x1x4, .f32⟩
  | 47 => ⟨S256x64x4, .f32⟩
  | 48 => ⟨S_, .i32⟩
  | 49 => ⟨S4, .i32⟩
  | 50 => ⟨S4, .i1⟩
  | 51 => ⟨S_, .i32⟩
  | 52 => ⟨S4, .i32⟩
  | 53 => ⟨S4, .i32⟩
  | 54 => ⟨S4, .i32⟩
  | 55 => ⟨S4x1, .i32⟩
  | 56 => ⟨S1, .i32⟩
  | 57 => ⟨S_, .i32⟩
  | 58 => ⟨S4x1, .i32⟩
  | 59 => ⟨S4x1, .i1⟩
  | 60 => ⟨S1x1, .i32⟩
  | 61 => ⟨S4x1, .i32⟩
  | 62 => ⟨S4x1, .i1⟩
  | 63 => ⟨S4x1, .i1⟩
  | 64 => ⟨S_, .i1⟩
  | 65 => ⟨S4, .i1⟩
  | 66 => ⟨S256x64x4x4, .f32⟩
  | 67 => ⟨S256x64x4x4, .i1⟩
  | 68 => ⟨S_, .f32⟩
  | 69 => ⟨S256x64x4x4, .f32⟩
  | 70 => ⟨S256x64x4x4, .f32⟩
  | 71 => ⟨S256x64x4x1, .f32⟩
  | 72 => ⟨S256x64x4x4, .f32⟩
  | 73 => ⟨S256x64x4x4, .f32⟩
  | 74 => ⟨S256x64x16, .f32⟩
  | 75 => ⟨S_, .i32⟩
  | 76 => ⟨S16, .i32⟩
  | 77 => ⟨S16, .i1⟩
  | 78 => ⟨S_, .i32⟩
  | 79 => ⟨S16, .i32⟩
  | 80 => ⟨S16, .i32⟩
  | 81 => ⟨S16, .i32⟩
  | 82 => ⟨S16x1, .i32⟩
  | 83 => ⟨S1, .i32⟩
  | 84 => ⟨S_, .i32⟩
  | 85 => ⟨S16x1, .i32⟩
  | 86 => ⟨S16x1, .i1⟩
  | 87 => ⟨S1x1, .i32⟩
  | 88 => ⟨S16x1, .i32⟩
  | 89 => ⟨S16x1, .i1⟩
  | 90 => ⟨S16x1, .i1⟩
  | 91 => ⟨S_, .i1⟩
  | 92 => ⟨S16, .i1⟩
  | 93 => ⟨S256x64x16x4, .f32⟩
  | 94 => ⟨S256x64x16x4, .i1⟩
  | 95 => ⟨S_, .f32⟩
  | 96 => ⟨S256x64x16x4, .f32⟩
  | 97 => ⟨S256x64x16x4, .f32⟩
  | 98 => ⟨S256x64x16x1, .f32⟩
  | 99 => ⟨S256x64x16x4, .f32⟩
  | 100 => ⟨S256x64x16x4, .f32⟩
  | 101 => ⟨S256x64x64, .f32⟩
  | 102 => ⟨S_, .i32⟩
  | 103 => ⟨S64, .i32⟩
  | 104 => ⟨S64, .i1⟩
  | 105 => ⟨S_, .i32⟩
  | 106 => ⟨S64, .i32⟩
  | 107 => ⟨S64, .i32⟩
  | 108 => ⟨S64, .i32⟩
  | 109 => ⟨S64x1, .i32⟩
  | 110 => ⟨S1, .i32⟩
  | 111 => ⟨S_, .i32⟩
  | 112 => ⟨S64x1, .i32⟩
  | 113 => ⟨S64x1, .i1⟩
  | 114 => ⟨S1x1, .i32⟩
  | 115 => ⟨S64x1, .i32⟩
  | 116 => ⟨S64x1, .i1⟩
  | 117 => ⟨S64x1, .i1⟩
  | 118 => ⟨S_, .i1⟩
  | 119 => ⟨S64, .i1⟩
  | 120 => ⟨S256x64x64x4, .f32⟩
  | 121 => ⟨S256x64x64x4, .i1⟩
  | 122 => ⟨S_, .f32⟩
  | 123 => ⟨S256x64x64x4, .f32⟩
  | 124 => ⟨S256x64x64x4, .f32⟩
  | 125 => ⟨S256x64x64x1, .f32⟩
  | 126 => ⟨S256x64x64x4, .f32⟩
  | 127 => ⟨S256x64x64x4, .f32⟩
  | _ => ⟨S256x64x341x4, .f32⟩

abbrev hbmTy0_1 (i : Nat) : BufTy := match i % 128 with
  | 0 => ⟨S256x64x256, .f32⟩
  | 1 => ⟨S_, .i32⟩
  | 2 => ⟨S256, .i32⟩
  | 3 => ⟨S256, .i1⟩
  | 4 => ⟨S_, .i32⟩
  | 5 => ⟨S256, .i32⟩
  | 6 => ⟨S256, .i32⟩
  | 7 => ⟨S256, .i32⟩
  | 8 => ⟨S256x1, .i32⟩
  | 9 => ⟨S1, .i32⟩
  | 10 => ⟨S_, .i32⟩
  | 11 => ⟨S256x1, .i32⟩
  | 12 => ⟨S256x1, .i1⟩
  | 13 => ⟨S1x1, .i32⟩
  | 14 => ⟨S256x1, .i32⟩
  | 15 => ⟨S256x1, .i1⟩
  | 16 => ⟨S256x1, .i1⟩
  | 17 => ⟨S_, .i1⟩
  | 18 => ⟨S256, .i1⟩
  | 19 => ⟨S256x64x256x4, .f32⟩
  | 20 => ⟨S256x64x256x4, .i1⟩
  | 21 => ⟨S_, .f32⟩
  | 22 => ⟨S256x64x256x4, .f32⟩
  | 23 => ⟨S256x64x256x4, .f32⟩
  | 24 => ⟨S256x64x256x1, .f32⟩
  | 25 => ⟨S256x64x256x4, .f32⟩
  | 26 => ⟨S256x64x256x4, .f32⟩
  | 27 => ⟨S256x64x1024, .f32⟩
  | _ => ⟨S256x64x341x4, .f32⟩

abbrev hbmTy (i : Nat) : BufTy := match i / 128 with
  | 0 => hbmTy0_0 i
  | 1 => hbmTy0_1 i
  | _ => ⟨S256x64x341x4, .f32⟩

abbrev bufTy : (tb : Table) → Fin (tcTables nBuf tb) → BufTy
  | .hbm, ⟨i, _⟩ => hbmTy i
  | _, _ => ⟨S256x64x341x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_cst : Ref sig .tc := ⟨.hbm, 6, rfl⟩
abbrev main_v0 : Ref sig .tc := ⟨.hbm, 7, rfl⟩
abbrev main_cst_4 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_5 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_c_3 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_cst : Ref sig .tc := ⟨.hbm, 122, rfl⟩
abbrev main_call3_v15 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v32 : Ref sig .tc := ⟨.hbm, 151, rfl⟩
abbrev main_v33 : Ref sig .tc := ⟨.hbm, 152, rfl⟩
abbrev main_v34 : Ref sig .tc := ⟨.hbm, 153, rfl⟩
abbrev main_v35 : Ref sig .tc := ⟨.hbm, 154, rfl⟩
abbrev main_v36 : Ref sig .tc := ⟨.hbm, 155, rfl⟩

abbrev nD : Nat := 1
abbrev τ : Topo := Topo.v7x

variable {F : FTy → Type} [FloatOps F]

class Facts₀ : Prop where
  reducesTo_S256x64x341x4_S256x64x341_d3 : S256x64x341x4.ReducesTo [3] S256x64x341
  h_S_ : 0 < S_.numel
  bcast_S_S256x64x341 : S_.BroadcastsInDim S256x64x341 (![] : Fin 0 → Fin S256x64x341.rank)
  bcast_S256x64x341_S256x64x341x1_0_1_2 : S256x64x341.BroadcastsInDim S256x64x341x1 (![0, 1, 2] : Fin 3 → Fin S256x64x341x1.rank)
  bcast_S256x64x341x1_S256x64x341x4_0_1_2_3 : S256x64x341x1.BroadcastsInDim S256x64x341x4 (![0, 1, 2, 3] : Fin 4 → Fin S256x64x341x4.rank)
  bcast_S_S256x64x1 : S_.BroadcastsInDim S256x64x1 (![] : Fin 0 → Fin S256x64x1.rank)
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  bcast_S1_S256x64x1x4_2 : S1.BroadcastsInDim S256x64x1x4 (![2] : Fin 1 → Fin S256x64x1x4.rank)
  bcast_S_S256x64x1x4 : S_.BroadcastsInDim S256x64x1x4 (![] : Fin 0 → Fin S256x64x1x4.rank)
  bcast_S256x64x1_S256x64x1x1_0_1_2 : S256x64x1.BroadcastsInDim S256x64x1x1 (![0, 1, 2] : Fin 3 → Fin S256x64x1x1.rank)
  bcast_S256x64x1x1_S256x64x1x4_0_1_2_3 : S256x64x1x1.BroadcastsInDim S256x64x1x4 (![0, 1, 2, 3] : Fin 4 → Fin S256x64x1x4.rank)
  shapeCasts_S256x64x1x4_S256x64x4 : S256x64x1x4.ShapeCasts S256x64x4
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1x1_S4x1_0_1 : S1x1.BroadcastsInDim S4x1 (![0, 1] : Fin 2 → Fin S4x1.rank)
  reducesTo_S4x1_S4_d1 : S4x1.ReducesTo [1] S4
  bcast_S4_S256x64x4x4_2 : S4.BroadcastsInDim S256x64x4x4 (![2] : Fin 1 → Fin S256x64x4x4.rank)
  bcast_S_S256x64x4x4 : S_.BroadcastsInDim S256x64x4x4 (![] : Fin 0 → Fin S256x64x4x4.rank)
  bcast_S256x64x4_S256x64x4x1_0_1_2 : S256x64x4.BroadcastsInDim S256x64x4x1 (![0, 1, 2] : Fin 3 → Fin S256x64x4x1.rank)
  bcast_S256x64x4x1_S256x64x4x4_0_1_2_3 : S256x64x4x1.BroadcastsInDim S256x64x4x4 (![0, 1, 2, 3] : Fin 4 → Fin S256x64x4x4.rank)
  shapeCasts_S256x64x4x4_S256x64x16 : S256x64x4x4.ShapeCasts S256x64x16
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1x1_S16x1_0_1 : S1x1.BroadcastsInDim S16x1 (![0, 1] : Fin 2 → Fin S16x1.rank)
  reducesTo_S16x1_S16_d1 : S16x1.ReducesTo [1] S16
  bcast_S16_S256x64x16x4_2 : S16.BroadcastsInDim S256x64x16x4 (![2] : Fin 1 → Fin S256x64x16x4.rank)
  bcast_S_S256x64x16x4 : S_.BroadcastsInDim S256x64x16x4 (![] : Fin 0 → Fin S256x64x16x4.rank)
  bcast_S256x64x16_S256x64x16x1_0_1_2 : S256x64x16.BroadcastsInDim S256x64x16x1 (![0, 1, 2] : Fin 3 → Fin S256x64x16x1.rank)
  bcast_S256x64x16x1_S256x64x16x4_0_1_2_3 : S256x64x16x1.BroadcastsInDim S256x64x16x4 (![0, 1, 2, 3] : Fin 4 → Fin S256x64x16x4.rank)
  shapeCasts_S256x64x16x4_S256x64x64 : S256x64x16x4.ShapeCasts S256x64x64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1x1_S64x1_0_1 : S1x1.BroadcastsInDim S64x1 (![0, 1] : Fin 2 → Fin S64x1.rank)
  reducesTo_S64x1_S64_d1 : S64x1.ReducesTo [1] S64
  bcast_S64_S256x64x64x4_2 : S64.BroadcastsInDim S256x64x64x4 (![2] : Fin 1 → Fin S256x64x64x4.rank)
  bcast_S_S256x64x64x4 : S_.BroadcastsInDim S256x64x64x4 (![] : Fin 0 → Fin S256x64x64x4.rank)
  bcast_S256x64x64_S256x64x64x1_0_1_2 : S256x64x64.BroadcastsInDim S256x64x64x1 (![0, 1, 2] : Fin 3 → Fin S256x64x64x1.rank)
  bcast_S256x64x64x1_S256x64x64x4_0_1_2_3 : S256x64x64x1.BroadcastsInDim S256x64x64x4 (![0, 1, 2, 3] : Fin 4 → Fin S256x64x64x4.rank)
  shapeCasts_S256x64x64x4_S256x64x256 : S256x64x64x4.ShapeCasts S256x64x256
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1x1_S256x1_0_1 : S1x1.BroadcastsInDim S256x1 (![0, 1] : Fin 2 → Fin S256x1.rank)
  reducesTo_S256x1_S256_d1 : S256x1.ReducesTo [1] S256
  bcast_S256_S256x64x256x4_2 : S256.BroadcastsInDim S256x64x256x4 (![2] : Fin 1 → Fin S256x64x256x4.rank)
  bcast_S_S256x64x256x4 : S_.BroadcastsInDim S256x64x256x4 (![] : Fin 0 → Fin S256x64x256x4.rank)
  bcast_S256x64x256_S256x64x256x1_0_1_2 : S256x64x256.BroadcastsInDim S256x64x256x1 (![0, 1, 2] : Fin 3 → Fin S256x64x256x1.rank)
  bcast_S256x64x256x1_S256x64x256x4_0_1_2_3 : S256x64x256x1.BroadcastsInDim S256x64x256x4 (![0, 1, 2, 3] : Fin 4 → Fin S256x64x256x4.rank)
  shapeCasts_S256x64x256x4_S256x64x1024 : S256x64x256x4.ShapeCasts S256x64x1024
  gather_S256x64x341x4_S1x1_S256x64x1x4_013_2_n_n_2_1_2566414_wf : GatherDims.WF S256x64x341x4 S1x1 S256x64x1x4 [0, 1, 3] [2] [] [2] [] 1 ![256, 64, 1, 4]
  gather_S256x64x341x4_S4x1_S256x64x4x4_013_2_n_n_2_1_2566414_wf : GatherDims.WF S256x64x341x4 S4x1 S256x64x4x4 [0, 1, 3] [2] [] [2] [] 1 ![256, 64, 1, 4]
  gather_S256x64x341x4_S16x1_S256x64x16x4_013_2_n_n_2_1_2566414_wf : GatherDims.WF S256x64x341x4 S16x1 S256x64x16x4 [0, 1, 3] [2] [] [2] [] 1 ![256, 64, 1, 4]
  gather_S256x64x341x4_S64x1_S256x64x64x4_013_2_n_n_2_1_2566414_wf : GatherDims.WF S256x64x341x4 S64x1 S256x64x64x4 [0, 1, 3] [2] [] [2] [] 1 ![256, 64, 1, 4]
  gather_S256x64x341x4_S256x1_S256x64x256x4_013_2_n_n_2_1_2566414_wf : GatherDims.WF S256x64x341x4 S256x1 S256x64x256x4 [0, 1, 3] [2] [] [2] [] 1 ![256, 64, 1, 4]

variable [Facts₀]

def gather_S256x64x341x4_S1x1_S256x64x1x4_013_2_n_n_2_1_2566414 : GatherDims S256x64x341x4 S1x1 S256x64x1x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S1x1_S256x64x1x4_013_2_n_n_2_1_2566414_wf
def gather_S256x64x341x4_S4x1_S256x64x4x4_013_2_n_n_2_1_2566414 : GatherDims S256x64x341x4 S4x1 S256x64x4x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S4x1_S256x64x4x4_013_2_n_n_2_1_2566414_wf
def gather_S256x64x341x4_S16x1_S256x64x16x4_013_2_n_n_2_1_2566414 : GatherDims S256x64x341x4 S16x1 S256x64x16x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S16x1_S256x64x16x4_013_2_n_n_2_1_2566414_wf
def gather_S256x64x341x4_S64x1_S256x64x64x4_013_2_n_n_2_1_2566414 : GatherDims S256x64x341x4 S64x1 S256x64x64x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S64x1_S256x64x64x4_013_2_n_n_2_1_2566414_wf
def gather_S256x64x341x4_S256x1_S256x64x256x4_013_2_n_n_2_1_2566414 : GatherDims S256x64x341x4 S256x1 S256x64x256x4 where
  offsetDims := [0, 1, 3]
  collapsedSliceDims := [2]
  operandBatchingDims := []
  startIndicesBatchingDims := []
  startIndexMap := [2]
  indexVectorDim := 1
  sliceSizes := ![256, 64, 1, 4]
  wf := gather_S256x64x341x4_S256x1_S256x64x256x4_013_2_n_n_2_1_2566414_wf

class Facts : Prop extends Facts₀ where

variable [Facts]
-- ==== Proof.Tree.lean ====
/-
  One level of the decision tree, as an operation on tiles of 512 lanes.

  A level holds K nodes; its weights are a [K, 512] tile `w` (row k: the probability of reaching node k, per lane) and
  the node probabilities are a [341, 4, 512] block `P` (node n, branch j, lane q).  The next level's weights are the
  [4K, 512] tile whose row 4k + j is  w[k] · P[node k, j]:  the rows of `w` each repeated four times, stacked, times
  the four-row tiles P[node k] stacked.  `step` is that tile, written with the vector operations (slice, reshape,
  broadcast, concatenate, multiply); `step_apply` reads it at a row and a lane.
-/
import Idealize.ShloMosaic.PureOps.Ideal
import Idealize.ShloMosaic.Lib.ValueIdx
import Idealize.ShloMosaic.Lib.Pipeline.Value

noncomputable section

namespace Cert.Tree

open Idealize.ShloMosaic Idealize.ShloMosaic.ValueIdx

variable {F : FTy → Type} [FloatOps F]

/-- A tile of K rows and 512 lanes. -/
abbrev Sx (K : Nat) : Shape := ⟨2, ![K, 512]⟩
/-- The block of node probabilities: 341 nodes, 4 branches, 512 lanes. -/
abbrev Sp : Shape := ⟨3, ![341, 4, 512]⟩
/-- One node's probabilities, still with its unit node axis. -/
abbrev Sp1 : Shape := ⟨3, ![1, 4, 512]⟩

theorem slices_row (n : Nat) (hn : n < 341) : Sp.Slices ![n, 0, 0] Sp1 :=
  ⟨rfl, fun a => by
    match a with
    | ⟨0, _⟩ => show n + 1 ≤ 341; omega
    | ⟨1, _⟩ => show 0 + 4 ≤ 4; omega
    | ⟨2, _⟩ => show 0 + 512 ≤ 512; omega⟩

theorem slices_rep (K k : Nat) (hk : k < K) : (Sx K).Slices ![k, 0] (Sx 1) :=
  ⟨rfl, fun a => by
    match a with
    | ⟨0, _⟩ => show k + 1 ≤ K; omega
    | ⟨1, _⟩ => show 0 + 512 ≤ 512; omega⟩

/-- Node `n`'s four branch probabilities as a [4, 512] tile. -/
def rowP (P : FVec F Sp .f32) (n : Nat) (hn : n < 341) : FVec F (Sx 4) .f32 :=
  shapeCast (Sx 4) (extractStridedSlice Sp1 ![n, 0, 0] P (slices_row n hn)) (by decide)

/-- Row `k` of a weight tile repeated on four rows. -/
def repW (K : Nat) (w : FVec F (Sx K) .f32) (k : Nat) (hk : k < K) : FVec F (Sx 4) .f32 :=
  broadcastTo (Sx 4) (shapeCast (Sx 1) (extractStridedSlice (Sx 1) ![k, 0] w (slices_rep K k hk)) (by decide)) (by decide)

/-- K four-row tiles stack to a tile of 4K rows. -/
theorem concat_ok {α : Type} (K K4 : Nat) (hK : 2 ≤ K) (h4 : K4 = 4 * K) (f : Fin K → ((Sx 4).Idx → α)) :
    Shape.Concatenates ((List.ofFn fun k : Fin K => (⟨Sx 4, f k⟩ : (s : Shape) × (s.Idx → α))).map (·.1)) (Sx K4) 0 := by
  have hmap : (List.ofFn fun k : Fin K => (⟨Sx 4, f k⟩ : (s : Shape) × (s.Idx → α))).map (·.1)
      = List.replicate K (Sx 4) := by
    rw [List.map_ofFn]; exact List.ofFn_const K (Sx 4)
  rw [hmap]
  refine ⟨by simpa using hK, ?_, ?_⟩
  · intro s hs
    obtain rfl := List.eq_of_mem_replicate hs
    refine ⟨rfl, fun b hb => ?_⟩
    match b, hb with
    | ⟨1, _⟩, _ => rfl
    | ⟨0, _⟩, hb => exact absurd rfl hb
  · rw [List.map_replicate, List.sum_replicate]
    simp [h4]
    omega

/-- The next level's weights: row 4k + j is `w[k] · P[node k, j]`. -/
def step (K K4 : Nat) (hK : 2 ≤ K) (h4 : K4 = 4 * K) (w : FVec F (Sx K) .f32) (P : FVec F Sp .f32)
    (node : Fin K → Nat) (hnode : ∀ k, node k < 341) : FVec F (Sx K4) .f32 :=
  mulf (concatenate (Sx K4) 0 (List.ofFn fun k : Fin K => ⟨Sx 4, repW K w k.val k.isLt⟩) (concat_ok K K4 hK h4 _))
    (concatenate (Sx K4) 0 (List.ofFn fun k : Fin K => ⟨Sx 4, rowP P (node k) (hnode k)⟩) (concat_ok K K4 hK h4 _))

/-- A node's tile at branch `j`, lane `q`. -/
theorem rowP_apply {α : Type} (P : Sp.Idx → α) (n : Nat) (hn : n < 341) (j : Fin 4) (q : Fin 512) :
    shapeCast (Sx 4) (extractStridedSlice Sp1 ![n, 0, 0] P (slices_row n hn)) (by decide) (ix2 j q)
      = P (ix3 ⟨n, hn⟩ j q) := by
  refine (shapeCast_apply _ _ (ix2 j q) (ix3 (0 : Fin 1) j q) ?_).trans ?_
  · rw [Shape.rowMajor_val_three, Shape.rowMajor_val_two]
    show (0 * 4 + j.val) * 512 + q.val = j.val * 512 + q.val
    omega
  · refine extractStridedSlice_apply _ _ _ _ (ix3 ⟨n, hn⟩ j q) ?_
    intro a
    match a with
    | ⟨0, _⟩ => show n = n + 0; omega
    | ⟨1, _⟩ => show j.val = 0 + j.val; omega
    | ⟨2, _⟩ => show q.val = 0 + q.val; omega

/-- A repeated row at any of its four rows, lane `q`. -/
theorem repW_apply {α : Type} (K : Nat) (w : (Sx K).Idx → α) (k : Nat) (hk : k < K) (j : Fin 4) (q : Fin 512) :
    broadcastTo (Sx 4) (shapeCast (Sx 1) (extractStridedSlice (Sx 1) ![k, 0] w (slices_rep K k hk)) (by decide)) (by decide) (ix2 j q)
      = w (ix2 ⟨k, hk⟩ q) := by
  refine (broadcastTo_apply _ _ (ix2 j q) (ix2 (0 : Fin 1) q) ?_).trans ?_
  · intro a
    match a with
    | ⟨0, _⟩ => rfl
    | ⟨1, _⟩ => rfl
  · rw [shapeCast_self]
    refine extractStridedSlice_apply _ _ _ _ (ix2 ⟨k, hk⟩ q) ?_
    intro a
    match a with
    | ⟨0, _⟩ => show k = k + 0; omega
    | ⟨1, _⟩ => show q.val = 0 + q.val; omega

/-- The stacked tiles at row `r`: tile `r / 4` at its row `r % 4`. -/
theorem stack_apply {α : Type} (K K4 : Nat) (hK : 2 ≤ K) (h4 : K4 = 4 * K) (f : Fin K → ((Sx 4).Idx → α))
    (r : Fin K4) (q : Fin 512) :
    concatenate (Sx K4) 0 (List.ofFn fun k : Fin K => (⟨Sx 4, f k⟩ : (s : Shape) × (s.Idx → α))) (concat_ok K K4 hK h4 f) (ix2 r q)
      = f ⟨r.val / 4, by have := r.isLt; omega⟩ (ix2 ⟨r.val % 4, Nat.mod_lt _ (by decide)⟩ q) := by
  refine concatenate_ofFn_apply (t := Sx K4) (0 : Fin 2) f _ rfl 4 rfl (ix2 r q) ⟨r.val / 4, by have := r.isLt; omega⟩ rfl
    (ix2 ⟨r.val % 4, Nat.mod_lt _ (by decide)⟩ q) rfl ?_
  intro b hb
  match b, hb with
  | ⟨1, _⟩, _ => rfl
  | ⟨0, _⟩, hb => exact absurd rfl hb

/-- **One level, read at a row and a lane.** -/
theorem step_apply (K K4 : Nat) (hK : 2 ≤ K) (h4 : K4 = 4 * K) (w : FVec Ideal (Sx K) .f32) (P : FVec Ideal Sp .f32)
    (node : Fin K → Nat) (hnode : ∀ k, node k < 341) (r : Fin K4) (q : Fin 512) :
    step K K4 hK h4 w P node hnode (ix2 r q)
      = w (ix2 ⟨r.val / 4, by have := r.isLt; omega⟩ q)
        * P (ix3 ⟨node ⟨r.val / 4, by have := r.isLt; omega⟩, hnode _⟩ ⟨r.val % 4, Nat.mod_lt _ (by decide)⟩ q) := by
  unfold step
  rw [mulf_apply, stack_apply K K4 hK h4, stack_apply K K4 hK h4]
  unfold repW rowP
  rw [repW_apply, rowP_apply]

end Cert.Tree

end
-- ==== Proof.Spec.lean ====
/-
  The value both programs compute, as one function of the input.

  The input holds, for each of 256 × 64 trees, 341 nodes of 4 logits.  A node's branch probabilities are the softmax
  of its logits; a leaf's probability is the product of the branch probabilities on the path from the root, taken in
  that order starting from 1.  The nodes are numbered in depth-first preorder, so the k-th node of level l + 1 is the
  (k mod 4)-th child of the (k / 4)-th node of level l, and the subtree below a child of a level-l node has
  85, 21, 5, 1 nodes for l = 0, 1, 2, 3.
-/
import Idealize.ShloMosaic.PureOps.Ideal
import Idealize.ShloMosaic.Lib.ValueIdx

noncomputable section

namespace Cert.Spec

open Idealize.ShloMosaic Idealize.ShloMosaic.ValueIdx

/-- The number of nodes in the subtree hanging from a child of a level-`l` node. -/
def sub : Nat → Nat
  | 0 => 85
  | 1 => 21
  | 2 => 5
  | _ => 1

/-- The preorder number of the `k`-th node of level `l`: one past its parent, plus the subtrees of its elder siblings. -/
def node : Nat → Nat → Nat
  | 0, _ => 0
  | l + 1, k => node l (k / 4) + 1 + (k % 4) * sub l

theorem node0_lt : ∀ k : Fin 1, node 0 k.val < 341 := by decide
theorem node1_lt : ∀ k : Fin 4, node 1 k.val < 341 := by decide
theorem node2_lt : ∀ k : Fin 16, node 2 k.val < 341 := by decide
theorem node3_lt : ∀ k : Fin 64, node 3 k.val < 341 := by decide
theorem node4_lt : ∀ k : Fin 256, node 4 k.val < 341 := by decide

/-- The weight of the `ρ`-th node of level `l` (for `l = 5`: of the `ρ`-th leaf) under branch probabilities `p`:
    its parent's weight times the probability of the branch that leads to it. -/
def treeW (one : EReal) (p : Nat → Nat → EReal) : Nat → Nat → EReal
  | 0, _ => one
  | l + 1, ρ => treeW one p l (ρ / 4) * p (node l (ρ / 4)) (ρ % 4)

theorem treeW_succ (one : EReal) (p : Nat → Nat → EReal) (l ρ : Nat) :
    treeW one p (l + 1) ρ = treeW one p l (ρ / 4) * p (node l (ρ / 4)) (ρ % 4) := rfl

/-- The largest of four logits (folded from the least float value, −∞). -/
def mx4 (x : Fin 4 → EReal) : EReal :=
  (Finset.univ : Finset (Fin 4)).fold max (Ideal.ofBits .f32 0xFF800000#32) x

/-- The softmax of four logits at branch `j`, with the operations as the programs apply them. -/
def smax4 (x : Fin 4 → EReal) (j : Fin 4) : EReal :=
  Ideal.div (Ideal.exp (x j - mx4 x)) (∑ k : Fin 4, Ideal.exp (x k - mx4 x))

/-- Branch probabilities of one tree, total on the naturals (zero off the table). -/
def probs (x : Fin 341 → Fin 4 → EReal) : Nat → Nat → EReal :=
  fun n j => if h : n < 341 ∧ j < 4 then smax4 (x ⟨n, h.1⟩) ⟨j, h.2⟩ else 0

theorem probs_of_lt (x : Fin 341 → Fin 4 → EReal) (n j : Nat) (hn : n < 341) (hj : j < 4) :
    probs x n j = smax4 (x ⟨n, hn⟩) ⟨j, hj⟩ := dif_pos ⟨hn, hj⟩

/-- **The result**: for tree (b, t) and leaf r, the leaf's weight under the tree's softmax probabilities. -/
def G (X : (⟨4, ![256, 64, 341, 4]⟩ : Shape).Idx → EReal) : (⟨3, ![256, 64, 1024]⟩ : Shape).Idx → EReal :=
  fun i => treeW (Ideal.ofBits .f32 0x3F800000#32) (probs fun n k => X (ix4 (i 0) (i 1) n k)) 5 (i 2).val

end Cert.Spec

end
-- ==== Proof.KBody.lean ====
/-
  The kernel body's tree part as five levels.

  From the block of node probabilities P (341 nodes × 4 branches × 512 lanes) the body builds the leaf weights level by
  level: the root level is 1 · P[0] (four rows), and each further level is `Cert.Tree.step` of the level before with
  the preorder node numbers `Cert.Spec.node`.  `W5_apply` reads the 1024 leaf rows at a lane as the specification's
  `treeW`.
-/
import proofs.«166625_j24962349924771_1_alg».proof.Proof.Gen.KernelIdeal.Skeleton
import proofs.«166625_j24962349924771_1_alg».proof.Proof.Tree
import proofs.«166625_j24962349924771_1_alg».proof.Proof.Spec

noncomputable section

namespace Cert.KernelIdeal.KVal

open Idealize.ShloMosaic Idealize.ShloMosaic.ValueIdx Cert.KernelIdeal Cert.KernelIdeal.Gen Cert.Tree Cert.Spec

variable {F : FTy → Type} [FloatOps F]

/-- Level 1: the root's weight 1 on four rows, times the root's branch probabilities. -/
def W1 (P : FVec F Sp .f32) : FVec F (Sx 4) .f32 :=
  mulf (broadcastTo (Sx 4) (shapeCast (Sx 1) (broadcast (Sx 1) (Scalar.ofBits .f32 0x3F800000#32)) (by decide)) (by decide))
    (rowP P 0 (by decide))

def W2 (P : FVec F Sp .f32) : FVec F (Sx 16) .f32 :=
  step 4 16 (by decide) rfl (W1 P) P (fun k => node 1 k.val) node1_lt

def W3 (P : FVec F Sp .f32) : FVec F (Sx 64) .f32 :=
  step 16 64 (by decide) rfl (W2 P) P (fun k => node 2 k.val) node2_lt

def W4 (P : FVec F Sp .f32) : FVec F (Sx 256) .f32 :=
  step 64 256 (by decide) rfl (W3 P) P (fun k => node 3 k.val) node3_lt

def W5 (P : FVec F Sp .f32) : FVec F (Sx 1024) .f32 :=
  step 256 1024 (by decide) rfl (W4 P) P (fun k => node 4 k.val) node4_lt

/-- The first two levels are the body's first product of stacked tiles. -/
theorem pay2_eq (v0 : Vec F S341x4x512 .f32) : k0_pay2 v0 = W2 (k0_pay1 v0) := rfl

/-- A block of node probabilities read at a lane, total on the naturals (zero off the table). -/
def pAt (P : FVec Ideal Sp .f32) (q : Fin 512) : Nat → Nat → EReal :=
  fun n j => if h : n < 341 ∧ j < 4 then P (ix3 ⟨n, h.1⟩ ⟨j, h.2⟩ q) else 0

theorem pAt_of_lt (P : FVec Ideal Sp .f32) (q : Fin 512) (n j : Nat) (hn : n < 341) (hj : j < 4) :
    pAt P q n j = P (ix3 ⟨n, hn⟩ ⟨j, hj⟩ q) := dif_pos ⟨hn, hj⟩

/-- The weight the tree starts from. -/
abbrev one : EReal := Ideal.ofBits .f32 0x3F800000#32

theorem W1_apply (P : FVec Ideal Sp .f32) (r : Fin 4) (q : Fin 512) :
    W1 P (ix2 r q) = treeW one (pAt P q) 1 r.val := by
  have hr := r.isLt
  rw [treeW_succ, show r.val / 4 = 0 by omega, show r.val % 4 = r.val by omega]
  show _ = one * pAt P q 0 r.val
  rw [pAt_of_lt P q 0 r.val (by decide) hr]
  unfold W1 rowP
  rw [mulf_apply, rowP_apply P 0 (by decide) r q]
  refine congrArg (· * P (ix3 ⟨0, by decide⟩ r q)) ?_
  refine (broadcastTo_apply _ _ (ix2 r q) (ix2 (0 : Fin 1) q) ?_).trans ?_
  · intro a
    match a with
    | ⟨0, _⟩ => rfl
    | ⟨1, _⟩ => rfl
  · rw [shapeCast_self]; rfl

/-- One more level of the chain, for any level whose parent level is already read. -/
theorem level_apply (K K4 l : Nat) (hK : 2 ≤ K) (h4 : K4 = 4 * K) (w : FVec Ideal (Sx K) .f32) (P : FVec Ideal Sp .f32)
    (hnode : ∀ k : Fin K, node l k.val < 341) (q : Fin 512)
    (hw : ∀ ρ : Fin K, w (ix2 ρ q) = treeW one (pAt P q) l ρ.val) (r : Fin K4) :
    step K K4 hK h4 w P (fun k => node l k.val) hnode (ix2 r q) = treeW one (pAt P q) (l + 1) r.val := by
  rw [step_apply, hw, treeW_succ, pAt_of_lt]

theorem W2_apply (P : FVec Ideal Sp .f32) (r : Fin 16) (q : Fin 512) : W2 P (ix2 r q) = treeW one (pAt P q) 2 r.val :=
  level_apply 4 16 1 _ _ _ P node1_lt q (fun ρ => W1_apply P ρ q) r

theorem W3_apply (P : FVec Ideal Sp .f32) (r : Fin 64) (q : Fin 512) : W3 P (ix2 r q) = treeW one (pAt P q) 3 r.val :=
  level_apply 16 64 2 _ _ _ P node2_lt q (fun ρ => W2_apply P ρ q) r

theorem W4_apply (P : FVec Ideal Sp .f32) (r : Fin 256) (q : Fin 512) : W4 P (ix2 r q) = treeW one (pAt P q) 4 r.val :=
  level_apply 64 256 3 _ _ _ P node3_lt q (fun ρ => W3_apply P ρ q) r

/-- **The leaf rows**: row r, lane q of the last level is the specification's leaf weight. -/
theorem W5_apply (P : FVec Ideal Sp .f32) (r : Fin 1024) (q : Fin 512) : W5 P (ix2 r q) = treeW one (pAt P q) 5 r.val :=
  level_apply 256 1024 4 _ _ _ P node4_lt q (fun ρ => W4_apply P ρ q) r

end Cert.KernelIdeal.KVal

end
-- ==== Proof.KSoftmax.lean ====
/-
  The kernel's softmax of a block of logits, read at a node, a branch and a lane.

  The block holds 341 nodes of 4 logits in each of 512 lanes.  The kernel takes, per node and lane, the largest of the
  four logits (a reduction over the branch axis from −∞), repeats it on the four branches, subtracts, exponentiates,
  sums the four exponentials (a reduction over the branch axis from 0), repeats the sum on the four branches and
  divides.  Read at (n, j, q) this is the softmax of node n's four logits in lane q, at branch j.
-/
import proofs.«166625_j24962349924771_1_alg».proof.Proof.Gen.KernelIdeal.Skeleton
import proofs.«166625_j24962349924771_1_alg».proof.Proof.Spec
import Idealize.ShloMosaic.PureOps.Ideal.Laws
import Idealize.ShloMosaic.Lib.ValueIdx
import Idealize.ShloMosaic.Lib.Pipeline.Value

noncomputable section

namespace Cert.KernelIdeal.KVal

open Idealize.ShloMosaic Idealize.ShloMosaic.ValueIdx Cert.KernelIdeal Cert.KernelIdeal.Gen

/-- The index of the block over (n, q) with branch k inserted on the reduced axis is (n, k, q). -/
theorem lift_eq (n : Fin 341) (q : Fin 512) (k : Fin 4) :
    reduces_S341x4x512_S341x512.lift (ix2 n q) k = ix3 n k q := by
  funext a
  match a with
  | ⟨0, _⟩ => rfl
  | ⟨1, _⟩ => rfl
  | ⟨2, _⟩ => rfl

/-- A [341, 512] tile given a unit branch axis and repeated on the four branches reads (n, q) at (n, j, q). -/
theorem spread_apply {α : Type} (x : S341x512.Idx → α) (n : Fin 341) (j : Fin 4) (q : Fin 512) :
    broadcastTo S341x4x512 (shapeCast S341x1x512 x shapeCasts_S341x512_S341x1x512)
        broadcasts_S341x1x512_S341x4x512 (ix3 n j q) = x (ix2 n q) := by
  refine (broadcastTo_apply _ _ (ix3 n j q) (ix3 n (0 : Fin 1) q) ?_).trans ?_
  · intro a
    match a with
    | ⟨0, _⟩ => rfl
    | ⟨1, _⟩ => rfl
    | ⟨2, _⟩ => rfl
  · refine shapeCast_apply _ _ _ (ix2 n q) ?_
    rw [Shape.rowMajor_val_three, Shape.rowMajor_val_two]
    show n.val * 512 + q.val = (n.val * 1 + 0) * 512 + q.val
    omega

/-- The reduction by maximum over the branch axis, from −∞, is at (n, q) the largest of node n's logits in lane q. -/
theorem rowmax_apply (v : FVec Ideal S341x4x512 .f32) (n : Fin 341) (q : Fin 512) :
    multiReduction .maximumf [1] S341x512 v 0xFF800000#32 reduces_S341x4x512_S341x512 (.inl rfl) rfl (ix2 n q)
      = Cert.Spec.mx4 (fun k => v (ix3 n k q)) := by
  refine (Ideal.multiReduction_maximumf_single v _ reduces_S341x4x512_S341x512 _ _ (ix2 n q)).trans ?_
  have hf : (v ∘ reduces_S341x4x512_S341x512.lift (ix2 n q)) = fun k : Fin 4 => v (ix3 n k q) := by
    funext k
    exact congrArg v (lift_eq n q k)
  rw [hf]
  rfl

/-- The reduction by sum over the branch axis, from 0, is at (n, q) the sum of the block's four entries there. -/
theorem rowsum_apply (v : FVec Ideal S341x4x512 .f32) (n : Fin 341) (q : Fin 512) :
    multiReduction .add [1] S341x512 v 0x00000000#32 reduces_S341x4x512_S341x512 (.inl rfl) rfl (ix2 n q)
      = ∑ k : Fin 4, v (ix3 n k q) := by
  refine (Ideal.multiReduction_add_single v _ reduces_S341x4x512_S341x512 _ _ (ix2 n q)).trans ?_
  refine Finset.sum_congr rfl fun k _ => ?_
  exact congrArg v (lift_eq n q k)

/-- **The kernel's node probabilities**: at node n, branch j, lane q, the softmax of node n's four logits in lane q. -/
theorem pay1_apply (v0 : FVec Ideal S341x4x512 .f32) (n : Fin 341) (j : Fin 4) (q : Fin 512) :
    k0_pay1 (F := Ideal) v0 (ix3 n j q) = Cert.Spec.smax4 (fun k => v0 (ix3 n k q)) j := by
  unfold k0_pay1 Cert.Spec.smax4
  simp only [shapeCast_self]
  refine (divf_apply _ _ _).trans ?_
  rw [spread_apply, rowsum_apply]
  have hexp : ∀ k : Fin 4,
      exp (subf v0 (broadcastTo S341x4x512
          (shapeCast S341x1x512
            (multiReduction .maximumf [1] S341x512 v0 0xFF800000#32 reduces_S341x4x512_S341x512 (.inl rfl) rfl)
            shapeCasts_S341x512_S341x1x512) broadcasts_S341x1x512_S341x4x512)) (ix3 n k q)
        = Ideal.exp (v0 (ix3 n k q) - Cert.Spec.mx4 (fun k => v0 (ix3 n k q))) := by
    intro k
    show Ideal.exp (subf v0 _ (ix3 n k q)) = _
    rw [subf_apply, spread_apply, rowmax_apply]
  simp only [hexp]

end Cert.KernelIdeal.KVal

end
-- ==== Proof.KOut.lean ====
/-
  What the kernel body leaves in its output block, read at a row and a lane.

  The body stores one value through the whole block: the five-level chain of `KBody.lean` over the softmax of the input
  block.  At row r, lane q it is the specification's leaf weight `treeW … 5 r` under the branch probabilities
  softmax(x0[n, ·, q]) of the lane.
-/
import proofs.«166625_j24962349924771_1_alg».proof.Proof.FrameKI
import proofs.«166625_j24962349924771_1_alg».proof.Proof.KBody
import proofs.«166625_j24962349924771_1_alg».proof.Proof.KSoftmax

noncomputable section

namespace Cert.KernelIdeal.KVal

open Idealize.ShloMosaic Idealize.ShloMosaic.ValueIdx Cert.KernelIdeal Cert.KernelIdeal.Gen Cert.KernelIdeal.GenP Cert.Tree Cert.Spec

variable {F : FTy → Type} [FloatOps F]

set_option maxHeartbeats 4000000 in
/-- The stored value is the chain of five levels over the softmax of the loaded block: the body's slices, broadcasts,
    concatenations and products are, tile by tile, those of `Cert.Tree.step`. -/
theorem payAll_eq (v0 : Vec F S341x4x512 .f32) : payAll v0 = W5 (k0_pay1 v0) := rfl

theorem zero2 : (![0, 0] : Fin 2 → Nat) = fun _ => 0 := funext fun a => by fin_cases a <;> rfl
theorem zero3 : (![0, 0, 0] : Fin 3 → Nat) = fun _ => 0 := funext fun a => by fin_cases a <;> rfl

/-- The lane's branch probabilities, from the block or from the specification's table: one function. -/
theorem pAt_pay1 (x0 : Vec Ideal S341x4x512 .f32) (q : Fin 512) :
    pAt (k0_pay1 (F := Ideal) x0) q = probs fun n k => x0 (ix3 n k q) := by
  funext n j
  unfold pAt probs
  by_cases h : n < 341 ∧ j < 4
  · rw [dif_pos h, dif_pos h]; exact pay1_apply x0 ⟨n, h.1⟩ ⟨j, h.2⟩ q
  · rw [dif_neg h, dif_neg h]

/-- **The output block at row r, lane q.** -/
theorem out0_1_apply (x0 : Vec Ideal S341x4x512 .f32) (r : Fin 1024) (q : Fin 512) :
    out0_1 (F := Ideal) x0 (ix2 r q)
      = treeW (Ideal.ofBits .f32 0x3F800000#32) (probs fun n k => x0 (ix3 n k q)) 5 r.val := by
  unfold out0_1
  rw [View.canon_unit_zero zero2, View.ld_unit_zero (S := S341x4x512) zero3, payAll_eq, W5_apply, pAt_pay1]

end Cert.KernelIdeal.KVal

end
-- ==== Proof.KPre.lean ====
/-
  The pure part of the passage from the region's blocks to its output array.

  The region's operand is the input [256, 64, 341, 4] transposed to [341, 4, 256, 64] and flattened to [341, 4, 16384]:
  column u = b * 64 + t' of the operand is tree (b, t') of the input.  The region's result is a [1024, 16384] array whose
  column u holds the 1024 leaf weights of that tree.  The grid has 32 points; point t reads columns 512 t … 512 t + 511
  of the operand and writes the same columns of the result, so the 32 column blocks tile the result.

  Here: the result array as one function of the input (`GK`) and its value at a row and a column; the operand read at
  an index as the input at the index it came from; the block indices of the two windows at every grid point; which
  indices of the result lie in point t's block; every index lies in the block of point (column / 512).
-/
import proofs.«166625_j24962349924771_1_alg».proof.Proof.Gen.KernelIdeal.Launch
import proofs.«166625_j24962349924771_1_alg».proof.Proof.Gen.KernelIdeal.Points
import proofs.«166625_j24962349924771_1_alg».proof.Proof.Spec
import Idealize.ShloMosaic.Lib.ValueIdx
import Idealize.ShloMosaic.Lib.Pipeline.Value

noncomputable section

namespace Cert.KernelIdeal.KVal

open Idealize.ShloMosaic Idealize.ShloMosaic.ValueIdx Cert.KernelIdeal Cert.KernelIdeal.Gen

/-- The [1024, 16384] array the region leaves: row r, column b * 64 + t' holds the specification at (b, t', r). -/
def GK (X : FVec Ideal S256x64x341x4 .f32) : FVec Ideal S1024x16384 .f32 := fun i =>
  Cert.Spec.G X (ix3 ⟨(i 1).val / 64, by have h : (i 1).val < 16384 := (i 1).isLt; omega⟩
    ⟨(i 1).val % 64, Nat.mod_lt _ (by decide)⟩ (i 0))

/-- `GK` at row `r` and column `u`: leaf `r` of tree (u / 64, u % 64). -/
theorem GK_apply (X : FVec Ideal S256x64x341x4 .f32) (i : S1024x16384.Idx) (r : Fin 1024) (u : Fin 16384)
    (h0 : (i 0).val = r.val) (h1 : (i 1).val = u.val) :
    GK X i = Cert.Spec.treeW (Ideal.ofBits .f32 0x3F800000#32)
      (Cert.Spec.probs fun n k => X (ix4 ⟨u.val / 64, by have h := u.isLt; omega⟩ ⟨u.val % 64, Nat.mod_lt _ (by decide)⟩ n k))
      5 r.val := by
  have hi : i = ix2 r u := by
    funext a
    match a with
    | ⟨0, _⟩ => exact Fin.ext h0
    | ⟨1, _⟩ => exact Fin.ext h1
  subst hi
  rfl

/-- The operand of the region read at node `n`, branch `j`, column `u`: the input at tree (u / 64, u % 64), node `n`,
    branch `j` (the flattening keeps the row-major position; the transposition moves the two tree axes last). -/
theorem operand_apply {α : Type} (X : S256x64x341x4.Idx → α) (n : Fin 341) (j : Fin 4) (u : Fin 16384) :
    shapeCast S341x4x16384 (transpose S341x4x256x64 [2, 3, 0, 1] X transposes_S256x64x341x4_S341x4x256x64_2_3_0_1)
        shapeCasts_S341x4x256x64_S341x4x16384 (ix3 n j u)
      = X (ix4 ⟨u.val / 64, by have h := u.isLt; omega⟩ ⟨u.val % 64, Nat.mod_lt _ (by decide)⟩ n j) := by
  refine (shapeCast_apply _ _ (ix3 n j u)
    (ix4 n j (⟨u.val / 64, by have h := u.isLt; omega⟩ : Fin 256) (⟨u.val % 64, Nat.mod_lt _ (by decide)⟩ : Fin 64)) ?_).trans ?_
  · rw [Shape.rowMajor_val_four, Shape.rowMajor_val_three]
    show ((n.val * 4 + j.val) * 256 + u.val / 64) * 64 + u.val % 64 = (n.val * 4 + j.val) * 16384 + u.val
    omega
  · refine transpose_apply _ _ _ _
      (ix4 (⟨u.val / 64, by have h := u.isLt; omega⟩ : Fin 256) (⟨u.val % 64, Nat.mod_lt _ (by decide)⟩ : Fin 64) n j) ?_
    intro b
    match b with
    | ⟨0, _⟩ => rfl
    | ⟨1, _⟩ => rfl
    | ⟨2, _⟩ => rfl
    | ⟨3, _⟩ => rfl

/-- The grid has 32 points. -/
theorem point_lt (t : Fin cfg0.N) : t.val < 32 :=
  lt_of_lt_of_eq t.isLt (N_0 : cfg0.N = 32)

/-- The two windows' block indices at every grid point: the operand's block is (0, 0, t), the result's is (0, t). -/
theorem block_index : ∀ t : Fin cfg0.N, win0_0.index t (0 : Fin 3) = 0 ∧ win0_0.index t (1 : Fin 3) = 0
    ∧ win0_0.index t (2 : Fin 3) = t.val ∧ win0_1.index t (0 : Fin 2) = 0 ∧ win0_1.index t (1 : Fin 2) = t.val :=
  (by decide +kernel : ∀ t : Fin grid0.N, _)

/-- An index of the result array is in point `t`'s block iff each coordinate is in the block's range on its axis. -/
theorem mem_result_block (t : Fin cfg0.N) (i : S1024x16384.Idx) :
    i ∈ ((cfg0.win 1).blk t).view.set ↔ ∀ a : Fin 2, win0_1.index t a * S1024x512.size a ≤ (i a).val
      ∧ (i a).val < win0_1.index t a * S1024x512.size a + S1024x512.size a := by
  show i ∈ ((View.whole main_v2).slice (win0_1.rect t)).set ↔ _
  rw [View.set_slice_whole, Rect.mem_set_unit]
  exact Iff.rfl

/-- Every index of the result array lies in the block of the point (column / 512), which writes its block back. -/
theorem result_cover (i : S1024x16384.Idx) :
    ∃ t : Fin cfg0.N, (cfg0.win 1).flush t = true ∧ i ∈ ((cfg0.win 1).blk t).view.set := by
  have hi0 : (i 0).val < 1024 := (i 0).isLt
  have hi1 : (i 1).val < 16384 := (i 1).isLt
  have hN : cfg0.N = 32 := N_0
  obtain ⟨t, ht⟩ : ∃ t : Fin cfg0.N, t.val = (i 1).val / 512 := ⟨⟨(i 1).val / 512, by rw [hN]; omega⟩, rfl⟩
  obtain ⟨-, -, -, e3, e4⟩ := block_index t
  refine ⟨t, flush0_1 t, ?_⟩
  rw [mem_result_block]
  intro a
  match a with
  | ⟨0, _⟩ =>
    show win0_1.index t (0 : Fin 2) * 1024 ≤ (i 0).val ∧ (i 0).val < win0_1.index t (0 : Fin 2) * 1024 + 1024
    rw [e3]; omega
  | ⟨1, _⟩ =>
    show win0_1.index t (1 : Fin 2) * 512 ≤ (i 1).val ∧ (i 1).val < win0_1.index t (1 : Fin 2) * 512 + 512
    rw [e4, ht]; omega

end Cert.KernelIdeal.KVal

end
-- ==== Proof.KBlock.lean ====
/-
  From the region's blocks to its output array.

  The program transposes the input [256, 64, 341, 4] to [341, 4, 256, 64], flattens it to the operand [341, 4, 16384]
  (column u = b * 64 + t' is tree (b, t')), and runs the region on a grid of 32 points: point t reads columns
  512 t … 512 t + 511 of the operand and writes the same columns of the result [1024, 16384].

  Taking the body's value at a row and a lane as a hypothesis (row r, lane q of what the body leaves is leaf r of the
  tree whose logits are lane q of the body's block), this module reads the operand at an index as the launched input
  (`V_main_v1_apply`), the operand's block at a point as columns of the operand (`operand_block_apply`), what each
  point writes back as its block of `GK` of the launched input (`flushed_result_eq`), and, the blocks covering the
  result, the result array after the region as `GK` of the launched input (`final1_of`).
-/
import proofs.«166625_j24962349924771_1_alg».proof.Proof.FrameKI
import proofs.«166625_j24962349924771_1_alg».proof.Proof.KPre
import proofs.«166625_j24962349924771_1_alg».proof.Proof.Spec
import Idealize.ShloMosaic.Lib.ValueIdx
import Idealize.ShloMosaic.Lib.Pipeline.Value
import Idealize.ShloMosaic.Lib.StableHlo.Run

noncomputable section

namespace Cert.KernelIdeal.KVal

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat)

variable (m : (ℓ : Loc nD τ sig) → Buf (Elt Ideal) ℓ)

/-- The region's operand as the region finds it, read at node `n`, branch `j`, column `u`: the launched input at
    tree (u / 64, u % 64), node `n`, branch `j`. -/
theorem V_main_v1_apply (c : Dev nD) (n : Fin 341) (j : Fin 4) (u : Fin 16384) :
    (V m c main_v1 : S341x4x16384.Idx → EReal) (ix3 n j u)
      = (m ((c.tc : Thread nD τ).loc main_arg0) : S256x64x341x4.Idx → EReal)
          (ix4 ⟨u.val / 64, by have h := u.isLt; omega⟩ ⟨u.val % 64, Nat.mod_lt _ (by decide)⟩ n j) := by
  have e : (V m c main_v1 : S341x4x16384.Idx → EReal)
      = shapeCast S341x4x16384 (transpose S341x4x256x64 [2, 3, 0, 1]
          (m ((c.tc : Thread nD τ).loc main_arg0) : S256x64x341x4.Idx → EReal)
          transposes_S256x64x341x4_S341x4x256x64_2_3_0_1) shapeCasts_S341x4x256x64_S341x4x16384 := by
    show StableHlo.after hostOps0 (fun b => m (c, b)) (Proc.devRef .tc main_v1) = _
    after_results
    rfl
  rw [e]
  exact operand_apply _ n j u

/-- The operand's block at point `t` is columns 512 t … 512 t + 511 of the operand. -/
theorem operand_block_apply (c : Dev nD) (t : Fin cfg0.N) (n : Fin 341) (j : Fin 4) (q : Fin 512) :
    (iblk m c 0 t : S341x4x512.Idx → EReal) (ix3 n j q)
      = (V m c main_v1 : S341x4x16384.Idx → EReal)
          (ix3 n j ⟨t.val * 512 + q.val, by have h := point_lt t; have hq := q.isLt; omega⟩) := by
  obtain ⟨e0, e1, e2, -, -⟩ := block_index t
  unfold iblk
  rw [View.read_apply]
  refine congrArg (V m c main_v1 : S341x4x16384.Idx → EReal) ?_
  funext a
  apply Fin.ext
  match a with
  | ⟨0, _⟩ => show win0_0.index t (0 : Fin 3) * 341 + 1 * n.val = n.val; rw [e0]; omega
  | ⟨1, _⟩ => show win0_0.index t (1 : Fin 3) * 4 + 1 * j.val = j.val; rw [e1]; omega
  | ⟨2, _⟩ => show win0_0.index t (2 : Fin 3) * 512 + 1 * q.val = t.val * 512 + q.val; rw [e2]; omega

/-- The body's value at any index of its block, from its value at a row and a lane. -/
theorem body_apply
    (hout : ∀ (x0 : Vec Ideal S341x4x512 .f32) (r : Fin 1024) (q : Fin 512),
      out0_1 (F := Ideal) x0 (ix2 r q) = Cert.Spec.treeW (Ideal.ofBits .f32 0x3F800000#32)
        (Cert.Spec.probs fun n k => x0 (ix3 n k q)) 5 r.val)
    (x0 : Vec Ideal S341x4x512 .f32) (y : S1024x512.Idx) :
    out0_1 (F := Ideal) x0 y = Cert.Spec.treeW (Ideal.ofBits .f32 0x3F800000#32)
      (Cert.Spec.probs fun n k => x0 (ix3 n k (y 1))) 5 (y 0).val :=
  (congrArg (out0_1 (F := Ideal) x0) (eq_ix2 y)).trans (hout x0 (y 0) (y 1))

/-- WHAT POINT `t` WRITES BACK is block `t` of `GK` of the launched input: at row r and lane q of the block both are
    leaf r of the tree in column 512 t + q. -/
theorem flushed_result_eq
    (hout : ∀ (x0 : Vec Ideal S341x4x512 .f32) (r : Fin 1024) (q : Fin 512),
      out0_1 (F := Ideal) x0 (ix2 r q) = Cert.Spec.treeW (Ideal.ofBits .f32 0x3F800000#32)
        (Cert.Spec.probs fun n k => x0 (ix3 n k q)) 5 r.val)
    (c : Dev nD) (t : Fin cfg0.N) :
    (dats m 0 c).flushed 1 t
      = ((cfg0.win 1).blk t).view.read (Elt Ideal) (GK (m ((c.tc : Thread nD τ).loc main_arg0))) := by
  show (cfg0.win 1).cut (grid0.coords t) ((dats m 0 c).after 1 t) = _
  rw [after0_1]
  obtain ⟨-, -, -, e3, e4⟩ := block_index t
  have ht := point_lt t
  refine funext fun (y : S1024x512.Idx) => ?_
  have hy0 : (y 0).val < 1024 := (y 0).isLt
  have hy1 : (y 1).val < 512 := (y 1).isLt
  rw [View.read_apply]
  have h0 : ((((cfg0.win 1).blk t).view.emb y) 0).val = (y 0).val := by
    show win0_1.index t (0 : Fin 2) * 1024 + 1 * (y 0).val = (y 0).val
    rw [e3]; omega
  have h1 : ((((cfg0.win 1).blk t).view.emb y) 1).val = t.val * 512 + (y 1).val := by
    show win0_1.index t (1 : Fin 2) * 512 + 1 * (y 1).val = t.val * 512 + (y 1).val
    rw [e4]; omega
  have hp : (fun (n : Fin 341) (k : Fin 4) => (iblk m c 0 t : S341x4x512.Idx → EReal) (ix3 n k (y 1)))
      = fun n k => (m ((c.tc : Thread nD τ).loc main_arg0) : S256x64x341x4.Idx → EReal)
          (ix4 ⟨(t.val * 512 + (y 1).val) / 64, by omega⟩ ⟨(t.val * 512 + (y 1).val) % 64, Nat.mod_lt _ (by decide)⟩ n k) :=
    funext fun n => funext fun k =>
      (operand_block_apply m c t n k (y 1)).trans (V_main_v1_apply m c n k ⟨t.val * 512 + (y 1).val, by omega⟩)
  refine ((body_apply hout (iblk m c 0 t) y).trans ?_).trans
    (GK_apply (m ((c.tc : Thread nD τ).loc main_arg0)) _ (y 0) ⟨t.val * 512 + (y 1).val, by omega⟩ h0 h1).symm
  exact congrArg (fun p => Cert.Spec.treeW (Ideal.ofBits .f32 0x3F800000#32) (Cert.Spec.probs p) 5 (y 0).val) hp

/-- THE RESULT ARRAY after the region: `GK` of the launched input — every point writes its block of `GK`, and the 32
    blocks cover the array. -/
theorem final1_of
    (hout : ∀ (x0 : Vec Ideal S341x4x512 .f32) (r : Fin 1024) (q : Fin 512),
      out0_1 (F := Ideal) x0 (ix2 r q) = Cert.Spec.treeW (Ideal.ofBits .f32 0x3F800000#32)
        (Cert.Spec.probs fun n k => x0 (ix3 n k q)) 5 r.val)
    (c : Dev nD) : (dats m 0 c).arrAt 1 cfg0.N = GK (m ((c.tc : Thread nD τ).loc main_arg0)) :=
  (dats m 0 c).arrAt_eq_of_cover 1 (GK (m ((c.tc : Thread nD τ).loc main_arg0)))
    (fun t _ => flushed_result_eq m hout c t) result_cover

end Cert.KernelIdeal.KVal

end
-- ==== Proof.KTail.lean ====
/-
  The host operations after the region, read at an index.

  The region leaves a [1024, 16384] array A: row r is leaf r, column c is tree (c / 64, c % 64).  The program then
  regroups the columns into [1024, 256, 64] (the same elements in row-major order) and moves the leaf axis last, to
  [256, 64, 1024].  So the result at (b, t, r) is A at row r, column 64 b + t; and if A at that place is the leaf
  weight G(X)(b, t, r) of the input X, the result is G(X).
-/
import proofs.«166625_j24962349924771_1_alg».proof.Proof.Gen.KernelIdeal.Launch
import proofs.«166625_j24962349924771_1_alg».proof.Proof.Spec
import Idealize.ShloMosaic.PureOps.Ideal
import Idealize.ShloMosaic.Lib.ValueIdx
import Idealize.ShloMosaic.Lib.Pipeline.Value
import Idealize.ShloMosaic.Lib.Pipeline.FrameSuffix
import Idealize.ShloMosaic.Lib.StableHlo.Run

noncomputable section

namespace Cert.KernelIdeal.KVal

open Idealize.ShloMosaic Idealize.ShloMosaic.ValueIdx Cert.KernelIdeal Cert.KernelIdeal.Gen Idealize.SL.Sem
open Idealize.ShloMosaic.Pipeline (Dat)

/-! ## The two operations as functions of the region's array -/

/-- **The regrouped and transposed array at tree (b, t) and leaf r** is the array at row r, column 64 b + t. -/
theorem tail_apply (A : FVec Ideal S1024x16384 .f32) (b : Fin 256) (t : Fin 64) (r : Fin 1024) :
    transpose S256x64x1024 [1, 2, 0] (shapeCast S1024x256x64 A shapeCasts_S1024x16384_S1024x256x64)
        transposes_S1024x256x64_S256x64x1024_1_2_0 (ix3 b t r)
      = A (ix2 r ⟨b.val * 64 + t.val, by have := b.isLt; have := t.isLt; omega⟩) := by
  -- the transpose reads its operand at (r, b, t): result axes 0, 1, 2 are operand axes 1, 2, 0
  refine (transpose_apply _ _ _ (ix3 b t r) (ix3 r b t) ?_).trans ?_
  · intro a
    match a with
    | ⟨0, _⟩ => rfl
    | ⟨1, _⟩ => rfl
    | ⟨2, _⟩ => rfl
  -- the regrouping keeps the row-major position: (r · 256 + b) · 64 + t = r · 16384 + (64 b + t)
  · refine shapeCast_apply _ _ (ix3 r b t) (ix2 r ⟨b.val * 64 + t.val, by have := b.isLt; have := t.isLt; omega⟩) ?_
    rw [Shape.rowMajor_val_three, Shape.rowMajor_val_two]
    show r.val * 16384 + (b.val * 64 + t.val) = (r.val * 256 + b.val) * 64 + t.val
    omega

/-- Column 64 b + t belongs to tree (b, t): the quotient and the remainder by 64 give b and t back. -/
theorem G_col (X : FVec Ideal S256x64x341x4 .f32) (b : Fin 256) (t : Fin 64) (r : Fin 1024)
    (h1 : (b.val * 64 + t.val) / 64 < 256) (h2 : (b.val * 64 + t.val) % 64 < 64) :
    Cert.Spec.G X (ix3 ⟨(b.val * 64 + t.val) / 64, h1⟩ ⟨(b.val * 64 + t.val) % 64, h2⟩ r)
      = Cert.Spec.G X (ix3 b t r) := by
  have e1 : (⟨(b.val * 64 + t.val) / 64, h1⟩ : Fin 256) = b :=
    Fin.ext (by show (b.val * 64 + t.val) / 64 = b.val; have := t.isLt; omega)
  have e2 : (⟨(b.val * 64 + t.val) % 64, h2⟩ : Fin 64) = t :=
    Fin.ext (by show (b.val * 64 + t.val) % 64 = t.val; have := t.isLt; omega)
  rw [e1, e2]

/-! ## The two operations in the program -/

/-- What the result buffer holds after the two operations, when the region has left A in its output array: A regrouped
    and transposed.  For any account of the region (its arrays' final contents, the other buffers' contents). -/
theorem tail_of (dats' : (p : Fin 1) → (c : Dev nD) → Dat τ (Elt Ideal) Unit ℕ (UR sig nD τ) ℕ (cfgs p) c)
    (V0' : Dev nD → Valuation τ sig (Elt Ideal)) (c : Dev nD) (A : FVec Ideal S1024x16384 .f32)
    (hA : (dats' 0 c).arrAt 1 cfg0.N = A) :
    Pipeline.afterTail₀ cfgs dats' 0 V0' [hostOps1] c main_v4
      = transpose S256x64x1024 [1, 2, 0] (shapeCast S1024x256x64 A shapeCasts_S1024x16384_S1024x256x64)
          transposes_S1024x256x64_S256x64x1024_1_2_0 := by
  unfold Pipeline.afterTail₀
  show StableHlo.after hostOps1 _ (Proc.devRef .tc main_v4) = _
  after_results
  -- the operand of the regrouping is the region's output array, which holds A
  have e : Pipeline.withArrays (cfgs 0).spec c (V0' c) (fun w => (dats' 0 c).arrAt w (cfgs 0).N) (Proc.devRef .tc main_v2) = A :=
    (Pipeline.withArrays_arr spec0 launch0.win.arr_inj c _ _ 1).trans hA
  exact congrArg (fun A' : FVec Ideal S1024x16384 .f32 => transpose S256x64x1024 [1, 2, 0]
    (shapeCast S1024x256x64 A' shapeCasts_S1024x16384_S1024x256x64) transposes_S1024x256x64_S256x64x1024_1_2_0) e

/-- **The program's run with its result named**, from any run that ends with the region's arrays and the other buffers
    as accounted: if the region leaves in its output array a function A of the input with A(X)(r, 64 b + t) = G(X)(b, t, r),
    and the input buffer ends as launched, then the result buffer ends at G of the input and the input as launched. -/
theorem run_from (dats' : (p : Fin 1) → (c : Dev nD) → Dat τ (Elt Ideal) Unit ℕ (UR sig nD τ) ℕ (cfgs p) c)
    (V0' : Dev nD → Valuation τ sig (Elt Ideal))
    (m : (ℓ : Loc nD τ sig) → Buf (Elt Ideal) ℓ) (ρ : Dev nD → PrngReg)
    (A : FVec Ideal S256x64x341x4 .f32 → FVec Ideal S1024x16384 .f32)
    (hAG : ∀ (X : FVec Ideal S256x64x341x4 .f32) (b : Fin 256) (t : Fin 64) (r : Fin 1024),
      A X (ix2 r ⟨b.val * 64 + t.val, by have := b.isLt; have := t.isLt; omega⟩) = Cert.Spec.G X (ix3 b t r))
    (hfinal : ∀ c : Dev nD, (dats' 0 c).arrAt 1 cfg0.N = A (m ((c.tc : Thread nD τ).loc main_arg0)))
    (hW : ∀ c : Dev nD, Pipeline.afterTail₀ cfgs dats' 0 V0' [hostOps1] c main_arg0 = m ((c.tc : Thread nD τ).loc main_arg0))
    (hrun : θ_run (defs (F := Ideal)) (onTc (τ := τ) (main (F := Ideal))) ⟨m, fun _ => 0, ρ⟩
      (Pipeline.FramePost cfgs dats' 0 (Pipeline.afterTail₀ cfgs dats' 0 V0' [hostOps1]))) :
    θ_run (defs (F := Ideal)) (onTc (τ := τ) (main (F := Ideal))) ⟨m, fun _ => 0, ρ⟩ (fun r => ∀ c : Dev nD,
      r.2.mem ((c.tc : Thread nD τ).loc main_v4) = Cert.Spec.G (m ((c.tc : Thread nD τ).loc main_arg0))
      ∧ r.2.mem ((c.tc : Thread nD τ).loc main_arg0) = m ((c.tc : Thread nD τ).loc main_arg0)) := by
  refine (θ_run defs _ _).mono (fun r h c => ⟨?_, ?_⟩) hrun
  -- the result buffer is no array of the region: it ends as the two operations leave it
  · refine ((h c).2 main_v4 (Pipeline.mem_restRefs_of main_v4 (by decide) (by decide))).trans ?_
    refine (tail_of dats' V0' c _ (hfinal c)).trans ?_
    funext i
    rw [eq_ix3 i]
    exact (tail_apply _ (i 0) (i 1) (i 2)).trans (hAG _ (i 0) (i 1) (i 2))
  -- nor is the input buffer, which no operation writes
  · exact ((h c).2 main_arg0 (Pipeline.mem_restRefs_of main_arg0 (by decide) (by decide))).trans (hW c)

end Cert.KernelIdeal.KVal

end
-- ==== Proof.KRun.lean ====
/-
  The kernel program's run with its result named.

  The program transposes and regroups its input, runs the region, then regroups and transposes the region's
  [1024, 16384] output into the [256, 64, 1024] result.  Given what the region leaves in its output array — at row r and
  column 64 b + t, the weight of leaf r of tree (b, t) under the tree's softmax probabilities — every run of the
  program ends with the result buffer at the leaf weights G of the input, and the input buffer as launched.
-/
import proofs.«166625_j24962349924771_1_alg».proof.Proof.FrameKI
import proofs.«166625_j24962349924771_1_alg».proof.Proof.Spec
import proofs.«166625_j24962349924771_1_alg».proof.Proof.KTail
import proofs.«166625_j24962349924771_1_alg».proof.Proof.KPre
import Idealize.ShloMosaic.Lib.ValueIdx
import Idealize.ShloMosaic.Lib.Pipeline.Value
import Idealize.ShloMosaic.Lib.StableHlo.Run

noncomputable section

namespace Cert.KernelIdeal.KVal

open Idealize.ShloMosaic Idealize.ShloMosaic.ValueIdx Cert.KernelIdeal Cert.KernelIdeal.Gen Cert.KernelIdeal.GenP Idealize.SL.Sem

/-- The run, for any function A of the input that the region leaves in its output array and that holds, at row r and
    column 64 b + t, the weight of leaf r of tree (b, t). -/
theorem run_of_gen (A : FVec Ideal S256x64x341x4 .f32 → FVec Ideal S1024x16384 .f32)
    (hAG : ∀ (X : FVec Ideal S256x64x341x4 .f32) (b : Fin 256) (t : Fin 64) (r : Fin 1024),
      A X (ix2 r ⟨b.val * 64 + t.val, by have := b.isLt; have := t.isLt; omega⟩) = Cert.Spec.G X (ix3 b t r))
    (hfinal : ∀ (m : (ℓ : Loc nD τ sig) → Buf (Elt Ideal) ℓ) (c : Dev nD),
      (dats m 0 c).arrAt 1 cfg0.N = A (m ((c.tc : Thread nD τ).loc main_arg0)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = Cert.Spec.G (m ((c.tc : Thread nD τ).loc main_arg0))
      ∧ r.2.mem ((c.tc : Thread nD τ).loc main_arg0) = m ((c.tc : Thread nD τ).loc main_arg0)) :=
  run_from (dats (F := Ideal) m) (V0 m) m ρ A hAG (hfinal m) (W_main_arg0 m (dats m)) (run_main m ρ)

/-- The array of leaf weights in the region's layout, at row r and column 64 b + t: leaf r of tree (b, t). -/
theorem GK_col (X : FVec Ideal S256x64x341x4 .f32) (b : Fin 256) (t : Fin 64) (r : Fin 1024) :
    GK X (ix2 r ⟨b.val * 64 + t.val, by have := b.isLt; have := t.isLt; omega⟩) = Cert.Spec.G X (ix3 b t r) :=
  G_col X b t r _ _

/-- **The run**, with the region's output array at the leaf weights in the region's layout. -/
theorem run_of
    (hfinal : ∀ (m : (ℓ : Loc nD τ sig) → Buf (Elt Ideal) ℓ) (c : Dev nD),
      (dats m 0 c).arrAt 1 cfg0.N = GK (m ((c.tc : Thread nD τ).loc main_arg0)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = Cert.Spec.G (m ((c.tc : Thread nD τ).loc main_arg0))
      ∧ r.2.mem ((c.tc : Thread nD τ).loc main_arg0) = m ((c.tc : Thread nD τ).loc main_arg0)) :=
  run_of_gen GK GK_col hfinal m ρ

end Cert.KernelIdeal.KVal

end
-- ==== Proof.RefDefs.lean ====
/-
  The reference as pure functions of its input, stage by stage.

  `softmaxH` is the host's softmax over the branch axis; `takeH` is `jnp.take` along the node axis in its default
  mode (negative indices wrapped, out-of-range indices filled with a NaN), for K indices at once; `levelH` multiplies
  a level's weights, repeated along a new trailing axis of four, by the gathered probabilities and flattens the two
  trailing axes; `refOut` chains the five levels from the weight 1.
-/
import proofs.«166625_j24962349924771_1_alg».proof.ReferenceIdeal

noncomputable section

namespace Cert.ReferenceIdeal.RefVal

open Idealize.ShloMosaic Cert.ReferenceIdeal
open Cert.ReferenceIdeal.Facts₀ Cert.ReferenceIdeal.Facts

variable {F : FTy → Type} [FloatOps F] [Facts]

/-- K node indices. -/
abbrev Sk (K : Nat) : Shape := ⟨1, ![K]⟩
/-- The same as a column. -/
abbrev Sk1 (K : Nat) : Shape := ⟨2, ![K, 1]⟩
/-- K gathered nodes per tree. -/
abbrev So (K : Nat) : Shape := ⟨4, ![256, 64, K, 4]⟩
/-- A level's weights per tree. -/
abbrev Sw (K : Nat) : Shape := ⟨3, ![256, 64, K]⟩
/-- The weights with a trailing unit axis. -/
abbrev Sw1 (K : Nat) : Shape := ⟨4, ![256, 64, K, 1]⟩

/-- The host's softmax over the last axis. -/
def softmaxH (x : FVec F S256x64x341x4 .f32) : FVec F S256x64x341x4 .f32 :=
  let v0 : FVec F S256x64x341 .f32 :=
    Host.reduce FloatOps.maximumf x (constant S_ .f32 0xFF800000#32) reducesTo_S256x64x341x4_S256x64x341_d3 h_S_
  let v1 : FVec F S256x64x341 .f32 := broadcastInDim S256x64x341 ![] bcast_S_S256x64x341 (constant S_ .f32 0xFF800000#32)
  let v2 : FVec F S256x64x341 .f32 := maximumf v1 v0
  let v3 : FVec F S256x64x341x1 .f32 := broadcastInDim S256x64x341x1 ![0, 1, 2] bcast_S256x64x341_S256x64x341x1_0_1_2 v2
  let v4 : FVec F S256x64x341x4 .f32 := broadcastInDim S256x64x341x4 ![0, 1, 2, 3] bcast_S256x64x341x1_S256x64x341x4_0_1_2_3 v3
  let v5 : FVec F S256x64x341x4 .f32 := subf x v4
  let v6 : FVec F S256x64x341x4 .f32 := Host.exp v5
  let v7 : FVec F S256x64x341 .f32 :=
    Host.reduceAdd v6 (constant S_ .f32 0x00000000#32) reducesTo_S256x64x341x4_S256x64x341_d3 h_S_
  let v8 : FVec F S256x64x341x1 .f32 := broadcastInDim S256x64x341x1 ![0, 1, 2] bcast_S256x64x341_S256x64x341x1_0_1_2 v7
  let v9 : FVec F S256x64x341x4 .f32 := broadcastInDim S256x64x341x4 ![0, 1, 2, 3] bcast_S256x64x341x1_S256x64x341x4_0_1_2_3 v8
  Host.divf v6 v9

/-- The wrapped index column of `jnp.take`: an index below zero has 341 added. -/
def wrapH (K : Nat) (hb0 : S_.BroadcastsInDim (Sk K) (![] : Fin 0 → Fin (Sk K).rank))
    (hb1 : (Sk K).BroadcastsInDim (Sk1 K) (![0] : Fin 1 → Fin (Sk1 K).rank)) (idx : IVec (Sk K) 32) : IVec (Sk1 K) 32 :=
  let v0 : IVec (Sk K) 32 := broadcastInDim (Sk K) ![] hb0 (constantI S_ 32 0#32)
  let v1 : IVec (Sk K) 1 := cmpi .slt idx v0
  let v2 : IVec (Sk K) 32 := broadcastInDim (Sk K) ![] hb0 (constantI S_ 32 341#32)
  let v3 : IVec (Sk K) 32 := addi idx v2
  let v4 : IVec (Sk K) 32 := select v1 v3 idx
  broadcastInDim (Sk1 K) ![0] hb1 v4

/-- The in-range mask of `jnp.take` for K ≥ 2 indices: index k lies in [0, 340]. -/
def maskH (K : Nat) (hb2 : S_.BroadcastsInDim (Sk1 K) (![] : Fin 0 → Fin (Sk1 K).rank))
    (hb4 : S1x1.BroadcastsInDim (Sk1 K) (![0, 1] : Fin 2 → Fin (Sk1 K).rank))
    (hr : (Sk1 K).ReducesTo [1] (Sk K)) (v5 : IVec (Sk1 K) 32) : IVec (Sk K) 1 :=
  let v6 : IVec (Sk1 K) 32 := broadcastInDim (Sk1 K) ![] hb2 (constantI S_ 32 0#32)
  let v7 : IVec (Sk1 K) 1 := cmpi .sge v5 v6
  let v8 : IVec S1x1 32 := broadcastInDim S1x1 ![1] bcast_S1_S1x1_1 (constantI S1 32 340#32)
  let v9 : IVec (Sk1 K) 32 := broadcastInDim (Sk1 K) ![0, 1] hb4 v8
  let v10 : IVec (Sk1 K) 1 := cmpi .sle v5 v9
  let v11 : IVec (Sk1 K) 1 := andi v7 v10
  Host.reduce IntOp.andi v11 (constantI S_ 1 1#1) hr h_S_

/-- The same for ONE index (no second broadcast of the bound). -/
def maskH1 (v5 : IVec S1x1 32) : IVec S1 1 :=
  let v6 : IVec S1x1 32 := broadcastInDim S1x1 ![] bcast_S_S1x1 (constantI S_ 32 0#32)
  let v7 : IVec S1x1 1 := cmpi .sge v5 v6
  let v8 : IVec S1x1 32 := broadcastInDim S1x1 ![1] bcast_S1_S1x1_1 (constantI S1 32 340#32)
  let v9 : IVec S1x1 1 := cmpi .sle v5 v8
  let v10 : IVec S1x1 1 := andi v7 v9
  Host.reduce IntOp.andi v10 (constantI S_ 1 1#1) reducesTo_S1x1_S1_d1 h_S_

/-- The gather of K nodes, each kept where its index is in range and NaN elsewhere. -/
def fillH (K : Nat) (gd : GatherDims S256x64x341x4 (Sk1 K) (So K))
    (hb5 : (Sk K).BroadcastsInDim (So K) (![2] : Fin 1 → Fin (So K).rank))
    (hb6 : S_.BroadcastsInDim (So K) (![] : Fin 0 → Fin (So K).rank))
    (P : FVec F S256x64x341x4 .f32) (v5 : IVec (Sk1 K) 32) (mask : IVec (Sk K) 1) : FVec F (So K) .f32 :=
  let g : FVec F (So K) .f32 := Host.gather gd P v5
  let m : IVec (So K) 1 := broadcastInDim (So K) ![2] hb5 mask
  let nan : FVec F (So K) .f32 := broadcastInDim (So K) ![] hb6 (constant S_ .f32 0x7FC00000#32)
  select m g nan

/-- `jnp.take(P, idx, axis=2)` for one index. -/
def take0 (P : FVec F S256x64x341x4 .f32) : FVec F S256x64x1x4 .f32 :=
  let v5 := wrapH 1 bcast_S_S1 bcast_S1_S1x1_0 (constantI S1 32 0#32)
  fillH 1 gather_S256x64x341x4_S1x1_S256x64x1x4_013_2_n_n_2_1_2566414 bcast_S1_S256x64x1x4_2 bcast_S_S256x64x1x4 P v5 (maskH1 v5)

def take1 (P : FVec F S256x64x341x4 .f32) : FVec F S256x64x4x4 .f32 :=
  let v5 := wrapH 4 bcast_S_S4 bcast_S4_S4x1_0 (fun i => lit0 (S4.rowMajor i))
  fillH 4 gather_S256x64x341x4_S4x1_S256x64x4x4_013_2_n_n_2_1_2566414 bcast_S4_S256x64x4x4_2 bcast_S_S256x64x4x4 P v5
    (maskH 4 bcast_S_S4x1 bcast_S1x1_S4x1_0_1 reducesTo_S4x1_S4_d1 v5)

def take2 (P : FVec F S256x64x341x4 .f32) : FVec F S256x64x16x4 .f32 :=
  let v5 := wrapH 16 bcast_S_S16 bcast_S16_S16x1_0 (fun i => lit1 (S16.rowMajor i))
  fillH 16 gather_S256x64x341x4_S16x1_S256x64x16x4_013_2_n_n_2_1_2566414 bcast_S16_S256x64x16x4_2 bcast_S_S256x64x16x4 P v5
    (maskH 16 bcast_S_S16x1 bcast_S1x1_S16x1_0_1 reducesTo_S16x1_S16_d1 v5)

def take3 (P : FVec F S256x64x341x4 .f32) : FVec F S256x64x64x4 .f32 :=
  let v5 := wrapH 64 bcast_S_S64 bcast_S64_S64x1_0 (fun i => lit2 (S64.rowMajor i))
  fillH 64 gather_S256x64x341x4_S64x1_S256x64x64x4_013_2_n_n_2_1_2566414 bcast_S64_S256x64x64x4_2 bcast_S_S256x64x64x4 P v5
    (maskH 64 bcast_S_S64x1 bcast_S1x1_S64x1_0_1 reducesTo_S64x1_S64_d1 v5)

def take4 (P : FVec F S256x64x341x4 .f32) : FVec F S256x64x256x4 .f32 :=
  let v5 := wrapH 256 bcast_S_S256 bcast_S256_S256x1_0 (fun i => lit3 (S256.rowMajor i))
  fillH 256 gather_S256x64x341x4_S256x1_S256x64x256x4_013_2_n_n_2_1_2566414 bcast_S256_S256x64x256x4_2 bcast_S_S256x64x256x4 P v5
    (maskH 256 bcast_S_S256x1 bcast_S1x1_S256x1_0_1 reducesTo_S256x1_S256_d1 v5)

/-- One level: the weights repeated along a new last axis of four, times the gathered probabilities, the two
    trailing axes flattened. -/
def levelH (K K4 : Nat) (hb7 : (Sw K).BroadcastsInDim (Sw1 K) (![0, 1, 2] : Fin 3 → Fin (Sw1 K).rank))
    (hb8 : (Sw1 K).BroadcastsInDim (So K) (![0, 1, 2, 3] : Fin 4 → Fin (So K).rank))
    (hc : (So K).ShapeCasts (Sw K4)) (w : FVec F (Sw K) .f32) (g : FVec F (So K) .f32) : FVec F (Sw K4) .f32 :=
  let a : FVec F (Sw1 K) .f32 := broadcastInDim (Sw1 K) ![0, 1, 2] hb7 w
  let b : FVec F (So K) .f32 := broadcastInDim (So K) ![0, 1, 2, 3] hb8 a
  shapeCast (Sw K4) (mulf b g) hc

/-- The weight 1 of every tree's root. -/
def onesH : FVec F S256x64x1 .f32 := broadcastInDim S256x64x1 ![] bcast_S_S256x64x1 (constant S_ .f32 0x3F800000#32)

/-- **The reference's result** as a function of its input. -/
def refOut (x : FVec F S256x64x341x4 .f32) : FVec F S256x64x1024 .f32 :=
  let P := softmaxH x
  let w1 : FVec F S256x64x4 .f32 :=
    levelH 1 4 bcast_S256x64x1_S256x64x1x1_0_1_2 bcast_S256x64x1x1_S256x64x1x4_0_1_2_3 shapeCasts_S256x64x1x4_S256x64x4 onesH (take0 P)
  let w2 : FVec F S256x64x16 .f32 :=
    levelH 4 16 bcast_S256x64x4_S256x64x4x1_0_1_2 bcast_S256x64x4x1_S256x64x4x4_0_1_2_3 shapeCasts_S256x64x4x4_S256x64x16 w1 (take1 P)
  let w3 : FVec F S256x64x64 .f32 :=
    levelH 16 64 bcast_S256x64x16_S256x64x16x1_0_1_2 bcast_S256x64x16x1_S256x64x16x4_0_1_2_3 shapeCasts_S256x64x16x4_S256x64x64 w2 (take2 P)
  let w4 : FVec F S256x64x256 .f32 :=
    levelH 64 256 bcast_S256x64x64_S256x64x64x1_0_1_2 bcast_S256x64x64x1_S256x64x64x4_0_1_2_3 shapeCasts_S256x64x64x4_S256x64x256 w3 (take3 P)
  levelH 256 1024 bcast_S256x64x256_S256x64x256x1_0_1_2 bcast_S256x64x256x1_S256x64x256x4_0_1_2_3 shapeCasts_S256x64x256x4_S256x64x1024 w4 (take4 P)

end Cert.ReferenceIdeal.RefVal

end
-- ==== Proof.RefRun.lean ====
/-
  The reference program's run, written out: @main as ONE list of its host operations, the five calls of
  the take functions (each with its call of the where function) unfolded at their call sites over the
  calls' buffer records, cut into six stretches — the softmax, then one stretch per tree level — and the
  run read back: every weakly fair execution terminates with the result buffer at `RefVal.refOut` of the
  argument's launch contents, the argument unchanged.
-/
import proofs.«166625_j24962349924771_1_alg».proof.Proof.RefDefs
import proofs.«166625_j24962349924771_1_alg».proof.Proof.Gen.ReferenceIdeal
import Idealize.ShloMosaic.Lib.StableHlo.Run
import Idealize.ShloMosaic.Lib.Pipeline.Frame
import Idealize.ShloMosaic.Adequacy
import Idealize.ShloMosaic.Init

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## The operations, stretch by stretch -/

/-- The softmax over the branch axis (the five index tables first), and the root's weight 1. -/
abbrev opsA : List (HloOp τ sig (Elt F)) :=
  [ StableHlo.nullary main_c (constantI S1 32 0#32),
    StableHlo.nullary main_c_0 (fun i => lit0 (S4.rowMajor i)),
    StableHlo.nullary main_c_1 (fun i => lit1 (S16.rowMajor i)),
    StableHlo.nullary main_c_2 (fun i => lit2 (S64.rowMajor i)),
    StableHlo.nullary main_c_3 (fun i => lit3 (S256.rowMajor i)),
    StableHlo.nullary main_cst (constant S_ .f32 0xFF800000#32),
    StableHlo.binary main_arg0 main_cst main_v0 ((fun x v => Host.reduce FloatOps.maximumf x v reducesTo_S256x64x341x4_S256x64x341_d3 h_S_) : (⟨S256x64x341x4, .f32⟩ : BufTy).Contents (Elt F) → (⟨S_, .f32⟩ : BufTy).Contents (Elt F) → (⟨S256x64x341, .f32⟩ : BufTy).Contents (Elt F)),
    StableHlo.nullary main_cst_4 (constant S_ .f32 0xFF800000#32),
    StableHlo.unary main_cst_4 main_v1 (broadcastInDim S256x64x341 ![] bcast_S_S256x64x341 : (⟨S_, .f32⟩ : BufTy).Contents (Elt F) → (⟨S256x64x341, .f32⟩ : BufTy).Contents (Elt F)),
    StableHlo.binary main_v1 main_v0 main_v2 (maximumf : (⟨S256x64x341, .f32⟩ : BufTy).Contents (Elt F) → (⟨S256x64x341, .f32⟩ : BufTy).Contents (Elt F) → (⟨S256x64x341, .f32⟩ : BufTy).Contents (Elt F)),
    StableHlo.unary main_v2 main_v3 (broadcastInDim S256x64x341x1 ![0, 1, 2] bcast_S256x64x341_S256x64x341x1_0_1_2 : (⟨S256x64x341, .f32⟩ : BufTy).Contents (Elt F) → (⟨S256x64x341x1, .f32⟩ : BufTy).Contents (Elt F)),
    StableHlo.unary main_v3 main_v4 (broadcastInDim S256x64x341x4 ![0, 1, 2, 3] bcast_S256x64x341x1_S256x64x341x4_0_1_2_3 : (⟨S256x64x341x1, .f32⟩ : BufTy).Contents (Elt F) → (⟨S256x64x341x4, .f32⟩ : BufTy).Contents (Elt F)),
    StableHlo.binary main_arg0 main_v4 main_v5 (subf : (⟨S256x64x341x4, .f32⟩ : BufTy).Contents (Elt F) → (⟨S256x64x341x4, .f32⟩ : BufTy).Contents (Elt F) → (⟨S256x64x341x4, .f32⟩ : BufTy).Contents (Elt F)),
    StableHlo.unary main_v5 main_v6 (Host.exp : (⟨S256x64x341x4, .f32⟩ : BufTy).Contents (Elt F) → (⟨S256x64x341x4, .f32⟩ : BufTy).Contents (Elt F)),
    StableHlo.nullary main_cst_5 (constant S_ .f32 0x00000000#32),
    StableHlo.binary main_v6 main_cst_5 main_v7 ((fun x v => Host.reduceAdd x v reducesTo_S256x64x341x4_S256x64x341_d3 h_S_) : (⟨S256x64x341x4, .f32⟩ : BufTy).Contents (Elt F) → (⟨S_, .f32⟩ : BufTy).Contents (Elt F) → (⟨S256x64x341, .f32⟩ : BufTy).Contents (Elt F)),
    StableHlo.unary main_v7 main_v8 (broadcastInDim S256x64x341x1 ![0, 1, 2] bcast_S256x64x341_S256x64x341x1_0_1_2 : (⟨S256x64x341, .f32⟩ : BufTy).Contents (Elt F) → (⟨S256x64x341x1, .f32⟩ : BufTy).Contents (Elt F)),
    StableHlo.unary main_v8 main_v9 (broadcastInDim S256x64x341x4 ![0, 1, 2, 3] bcast_S256x64x341x1_S256x64x341x4_0_1_2_3 : (⟨S256x64x341x1, .f32⟩ : BufTy).Contents (Elt F) → (⟨S256x64x341x4, .f32⟩ : BufTy).Contents (Elt F)),
    StableHlo.binary main_v6 main_v9 main_v10 (Host.divf : (⟨S256x64x341x4, .f32⟩ : BufTy).Contents (Elt F) → (⟨S256x64x341x4, .f32⟩ : BufTy).Contents (Elt F) → (⟨S256x64x341x4, .f32⟩ : BufTy).Contents (Elt F)),
    StableHlo.nullary main_cst_6 (constant S_ .f32 0x3F800000#32),
    StableHlo.unary main_cst_6 main_v11 (broadcastInDim S256x64x1 ![] bcast_S_S256x64x1 : (⟨S_, .f32⟩ : BufTy).Contents (Elt F) → (⟨S256x64x1, .f32⟩ : BufTy).Contents (Elt F)) ]

/-- Level 0: the take of the root (one index), inlined, then the weights times the gathered probabilities, flattened. -/
abbrev opsB0 : List (HloOp τ sig (Elt F)) :=
  [ StableHlo.TRef.nullary main_call0.c (constantI S_ 32 0#32),
    StableHlo.TRef.unary main_call0.c main_call0.v0 (broadcastInDim S1 ![] bcast_S_S1),
    StableHlo.TRef.binary (.of main_c : StableHlo.TRef sig ⟨S1, .i32⟩) main_call0.v0 main_call0.v1 (cmpi .slt),
    StableHlo.TRef.nullary main_call0.c_0 (constantI S_ 32 341#32),
    StableHlo.TRef.unary main_call0.c_0 main_call0.v2 (broadcastInDim S1 ![] bcast_S_S1),
    StableHlo.TRef.binary (.of main_c : StableHlo.TRef sig ⟨S1, .i32⟩) main_call0.v2 main_call0.v3 addi,
    StableHlo.TRef.ternary main_call0.v1 main_call0.v3 (.of main_c : StableHlo.TRef sig ⟨S1, .i32⟩) main_call0.call0.v0 select,
    StableHlo.TRef.unary main_call0.call0.v0 main_call0.v5 (broadcastInDim S1x1 ![0] bcast_S1_S1x1_0),
    StableHlo.TRef.nullary main_call0.c_1 (constantI S1 32 340#32),
    StableHlo.TRef.nullary main_call0.c_2 (constantI S_ 32 0#32),
    StableHlo.TRef.unary main_call0.c_2 main_call0.v6 (broadcastInDim S1x1 ![] bcast_S_S1x1),
    StableHlo.TRef.binary main_call0.v5 main_call0.v6 main_call0.v7 (cmpi .sge),
    StableHlo.TRef.unary main_call0.c_1 main_call0.v8 (broadcastInDim S1x1 ![1] bcast_S1_S1x1_1),
    StableHlo.TRef.binary main_call0.v5 main_call0.v8 main_call0.v9 (cmpi .sle),
    StableHlo.TRef.binary main_call0.v7 main_call0.v9 main_call0.v10 andi,
    StableHlo.TRef.nullary main_call0.c_3 (constantI S_ 1 1#1),
    StableHlo.TRef.binary main_call0.v10 main_call0.c_3 main_call0.v11 (fun x v => Host.reduce IntOp.andi x v reducesTo_S1x1_S1_d1 h_S_),
    StableHlo.TRef.binary (.of main_v10 : StableHlo.TRef sig ⟨S256x64x341x4, .f32⟩) main_call0.v5 main_call0.v12 (fun x i => Host.gather gather_S256x64x341x4_S1x1_S256x64x1x4_013_2_n_n_2_1_2566414 x i),
    StableHlo.TRef.unary main_call0.v11 main_call0.v13 (broadcastInDim S256x64x1x4 ![2] bcast_S1_S256x64x1x4_2),
    StableHlo.TRef.nullary main_call0.cst (constant S_ .f32 0x7FC00000#32),
    StableHlo.TRef.unary main_call0.cst main_call0.v14 (broadcastInDim S256x64x1x4 ![] bcast_S_S256x64x1x4),
    StableHlo.TRef.ternary main_call0.v13 main_call0.v12 main_call0.v14 main_call0.v15 select,
    StableHlo.unary main_v11 main_v13 (broadcastInDim S256x64x1x1 ![0, 1, 2] bcast_S256x64x1_S256x64x1x1_0_1_2 : (⟨S256x64x1, .f32⟩ : BufTy).Contents (Elt F) → (⟨S256x64x1x1, .f32⟩ : BufTy).Contents (Elt F)),
    StableHlo.unary main_v13 main_v14 (broadcastInDim S256x64x1x4 ![0, 1, 2, 3] bcast_S256x64x1x1_S256x64x1x4_0_1_2_3 : (⟨S256x64x1x1, .f32⟩ : BufTy).Contents (Elt F) → (⟨S256x64x1x4, .f32⟩ : BufTy).Contents (Elt F)),
    StableHlo.binary main_v14 main_v12 main_v15 (mulf : (⟨S256x64x1x4, .f32⟩ : BufTy).Contents (Elt F) → (⟨S256x64x1x4, .f32⟩ : BufTy).Contents (Elt F) → (⟨S256x64x1x4, .f32⟩ : BufTy).Contents (Elt F)),
    StableHlo.reshape main_v15 main_v16 rfl shapeCasts_S256x64x1x4_S256x64x4 ]

/-- Level 1: the take of the 4 nodes, inlined, then the product and the flattening. -/
abbrev opsB1 : List (HloOp τ sig (Elt F)) :=
  [ StableHlo.TRef.nullary main_call1.c (constantI S_ 32 0#32),
    StableHlo.TRef.unary main_call1.c main_call1.v0 (broadcastInDim S4 ![] bcast_S_S4),
    StableHlo.TRef.binary (.of main_c_0 : StableHlo.TRef sig ⟨S4, .i32⟩) main_call1.v0 main_call1.v1 (cmpi .slt),
    StableHlo.TRef.nullary main_call1.c_0 (constantI S_ 32 341#32),
    StableHlo.TRef.unary main_call1.c_0 main_call1.v2 (broadcastInDim S4 ![] bcast_S_S4),
    StableHlo.TRef.binary (.of main_c_0 : StableHlo.TRef sig ⟨S4, .i32⟩) main_call1.v2 main_call1.v3 addi,
    StableHlo.TRef.ternary main_call1.v1 main_call1.v3 (.of main_c_0 : StableHlo.TRef sig ⟨S4, .i32⟩) main_call1.call0.v0 select,
    StableHlo.TRef.unary main_call1.call0.v0 main_call1.v5 (broadcastInDim S4x1 ![0] bcast_S4_S4x1_0),
    StableHlo.TRef.nullary main_call1.c_1 (constantI S1 32 340#32),
    StableHlo.TRef.nullary main_call1.c_2 (constantI S_ 32 0#32),
    StableHlo.TRef.unary main_call1.c_2 main_call1.v6 (broadcastInDim S4x1 ![] bcast_S_S4x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S4x1 ![0, 1] bcast_S1x1_S4x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4x1_S4_d1 h_S_),
    StableHlo.TRef.binary (.of main_v10 : StableHlo.TRef sig ⟨S256x64x341x4, .f32⟩) main_call1.v5 main_call1.v13 (fun x i => Host.gather gather_S256x64x341x4_S4x1_S256x64x4x4_013_2_n_n_2_1_2566414 x i),
    StableHlo.TRef.unary main_call1.v12 main_call1.v14 (broadcastInDim S256x64x4x4 ![2] bcast_S4_S256x64x4x4_2),
    StableHlo.TRef.nullary main_call1.cst (constant S_ .f32 0x7FC00000#32),
    StableHlo.TRef.unary main_call1.cst main_call1.v15 (broadcastInDim S256x64x4x4 ![] bcast_S_S256x64x4x4),
    StableHlo.TRef.ternary main_call1.v14 main_call1.v13 main_call1.v15 main_call1.v16 select,
    StableHlo.unary main_v16 main_v18 (broadcastInDim S256x64x4x1 ![0, 1, 2] bcast_S256x64x4_S256x64x4x1_0_1_2 : (⟨S256x64x4, .f32⟩ : BufTy).Contents (Elt F) → (⟨S256x64x4x1, .f32⟩ : BufTy).Contents (Elt F)),
    StableHlo.unary main_v18 main_v19 (broadcastInDim S256x64x4x4 ![0, 1, 2, 3] bcast_S256x64x4x1_S256x64x4x4_0_1_2_3 : (⟨S256x64x4x1, .f32⟩ : BufTy).Contents (Elt F) → (⟨S256x64x4x4, .f32⟩ : BufTy).Contents (Elt F)),
    StableHlo.binary main_v19 main_v17 main_v20 (mulf : (⟨S256x64x4x4, .f32⟩ : BufTy).Contents (Elt F) → (⟨S256x64x4x4, .f32⟩ : BufTy).Contents (Elt F) → (⟨S256x64x4x4, .f32⟩ : BufTy).Contents (Elt F)),
    StableHlo.reshape main_v20 main_v21 rfl shapeCasts_S256x64x4x4_S256x64x16 ]

/-- Level 2: the take of the 16 nodes, inlined, then the product and the flattening. -/
abbrev opsB2 : List (HloOp τ sig (Elt F)) :=
  [ StableHlo.TRef.nullary main_call2.c (constantI S_ 32 0#32),
    StableHlo.TRef.unary main_call2.c main_call2.v0 (broadcastInDim S16 ![] bcast_S_S16),
    StableHlo.TRef.binary (.of main_c_1 : StableHlo.TRef sig ⟨S16, .i32⟩) main_call2.v0 main_call2.v1 (cmpi .slt),
    StableHlo.TRef.nullary main_call2.c_0 (constantI S_ 32 341#32),
    StableHlo.TRef.unary main_call2.c_0 main_call2.v2 (broadcastInDim S16 ![] bcast_S_S16),
    StableHlo.TRef.binary (.of main_c_1 : StableHlo.TRef sig ⟨S16, .i32⟩) main_call2.v2 main_call2.v3 addi,
    StableHlo.TRef.ternary main_call2.v1 main_call2.v3 (.of main_c_1 : StableHlo.TRef sig ⟨S16, .i32⟩) main_call2.call0.v0 select,
    StableHlo.TRef.unary main_call2.call0.v0 main_call2.v5 (broadcastInDim S16x1 ![0] bcast_S16_S16x1_0),
    StableHlo.TRef.nullary main_call2.c_1 (constantI S1 32 340#32),
    StableHlo.TRef.nullary main_call2.c_2 (constantI S_ 32 0#32),
    StableHlo.TRef.unary main_call2.c_2 main_call2.v6 (broadcastInDim S16x1 ![] bcast_S_S16x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S16x1 ![0, 1] bcast_S1x1_S16x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16x1_S16_d1 h_S_),
    StableHlo.TRef.binary (.of main_v10 : StableHlo.TRef sig ⟨S256x64x341x4, .f32⟩) main_call2.v5 main_call2.v13 (fun x i => Host.gather gather_S256x64x341x4_S16x1_S256x64x16x4_013_2_n_n_2_1_2566414 x i),
    StableHlo.TRef.unary main_call2.v12 main_call2.v14 (broadcastInDim S256x64x16x4 ![2] bcast_S16_S256x64x16x4_2),
    StableHlo.TRef.nullary main_call2.cst (constant S_ .f32 0x7FC00000#32),
    StableHlo.TRef.unary main_call2.cst main_call2.v15 (broadcastInDim S256x64x16x4 ![] bcast_S_S256x64x16x4),
    StableHlo.TRef.ternary main_call2.v14 main_call2.v13 main_call2.v15 main_call2.v16 select,
    StableHlo.unary main_v21 main_v23 (broadcastInDim S256x64x16x1 ![0, 1, 2] bcast_S256x64x16_S256x64x16x1_0_1_2 : (⟨S256x64x16, .f32⟩ : BufTy).Contents (Elt F) → (⟨S256x64x16x1, .f32⟩ : BufTy).Contents (Elt F)),
    StableHlo.unary main_v23 main_v24 (broadcastInDim S256x64x16x4 ![0, 1, 2, 3] bcast_S256x64x16x1_S256x64x16x4_0_1_2_3 : (⟨S256x64x16x1, .f32⟩ : BufTy).Contents (Elt F) → (⟨S256x64x16x4, .f32⟩ : BufTy).Contents (Elt F)),
    StableHlo.binary main_v24 main_v22 main_v25 (mulf : (⟨S256x64x16x4, .f32⟩ : BufTy).Contents (Elt F) → (⟨S256x64x16x4, .f32⟩ : BufTy).Contents (Elt F) → (⟨S256x64x16x4, .f32⟩ : BufTy).Contents (Elt F)),
    StableHlo.reshape main_v25 main_v26 rfl shapeCasts_S256x64x16x4_S256x64x64 ]

/-- Level 3: the take of the 64 nodes, inlined, then the product and the flattening. -/
abbrev opsB3 : List (HloOp τ sig (Elt F)) :=
  [ StableHlo.TRef.nullary main_call3.c (constantI S_ 32 0#32),
    StableHlo.TRef.unary main_call3.c main_call3.v0 (broadcastInDim S64 ![] bcast_S_S64),
    StableHlo.TRef.binary (.of main_c_2 : StableHlo.TRef sig ⟨S64, .i32⟩) main_call3.v0 main_call3.v1 (cmpi .slt),
    StableHlo.TRef.nullary main_call3.c_0 (constantI S_ 32 341#32),
    StableHlo.TRef.unary main_call3.c_0 main_call3.v2 (broadcastInDim S64 ![] bcast_S_S64),
    StableHlo.TRef.binary (.of main_c_2 : StableHlo.TRef sig ⟨S64, .i32⟩) main_call3.v2 main_call3.v3 addi,
    StableHlo.TRef.ternary main_call3.v1 main_call3.v3 (.of main_c_2 : StableHlo.TRef sig ⟨S64, .i32⟩) main_call3.call0.v0 select,
    StableHlo.TRef.unary main_call3.call0.v0 main_call3.v5 (broadcastInDim S64x1 ![0] bcast_S64_S64x1_0),
    StableHlo.TRef.nullary main_call3.c_1 (constantI S1 32 340#32),
    StableHlo.TRef.nullary main_call3.c_2 (constantI S_ 32 0#32),
    StableHlo.TRef.unary main_call3.c_2 main_call3.v6 (broadcastInDim S64x1 ![] bcast_S_S64x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S64x1 ![0, 1] bcast_S1x1_S64x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S64x1_S64_d1 h_S_),
    StableHlo.TRef.binary (.of main_v10 : StableHlo.TRef sig ⟨S256x64x341x4, .f32⟩) main_call3.v5 main_call3.v13 (fun x i => Host.gather gather_S256x64x341x4_S64x1_S256x64x64x4_013_2_n_n_2_1_2566414 x i),
    StableHlo.TRef.unary main_call3.v12 main_call3.v14 (broadcastInDim S256x64x64x4 ![2] bcast_S64_S256x64x64x4_2),
    StableHlo.TRef.nullary main_call3.cst (constant S_ .f32 0x7FC00000#32),
    StableHlo.TRef.unary main_call3.cst main_call3.v15 (broadcastInDim S256x64x64x4 ![] bcast_S_S256x64x64x4),
    StableHlo.TRef.ternary main_call3.v14 main_call3.v13 main_call3.v15 main_call3.v16 select,
    StableHlo.unary main_v26 main_v28 (broadcastInDim S256x64x64x1 ![0, 1, 2] bcast_S256x64x64_S256x64x64x1_0_1_2 : (⟨S256x64x64, .f32⟩ : BufTy).Contents (Elt F) → (⟨S256x64x64x1, .f32⟩ : BufTy).Contents (Elt F)),
    StableHlo.unary main_v28 main_v29 (broadcastInDim S256x64x64x4 ![0, 1, 2, 3] bcast_S256x64x64x1_S256x64x64x4_0_1_2_3 : (⟨S256x64x64x1, .f32⟩ : BufTy).Contents (Elt F) → (⟨S256x64x64x4, .f32⟩ : BufTy).Contents (Elt F)),
    StableHlo.binary main_v29 main_v27 main_v30 (mulf : (⟨S256x64x64x4, .f32⟩ : BufTy).Contents (Elt F) → (⟨S256x64x64x4, .f32⟩ : BufTy).Contents (Elt F) → (⟨S256x64x64x4, .f32⟩ : BufTy).Contents (Elt F)),
    StableHlo.reshape main_v30 main_v31 rfl shapeCasts_S256x64x64x4_S256x64x256 ]

/-- Level 4: the take of the 256 nodes, inlined, then the product and the flattening. -/
abbrev opsB4 : List (HloOp τ sig (Elt F)) :=
  [ StableHlo.TRef.nullary main_call4.c (constantI S_ 32 0#32),
    StableHlo.TRef.unary main_call4.c main_call4.v0 (broadcastInDim S256 ![] bcast_S_S256),
    StableHlo.TRef.binary (.of main_c_3 : StableHlo.TRef sig ⟨S256, .i32⟩) main_call4.v0 main_call4.v1 (cmpi .slt),
    StableHlo.TRef.nullary main_call4.c_0 (constantI S_ 32 341#32),
    StableHlo.TRef.unary main_call4.c_0 main_call4.v2 (broadcastInDim S256 ![] bcast_S_S256),
    StableHlo.TRef.binary (.of main_c_3 : StableHlo.TRef sig ⟨S256, .i32⟩) main_call4.v2 main_call4.v3 addi,
    StableHlo.TRef.ternary main_call4.v1 main_call4.v3 (.of main_c_3 : StableHlo.TRef sig ⟨S256, .i32⟩) main_call4.call0.v0 select,
    StableHlo.TRef.unary main_call4.call0.v0 main_call4.v5 (broadcastInDim S256x1 ![0] bcast_S256_S256x1_0),
    StableHlo.TRef.nullary main_call4.c_1 (constantI S1 32 340#32),
    StableHlo.TRef.nullary main_call4.c_2 (constantI S_ 32 0#32),
    StableHlo.TRef.unary main_call4.c_2 main_call4.v6 (broadcastInDim S256x1 ![] bcast_S_S256x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S256x1 ![0, 1] bcast_S1x1_S256x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S256x1_S256_d1 h_S_),
    StableHlo.TRef.binary (.of main_v10 : StableHlo.TRef sig ⟨S256x64x341x4, .f32⟩) main_call4.v5 main_call4.v13 (fun x i => Host.gather gather_S256x64x341x4_S256x1_S256x64x256x4_013_2_n_n_2_1_2566414 x i),
    StableHlo.TRef.unary main_call4.v12 main_call4.v14 (broadcastInDim S256x64x256x4 ![2] bcast_S256_S256x64x256x4_2),
    StableHlo.TRef.nullary main_call4.cst (constant S_ .f32 0x7FC00000#32),
    StableHlo.TRef.unary main_call4.cst main_call4.v15 (broadcastInDim S256x64x256x4 ![] bcast_S_S256x64x256x4),
    StableHlo.TRef.ternary main_call4.v14 main_call4.v13 main_call4.v15 main_call4.v16 select,
    StableHlo.unary main_v31 main_v33 (broadcastInDim S256x64x256x1 ![0, 1, 2] bcast_S256x64x256_S256x64x256x1_0_1_2 : (⟨S256x64x256, .f32⟩ : BufTy).Contents (Elt F) → (⟨S256x64x256x1, .f32⟩ : BufTy).Contents (Elt F)),
    StableHlo.unary main_v33 main_v34 (broadcastInDim S256x64x256x4 ![0, 1, 2, 3] bcast_S256x64x256x1_S256x64x256x4_0_1_2_3 : (⟨S256x64x256x1, .f32⟩ : BufTy).Contents (Elt F) → (⟨S256x64x256x4, .f32⟩ : BufTy).Contents (Elt F)),
    StableHlo.binary main_v34 main_v32 main_v35 (mulf : (⟨S256x64x256x4, .f32⟩ : BufTy).Contents (Elt F) → (⟨S256x64x256x4, .f32⟩ : BufTy).Contents (Elt F) → (⟨S256x64x256x4, .f32⟩ : BufTy).Contents (Elt F)),
    StableHlo.reshape main_v35 main_v36 rfl shapeCasts_S256x64x256x4_S256x64x1024 ]

/-- @main's operations in order, the calls unfolded. -/
abbrev ops : List (HloOp τ sig (Elt F)) :=
  opsA ++ (opsB0 ++ (opsB1 ++ (opsB2 ++ (opsB3 ++ opsB4))))

/-! ## @main is that line -/

set_option maxRecDepth 8192 in
/-- @main is the straight line of these operations: the functions' bodies unfolded at their calls and the
    records at their fields, both sides are one chain of host steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only and determines its result -/

theorem opsA_sub : (opsA : List (HloOp τ sig (Elt F))).Forall fun op => op.bufs ⊆ tcRefs τ sig :=
  ⟨nullary_bufs_sub .., nullary_bufs_sub .., nullary_bufs_sub .., nullary_bufs_sub .., nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub ..⟩

theorem opsA_fresh : ∀ op ∈ (opsA : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl⟩

theorem opsB0_sub : (opsB0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., reshape_bufs_sub ..⟩

theorem opsB0_fresh : ∀ op ∈ (opsB0 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl⟩

theorem opsB1_sub : (opsB1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., reshape_bufs_sub ..⟩

theorem opsB1_fresh : ∀ op ∈ (opsB1 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem opsB2_sub : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., reshape_bufs_sub ..⟩

theorem opsB2_fresh : ∀ op ∈ (opsB2 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem opsB3_sub : (opsB3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., reshape_bufs_sub ..⟩

theorem opsB3_fresh : ∀ op ∈ (opsB3 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem opsB4_sub : (opsB4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., reshape_bufs_sub ..⟩

theorem opsB4_fresh : ∀ op ∈ (opsB4 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp opsA_sub op h, List.forall_iff_forall_mem.mp opsB0_sub op h,
      List.forall_iff_forall_mem.mp opsB1_sub op h, List.forall_iff_forall_mem.mp opsB2_sub op h,
      List.forall_iff_forall_mem.mp opsB3_sub op h, List.forall_iff_forall_mem.mp opsB4_sub op h]

theorem ops_fresh : ∀ op ∈ (ops : List (HloOp τ sig (Elt F))), op.fresh = ∅ := fun op h => by
  simp only [ops, List.mem_append] at h
  rcases h with h | h | h | h | h | h
  exacts [opsA_fresh op h, opsB0_fresh op h, opsB1_fresh op h, opsB2_fresh op h, opsB3_fresh op h, opsB4_fresh op h]

/-- From any memory with zero counters every weakly fair execution of @main terminates, and every final state
    has each buffer at the operations' fold over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold, stretch by stretch

Each stretch is read from ANY contents `W`: what it leaves at the buffers the later stretches read. The folds inside
a reduction or a gather are never opened: every equation here is between the same operations in the same order. -/

attribute [local irreducible] Host.reduce Host.reduceAdd Host.gather

/-- The take of 1 node along the node axis, at ANY index vector. -/
def takeAt0 (P : FVec F S256x64x341x4 .f32) (idx : IVec S1 32) : FVec F S256x64x1x4 .f32 :=
  let v5 := RefVal.wrapH 1 bcast_S_S1 bcast_S1_S1x1_0 idx
  RefVal.fillH 1 gather_S256x64x341x4_S1x1_S256x64x1x4_013_2_n_n_2_1_2566414 bcast_S1_S256x64x1x4_2 bcast_S_S256x64x1x4 P v5
    (RefVal.maskH1 v5)

theorem take0_eq (P : FVec F S256x64x341x4 .f32) : RefVal.take0 P = takeAt0 P (constantI S1 32 0#32) := rfl

/-- The take of 4 nodes along the node axis, at ANY index vector. -/
def takeAt1 (P : FVec F S256x64x341x4 .f32) (idx : IVec S4 32) : FVec F S256x64x4x4 .f32 :=
  let v5 := RefVal.wrapH 4 bcast_S_S4 bcast_S4_S4x1_0 idx
  RefVal.fillH 4 gather_S256x64x341x4_S4x1_S256x64x4x4_013_2_n_n_2_1_2566414 bcast_S4_S256x64x4x4_2 bcast_S_S256x64x4x4 P v5
    (RefVal.maskH 4 bcast_S_S4x1 bcast_S1x1_S4x1_0_1 reducesTo_S4x1_S4_d1 v5)

theorem take1_eq (P : FVec F S256x64x341x4 .f32) : RefVal.take1 P = takeAt1 P (fun i => lit0 (S4.rowMajor i)) := rfl

/-- The take of 16 nodes along the node axis, at ANY index vector. -/
def takeAt2 (P : FVec F S256x64x341x4 .f32) (idx : IVec S16 32) : FVec F S256x64x16x4 .f32 :=
  let v5 := RefVal.wrapH 16 bcast_S_S16 bcast_S16_S16x1_0 idx
  RefVal.fillH 16 gather_S256x64x341x4_S16x1_S256x64x16x4_013_2_n_n_2_1_2566414 bcast_S16_S256x64x16x4_2 bcast_S_S256x64x16x4 P v5
    (RefVal.maskH 16 bcast_S_S16x1 bcast_S1x1_S16x1_0_1 reducesTo_S16x1_S16_d1 v5)

theorem take2_eq (P : FVec F S256x64x341x4 .f32) : RefVal.take2 P = takeAt2 P (fun i => lit1 (S16.rowMajor i)) := rfl

/-- The take of 64 nodes along the node axis, at ANY index vector. -/
def takeAt3 (P : FVec F S256x64x341x4 .f32) (idx : IVec S64 32) : FVec F S256x64x64x4 .f32 :=
  let v5 := RefVal.wrapH 64 bcast_S_S64 bcast_S64_S64x1_0 idx
  RefVal.fillH 64 gather_S256x64x341x4_S64x1_S256x64x64x4_013_2_n_n_2_1_2566414 bcast_S64_S256x64x64x4_2 bcast_S_S256x64x64x4 P v5
    (RefVal.maskH 64 bcast_S_S64x1 bcast_S1x1_S64x1_0_1 reducesTo_S64x1_S64_d1 v5)

theorem take3_eq (P : FVec F S256x64x341x4 .f32) : RefVal.take3 P = takeAt3 P (fun i => lit2 (S64.rowMajor i)) := rfl

/-- The take of 256 nodes along the node axis, at ANY index vector. -/
def takeAt4 (P : FVec F S256x64x341x4 .f32) (idx : IVec S256 32) : FVec F S256x64x256x4 .f32 :=
  let v5 := RefVal.wrapH 256 bcast_S_S256 bcast_S256_S256x1_0 idx
  RefVal.fillH 256 gather_S256x64x341x4_S256x1_S256x64x256x4_013_2_n_n_2_1_2566414 bcast_S256_S256x64x256x4_2 bcast_S_S256x64x256x4 P v5
    (RefVal.maskH 256 bcast_S_S256x1 bcast_S1x1_S256x1_0_1 reducesTo_S256x1_S256_d1 v5)

theorem take4_eq (P : FVec F S256x64x341x4 .f32) : RefVal.take4 P = takeAt4 P (fun i => lit3 (S256.rowMajor i)) := rfl

set_option maxRecDepth 8192 in
theorem afterA_v10 (W : Valuation τ sig (Elt F)) :
    after opsA W (main_v10 : DevRef τ sig) = RefVal.softmaxH (W (main_arg0 : DevRef τ sig)) := by
  simp only [opsA]
  after_results_simp <;> rfl

set_option maxRecDepth 8192 in
theorem afterA_v11 (W : Valuation τ sig (Elt F)) :
    after opsA W (main_v11 : DevRef τ sig) = (RefVal.onesH : FVec F S256x64x1 .f32) := by
  simp only [opsA]
  after_results_simp <;> rfl

set_option maxRecDepth 8192 in
theorem afterA_c (W : Valuation τ sig (Elt F)) :
    after opsA W (main_c : DevRef τ sig) = (constantI S1 32 0#32 : IVec S1 32) := by
  simp only [opsA]
  after_results_simp <;> rfl

set_option maxRecDepth 8192 in
theorem afterA_c_0 (W : Valuation τ sig (Elt F)) :
    after opsA W (main_c_0 : DevRef τ sig) = (fun i => lit0 (S4.rowMajor i) : IVec S4 32) := by
  simp only [opsA]
  after_results_simp <;> rfl

set_option maxRecDepth 8192 in
theorem afterA_c_1 (W : Valuation τ sig (Elt F)) :
    after opsA W (main_c_1 : DevRef τ sig) = (fun i => lit1 (S16.rowMajor i) : IVec S16 32) := by
  simp only [opsA]
  after_results_simp <;> rfl

set_option maxRecDepth 8192 in
theorem afterA_c_2 (W : Valuation τ sig (Elt F)) :
    after opsA W (main_c_2 : DevRef τ sig) = (fun i => lit2 (S64.rowMajor i) : IVec S64 32) := by
  simp only [opsA]
  after_results_simp <;> rfl

set_option maxRecDepth 8192 in
theorem afterA_c_3 (W : Valuation τ sig (Elt F)) :
    after opsA W (main_c_3 : DevRef τ sig) = (fun i => lit3 (S256.rowMajor i) : IVec S256 32) := by
  simp only [opsA]
  after_results_simp <;> rfl

set_option maxRecDepth 8192 in
theorem afterA_arg0 (W : Valuation τ sig (Elt F)) :
    after opsA W (main_arg0 : DevRef τ sig) = W (main_arg0 : DevRef τ sig) := by
  simp only [opsA]
  after_results_simp

set_option maxRecDepth 8192 in
theorem afterB0_v16 (W : Valuation τ sig (Elt F)) :
    after opsB0 W (main_v16 : DevRef τ sig) =
      RefVal.levelH 1 4 bcast_S256x64x1_S256x64x1x1_0_1_2 bcast_S256x64x1x1_S256x64x1x4_0_1_2_3 shapeCasts_S256x64x1x4_S256x64x4 (W (main_v11 : DevRef τ sig)) (takeAt0 (W (main_v10 : DevRef τ sig)) (W (main_c : DevRef τ sig))) := by
  simp only [opsB0]
  after_results_simp <;> rfl

set_option maxRecDepth 8192 in
theorem afterB0_arg0 (W : Valuation τ sig (Elt F)) :
    after opsB0 W (main_arg0 : DevRef τ sig) = W (main_arg0 : DevRef τ sig) := by
  simp only [opsB0]
  after_results_simp

set_option maxRecDepth 8192 in
theorem afterB0_v10 (W : Valuation τ sig (Elt F)) :
    after opsB0 W (main_v10 : DevRef τ sig) = W (main_v10 : DevRef τ sig) := by
  simp only [opsB0]
  after_results_simp

set_option maxRecDepth 8192 in
theorem afterB0_c_0 (W : Valuation τ sig (Elt F)) :
    after opsB0 W (main_c_0 : DevRef τ sig) = W (main_c_0 : DevRef τ sig) := by
  simp only [opsB0]
  after_results_simp

set_option maxRecDepth 8192 in
theorem afterB0_c_1 (W : Valuation τ sig (Elt F)) :
    after opsB0 W (main_c_1 : DevRef τ sig) = W (main_c_1 : DevRef τ sig) := by
  simp only [opsB0]
  after_results_simp

set_option maxRecDepth 8192 in
theorem afterB0_c_2 (W : Valuation τ sig (Elt F)) :
    after opsB0 W (main_c_2 : DevRef τ sig) = W (main_c_2 : DevRef τ sig) := by
  simp only [opsB0]
  after_results_simp

set_option maxRecDepth 8192 in
theorem afterB0_c_3 (W : Valuation τ sig (Elt F)) :
    after opsB0 W (main_c_3 : DevRef τ sig) = W (main_c_3 : DevRef τ sig) := by
  simp only [opsB0]
  after_results_simp

set_option maxRecDepth 8192 in
theorem afterB1_v21 (W : Valuation τ sig (Elt F)) :
    after opsB1 W (main_v21 : DevRef τ sig) =
      RefVal.levelH 4 16 bcast_S256x64x4_S256x64x4x1_0_1_2 bcast_S256x64x4x1_S256x64x4x4_0_1_2_3 shapeCasts_S256x64x4x4_S256x64x16 (W (main_v16 : DevRef τ sig)) (takeAt1 (W (main_v10 : DevRef τ sig)) (W (main_c_0 : DevRef τ sig))) := by
  simp only [opsB1]
  after_results_simp <;> rfl

set_option maxRecDepth 8192 in
theorem afterB1_arg0 (W : Valuation τ sig (Elt F)) :
    after opsB1 W (main_arg0 : DevRef τ sig) = W (main_arg0 : DevRef τ sig) := by
  simp only [opsB1]
  after_results_simp

set_option maxRecDepth 8192 in
theorem afterB1_v10 (W : Valuation τ sig (Elt F)) :
    after opsB1 W (main_v10 : DevRef τ sig) = W (main_v10 : DevRef τ sig) := by
  simp only [opsB1]
  after_results_simp

set_option maxRecDepth 8192 in
theorem afterB1_c_1 (W : Valuation τ sig (Elt F)) :
    after opsB1 W (main_c_1 : DevRef τ sig) = W (main_c_1 : DevRef τ sig) := by
  simp only [opsB1]
  after_results_simp

set_option maxRecDepth 8192 in
theorem afterB1_c_2 (W : Valuation τ sig (Elt F)) :
    after opsB1 W (main_c_2 : DevRef τ sig) = W (main_c_2 : DevRef τ sig) := by
  simp only [opsB1]
  after_results_simp

set_option maxRecDepth 8192 in
theorem afterB1_c_3 (W : Valuation τ sig (Elt F)) :
    after opsB1 W (main_c_3 : DevRef τ sig) = W (main_c_3 : DevRef τ sig) := by
  simp only [opsB1]
  after_results_simp

set_option maxRecDepth 8192 in
theorem afterB2_v26 (W : Valuation τ sig (Elt F)) :
    after opsB2 W (main_v26 : DevRef τ sig) =
      RefVal.levelH 16 64 bcast_S256x64x16_S256x64x16x1_0_1_2 bcast_S256x64x16x1_S256x64x16x4_0_1_2_3 shapeCasts_S256x64x16x4_S256x64x64 (W (main_v21 : DevRef τ sig)) (takeAt2 (W (main_v10 : DevRef τ sig)) (W (main_c_1 : DevRef τ sig))) := by
  simp only [opsB2]
  after_results_simp <;> rfl

set_option maxRecDepth 8192 in
theorem afterB2_arg0 (W : Valuation τ sig (Elt F)) :
    after opsB2 W (main_arg0 : DevRef τ sig) = W (main_arg0 : DevRef τ sig) := by
  simp only [opsB2]
  after_results_simp

set_option maxRecDepth 8192 in
theorem afterB2_v10 (W : Valuation τ sig (Elt F)) :
    after opsB2 W (main_v10 : DevRef τ sig) = W (main_v10 : DevRef τ sig) := by
  simp only [opsB2]
  after_results_simp

set_option maxRecDepth 8192 in
theorem afterB2_c_2 (W : Valuation τ sig (Elt F)) :
    after opsB2 W (main_c_2 : DevRef τ sig) = W (main_c_2 : DevRef τ sig) := by
  simp only [opsB2]
  after_results_simp

set_option maxRecDepth 8192 in
theorem afterB2_c_3 (W : Valuation τ sig (Elt F)) :
    after opsB2 W (main_c_3 : DevRef τ sig) = W (main_c_3 : DevRef τ sig) := by
  simp only [opsB2]
  after_results_simp

set_option maxRecDepth 8192 in
theorem afterB3_v31 (W : Valuation τ sig (Elt F)) :
    after opsB3 W (main_v31 : DevRef τ sig) =
      RefVal.levelH 64 256 bcast_S256x64x64_S256x64x64x1_0_1_2 bcast_S256x64x64x1_S256x64x64x4_0_1_2_3 shapeCasts_S256x64x64x4_S256x64x256 (W (main_v26 : DevRef τ sig)) (takeAt3 (W (main_v10 : DevRef τ sig)) (W (main_c_2 : DevRef τ sig))) := by
  simp only [opsB3]
  after_results_simp <;> rfl

set_option maxRecDepth 8192 in
theorem afterB3_arg0 (W : Valuation τ sig (Elt F)) :
    after opsB3 W (main_arg0 : DevRef τ sig) = W (main_arg0 : DevRef τ sig) := by
  simp only [opsB3]
  after_results_simp

set_option maxRecDepth 8192 in
theorem afterB3_v10 (W : Valuation τ sig (Elt F)) :
    after opsB3 W (main_v10 : DevRef τ sig) = W (main_v10 : DevRef τ sig) := by
  simp only [opsB3]
  after_results_simp

set_option maxRecDepth 8192 in
theorem afterB3_c_3 (W : Valuation τ sig (Elt F)) :
    after opsB3 W (main_c_3 : DevRef τ sig) = W (main_c_3 : DevRef τ sig) := by
  simp only [opsB3]
  after_results_simp

set_option maxRecDepth 8192 in
theorem afterB4_v36 (W : Valuation τ sig (Elt F)) :
    after opsB4 W (main_v36 : DevRef τ sig) =
      RefVal.levelH 256 1024 bcast_S256x64x256_S256x64x256x1_0_1_2 bcast_S256x64x256x1_S256x64x256x4_0_1_2_3 shapeCasts_S256x64x256x4_S256x64x1024 (W (main_v31 : DevRef τ sig)) (takeAt4 (W (main_v10 : DevRef τ sig)) (W (main_c_3 : DevRef τ sig))) := by
  simp only [opsB4]
  after_results_simp <;> rfl

set_option maxRecDepth 8192 in
theorem afterB4_arg0 (W : Valuation τ sig (Elt F)) :
    after opsB4 W (main_arg0 : DevRef τ sig) = W (main_arg0 : DevRef τ sig) := by
  simp only [opsB4]
  after_results_simp

/-! ## The whole line -/

/-- The result buffer after the whole line: the reference's result, level after level. -/
theorem after_ops_v36 (V : Valuation τ sig (Elt F)) :
    after ops V (main_v36 : DevRef τ sig) = RefVal.refOut (V (main_arg0 : DevRef τ sig)) := by
  simp only [ops, after_append]
  rw [afterB4_v36, afterB3_v31, afterB3_v10, afterB3_c_3,
    afterB2_v26, afterB2_v10, afterB2_c_2, afterB2_c_3,
    afterB1_v21, afterB1_v10, afterB1_c_1, afterB1_c_2, afterB1_c_3,
    afterB0_v16, afterB0_v10, afterB0_c_0, afterB0_c_1, afterB0_c_2, afterB0_c_3,
    afterA_v10, afterA_v11, afterA_c, afterA_c_0, afterA_c_1, afterA_c_2, afterA_c_3]
  rfl

/-- No operation writes the argument. -/
theorem after_ops_arg0 (V : Valuation τ sig (Elt F)) :
    after ops V (main_arg0 : DevRef τ sig) = V (main_arg0 : DevRef τ sig) := by
  simp only [ops, after_append]
  rw [afterB4_arg0, afterB3_arg0, afterB2_arg0, afterB1_arg0, afterB0_arg0, afterA_arg0]

/-- On every device, for any float values, from any memory with zero counters: every weakly fair execution of
    @main terminates with the result at the reference's composed function of the argument and the argument
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v36) = RefVal.refOut (F := F) (m ((c.tc : Thread nD τ).loc main_arg0))
      ∧ r.2.mem ((c.tc : Thread nD τ).loc main_arg0) = m ((c.tc : Thread nD τ).loc main_arg0)) :=
  (θ_run defs _ _).mono (fun _ h c => ⟨(h c main_v36).trans (after_ops_v36 (launchContents m c)),
      (h c main_arg0).trans (after_ops_arg0 (launchContents m c))⟩)
    (run_fold m ρ)

end Cert.ReferenceIdeal.RefRun

end
-- ==== Proof.RefSoftmax.lean ====
/-
  The host's softmax over the branch axis, read at an index.

  At the extended reals every operation is exact, so the softmax of the [256, 64, 341, 4] block at tree (b, t), node n and
  branch j depends only on that node's four logits x₀ … x₃: with m their maximum (folded from −∞),
  it is  exp (x_j − m) / Σ_k exp (x_k − m).  The program computes m by a reduction over the last axis followed by a
  maximum with the constant −∞ (which changes nothing: the fold already starts from that constant), spreads it back
  over the four branches by two broadcasts, subtracts, exponentiates, sums over the last axis from the constant 0,
  spreads the sum back the same way, and divides.
-/
import proofs.«166625_j24962349924771_1_alg».proof.Proof.RefDefs
import proofs.«166625_j24962349924771_1_alg».proof.Proof.Gen.ReferenceIdeal
import proofs.«166625_j24962349924771_1_alg».proof.Proof.Spec
import Idealize.ShloMosaic.PureOps.Ideal.Laws
import Idealize.ShloMosaic.Lib.ValueIdx
import Idealize.ShloMosaic.Lib.Pipeline.Value

noncomputable section

namespace Cert.ReferenceIdeal.RefVal

open Idealize.ShloMosaic Idealize.ShloMosaic.ValueIdx Cert.ReferenceIdeal
open Cert.ReferenceIdeal.Facts₀ Cert.ReferenceIdeal.Facts

/-- The shapes of a block and of a block with its branch axis reduced away are related as a reduction over axis 3. -/
theorem reduces_last : S256x64x341x4.Reduces [3] S256x64x341 := by decide

/-- The reduced index (b, t, n) with branch k put back is (b, t, n, k). -/
theorem lift_last (b : Fin 256) (t : Fin 64) (n : Fin 341) (k : Fin (S256x64x341x4.size 3)) :
    reduces_last.lift (ix3 b t n) k = ix4 b t n (⟨k.val, k.isLt⟩ : Fin 4) := by
  funext c
  apply Fin.ext
  match c with
  | ⟨0, _⟩ => rfl
  | ⟨1, _⟩ => rfl
  | ⟨2, _⟩ => rfl
  | ⟨3, _⟩ => rfl

/-- A value per node, spread over a unit branch axis and then over the four branches, reads the node's value at
    every branch. -/
theorem spread_apply {α : Type} (y : S256x64x341.Idx → α) (b : Fin 256) (t : Fin 64) (n : Fin 341) (j : Fin 4) :
    broadcastInDim S256x64x341x4 ![0, 1, 2, 3] bcast_S256x64x341x1_S256x64x341x4_0_1_2_3
        (broadcastInDim S256x64x341x1 ![0, 1, 2] bcast_S256x64x341_S256x64x341x1_0_1_2 y) (ix4 b t n j)
      = y (ix3 b t n) := by
  refine (broadcastInDim_apply _ _ _ (ix4 b t n j) (ix4 b t n (0 : Fin 1)) ?_).trans ?_
  · intro a
    match a with
    | ⟨0, _⟩ => rfl
    | ⟨1, _⟩ => rfl
    | ⟨2, _⟩ => rfl
    | ⟨3, _⟩ => rfl
  · refine broadcastInDim_apply _ _ _ (ix4 b t n (0 : Fin 1)) (ix3 b t n) ?_
    intro a
    match a with
    | ⟨0, _⟩ => rfl
    | ⟨1, _⟩ => rfl
    | ⟨2, _⟩ => rfl

/-- The maximum over the branch axis, folded from −∞, at node (b, t, n) is the maximum of that node's four logits. -/
theorem rowMax_apply (x : FVec Ideal S256x64x341x4 .f32) (b : Fin 256) (t : Fin 64) (n : Fin 341) :
    Host.reduce FloatOps.maximumf x (constant (F := Ideal) S_ .f32 0xFF800000#32)
        reducesTo_S256x64x341x4_S256x64x341_d3 h_S_ (ix3 b t n)
      = Cert.Spec.mx4 (fun k => x (ix4 b t n k)) := by
  rw [Host.reduce_eq_fold_single FloatOps.maximumf x _ reducesTo_S256x64x341x4_S256x64x341_d3 reduces_last h_S_]
  have hf : (x ∘ reduces_last.lift (ix3 b t n)) = fun k : Fin 4 => x (ix4 b t n k) :=
    funext fun k => congrArg x (lift_last b t n k)
  unfold Cert.Spec.mx4
  exact congrArg (fun f => Finset.fold max (Ideal.ofBits .f32 0xFF800000#32) f (Finset.univ : Finset (Fin 4))) hf

variable {F : FTy → Type} [FloatOps F]

/-- A value per node spread over the four branches: a unit branch axis appended, then stretched to four. -/
def spreadH {α : Type} (y : S256x64x341.Idx → α) : S256x64x341x4.Idx → α :=
  broadcastInDim S256x64x341x4 ![0, 1, 2, 3] bcast_S256x64x341x1_S256x64x341x4_0_1_2_3
    (broadcastInDim S256x64x341x1 ![0, 1, 2] bcast_S256x64x341_S256x64x341x1_0_1_2 y)

/-- The maximum over the branch axis, as the program computes it: the reduction from −∞, then once more the maximum
    with −∞. -/
def rowMaxH (x : FVec F S256x64x341x4 .f32) : FVec F S256x64x341 .f32 :=
  maximumf (broadcastInDim S256x64x341 ![] bcast_S_S256x64x341 (constant S_ .f32 0xFF800000#32))
    (Host.reduce FloatOps.maximumf x (constant S_ .f32 0xFF800000#32) reducesTo_S256x64x341x4_S256x64x341_d3 h_S_)

/-- The exponentials of the logits shifted by their node's maximum. -/
def expsH (x : FVec F S256x64x341x4 .f32) : FVec F S256x64x341x4 .f32 :=
  Host.exp (subf x (spreadH (rowMaxH x)))

/-- The softmax is the shifted exponentials over their sum along the branch axis (taken from the constant 0). -/
theorem softmaxH_eq (x : FVec F S256x64x341x4 .f32) :
    softmaxH x = Host.divf (expsH x)
      (spreadH (Host.reduceAdd (expsH x) (constant S_ .f32 0x00000000#32) reducesTo_S256x64x341x4_S256x64x341_d3 h_S_)) := rfl

/-- The program's maximum at node (b, t, n) is the maximum of the node's four logits: the fold starts from −∞, so a
    further maximum with −∞ leaves it as it is. -/
theorem rowMaxH_apply (x : FVec Ideal S256x64x341x4 .f32) (b : Fin 256) (t : Fin 64) (n : Fin 341) :
    rowMaxH (F := Ideal) x (ix3 b t n) = Cert.Spec.mx4 (fun k => x (ix4 b t n k)) := by
  unfold rowMaxH
  rw [maximumf_apply, rowMax_apply]
  refine (congrArg (fun c => max c _) ((broadcastInDim_apply _ _ _ (ix3 b t n) ix0 (fun a => a.elim0)).trans
    (constant_apply _ _))).trans ?_
  exact max_eq_right ((Finset.le_fold_max _).2 (Or.inl le_rfl))

/-- A shifted exponential at (b, t, n, k). -/
theorem expsH_apply (x : FVec Ideal S256x64x341x4 .f32) (b : Fin 256) (t : Fin 64) (n : Fin 341) (k : Fin 4) :
    expsH (F := Ideal) x (ix4 b t n k)
      = Ideal.exp (x (ix4 b t n k) - Cert.Spec.mx4 (fun k => x (ix4 b t n k))) := by
  show Ideal.exp (subf x (spreadH (rowMaxH x)) (ix4 b t n k)) = _
  rw [subf_apply]
  unfold spreadH
  rw [spread_apply, rowMaxH_apply]

/-- The sum of a block over the branch axis from the constant 0, at node (b, t, n), is the sum of the node's four entries. -/
theorem rowSum_apply (v : FVec Ideal S256x64x341x4 .f32) (b : Fin 256) (t : Fin 64) (n : Fin 341) :
    Host.reduceAdd v (constant (F := Ideal) S_ .f32 0x00000000#32) reducesTo_S256x64x341x4_S256x64x341_d3 h_S_ (ix3 b t n)
      = ∑ k : Fin 4, v (ix4 b t n k) := by
  show Ideal.hostReduceAdd reducesTo_S256x64x341x4_S256x64x341_d3 v (Ideal.ofBits .f32 0x00000000#32) (ix3 b t n) = _
  rw [Ideal.hostReduceAdd_single _ reduces_last, Ideal.ofBits_zero_f32, zero_add]
  exact Finset.sum_congr rfl fun k _ => congrArg v (lift_last b t n k)

/-- **The softmax at (b, t, n, j)** is the softmax of node (b, t, n)'s four logits at branch j. -/
theorem softmaxH_apply (x : FVec Ideal S256x64x341x4 .f32) (b : Fin 256) (t : Fin 64) (n : Fin 341) (j : Fin 4) :
    softmaxH (F := Ideal) x (ix4 b t n j) = Cert.Spec.smax4 (fun k => x (ix4 b t n k)) j := by
  rw [softmaxH_eq]
  show Ideal.div (expsH x (ix4 b t n j)) (spreadH _ (ix4 b t n j)) = _
  unfold spreadH Cert.Spec.smax4
  rw [spread_apply, rowSum_apply, expsH_apply]
  refine congrArg (Ideal.div _) (Finset.sum_congr rfl fun k _ => expsH_apply x b t n k)

end Cert.ReferenceIdeal.RefVal

end
-- ==== Proof.RefTake.lean ====
/-
  `jnp.take` along the node axis at constant index tables, read at an index.

  The reference reads, level by level, the branch probabilities of the level's nodes out of the array of all 341
  nodes.  Each read is a gather along the node axis whose start indices are a literal table; around it the indices
  are first wrapped (a negative index has 341 added) and afterwards masked (an index outside [0, 340] yields a NaN).
  The tables hold the preorder numbers of the level's nodes, all inside [0, 340], so the wrap and the mask do
  nothing, the gather's clamp does nothing either, and the result at (b, t, k, j) is the input at
  (b, t, node k, j).
-/
import proofs.«166625_j24962349924771_1_alg».proof.Proof.RefDefs
import proofs.«166625_j24962349924771_1_alg».proof.Proof.Gen.ReferenceIdeal
import proofs.«166625_j24962349924771_1_alg».proof.Proof.Spec
import Idealize.ShloMosaic.Lib.ValueIdx
import Idealize.ShloMosaic.Lib.Pipeline.Value
import Idealize.ShloMosaic.Lib.StableHlo.Predicate
import Idealize.ShloMosaic.Lib.ReduceAll

noncomputable section

namespace Cert.ReferenceIdeal.RefVal

open Idealize.ShloMosaic Idealize.ShloMosaic.ValueIdx Cert.ReferenceIdeal
open Cert.ReferenceIdeal.Facts₀ Cert.ReferenceIdeal.Facts

variable [Facts]

/-! ## The gather along the node axis, read at an index -/

section Gather
variable {α : Type} {K w : Nat}

/-- The dimension numbers of a gather of K whole nodes: the result's axes 0, 1, 3 are the operand's axes 0, 1, 3, the
    node axis is collapsed and is the one the start index names, the K start indices stand as a column. -/
abbrev nodeDims (K : Nat)
    (wf : GatherDims.WF S256x64x341x4 (Sk1 K) (So K) [0, 1, 3] [2] [] [2] [] 1 ![256, 64, 1, 4]) :
    GatherDims S256x64x341x4 (Sk1 K) (So K) where
  offsetDims := [0, 1, 3]
  collapsedSliceDims := [2]
  operandBatchingDims := []
  startIndicesBatchingDims := []
  startIndexMap := [2]
  indexVectorDim := 1
  sliceSizes := ![256, 64, 1, 4]
  wf := wf

/-- The gather at (b, t, k, j): the operand at (b, t, n, j), where n is the k-th start index read as a signed integer
    and clamped into [0, 340]. -/
theorem gather_node_apply
    (wf : GatherDims.WF S256x64x341x4 (Sk1 K) (So K) [0, 1, 3] [2] [] [2] [] 1 ![256, 64, 1, 4])
    (P : S256x64x341x4.Idx → α) (v5 : IVec (Sk1 K) w) (b : Fin 256) (t : Fin 64) (k : Fin K) (j : Fin 4) :
    Host.gather (nodeDims K wf) P v5 (ix4 b t k j)
      = P (ix4 b t ⟨min (v5 (ix2 k 0)).toInt.toNat 340, by omega⟩ j) := by
  unfold Host.gather
  congr 1
  funext a
  refine Fin.ext ?_
  show (nodeDims K wf).start (ix4 b t k j) v5 a + (nodeDims K wf).batchCoord (ix4 b t k j) a
    + (nodeDims K wf).offCoord (ix4 b t k j) a = _
  rw [GatherDims.batchCoord_eq_zero _ _ _ List.not_mem_nil, Nat.add_zero]
  match a with
  | ⟨0, _⟩ =>
    -- a batch axis of the operand: no start index, the result's own coordinate
    show (nodeDims K wf).start (ix4 b t k j) v5 0 + (nodeDims K wf).offCoord (ix4 b t k j) 0 = b.val
    exact Nat.zero_add _
  | ⟨1, _⟩ =>
    show (nodeDims K wf).start (ix4 b t k j) v5 1 + (nodeDims K wf).offCoord (ix4 b t k j) 1 = t.val
    exact Nat.zero_add _
  | ⟨2, _⟩ =>
    -- the node axis: the clamped start index, read at row k of the index column
    show (nodeDims K wf).start (ix4 b t k j) v5 2 + (nodeDims K wf).offCoord (ix4 b t k j) 2
      = min (v5 (ix2 k 0)).toInt.toNat 340
    have hsi : (nodeDims K wf).siIdx (ix4 b t k j) ⟨List.idxOf (2 : Fin 4) (nodeDims K wf).startIndexMap,
        List.idxOf_lt_length_iff.2 (List.mem_singleton.mpr rfl)⟩ = ix2 k 0 := by
      funext c; refine Fin.ext ?_
      match c with
      | ⟨0, _⟩ => rfl
      | ⟨1, _⟩ => rfl
    have hstart : (nodeDims K wf).start (ix4 b t k j) v5 2 = min (v5 (ix2 k 0)).toInt.toNat 340 := by
      unfold GatherDims.start
      rw [dif_pos (show (2 : Fin 4) ∈ (nodeDims K wf).startIndexMap from List.mem_singleton.mpr rfl), hsi]
      rfl
    rw [hstart]
    rfl
  | ⟨3, _⟩ =>
    show (nodeDims K wf).start (ix4 b t k j) v5 3 + (nodeDims K wf).offCoord (ix4 b t k j) 3 = j.val
    exact Nat.zero_add _

end Gather

/-! ## Words inside [0, 340]: the compares of the wrap and of the mask -/

section Words

/-- A word of value at most 340 is not negative as a signed word. -/
theorem not_slt_zero {c : BitVec 32} (hc : c.toNat ≤ 340) : ¬ IntOp.cmpi .slt c 0#32 = 1#1 := by
  intro h
  have h0 : (0#32 : BitVec 32).toNat = 0 := rfl
  have := (StableHlo.Predicate.slt_iff_toNat (a := c) (b := 0#32) (by omega) (by omega)).1 h
  omega

/-- Such a word passes both range tests of the mask. -/
theorem in_range_bits {c : BitVec 32} (hc : c.toNat ≤ 340) :
    IntOp.andi (IntOp.cmpi .sge c 0#32) (IntOp.cmpi .sle c 340#32) = 1#1 := by
  have h0 : (0#32 : BitVec 32).toNat = 0 := rfl
  have h340 : (340#32 : BitVec 32).toNat = 340 := rfl
  refine IntOp.andi_eq_one.2 ⟨?_, ?_⟩
  · exact (StableHlo.Predicate.sge_iff_toNat (a := c) (b := 0#32) (by omega) (by omega)).2 (by omega)
  · exact (StableHlo.Predicate.sle_iff_toNat (a := c) (b := 340#32) (by omega) (by omega)).2 (by omega)

/-- A left fold by `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | n :: l => by
    rw [List.foldl_cons, hf n, show IntOp.andi 1#1 1#1 = 1#1 from by decide]
    exact foldl_andi_ones f hf l

/-- A reduction by `and` from 1 of an array of 1s is 1 everywhere. -/
theorem reduce_andi_ones {s t u : Shape} {axes : List (Fin s.rank)} (x : s.Idx → BitVec 1) (hx : ∀ i, x i = 1#1)
    (init : u.Idx → BitVec 1) (hinit : ∀ i, init i = 1#1) (h : s.ReducesTo axes t) (hu : 0 < u.numel) (j : t.Idx) :
    Host.reduce IntOp.andi x init h hu j = 1#1 := by
  rw [Host.reduce_eq_foldl, hinit]
  exact foldl_andi_ones x hx _

end Words

/-! ## The wrap, the mask and the fill at an index -/

section Take
variable {F : FTy → Type} [FloatOps F] {K : Nat}

/-- A vector laid along axis `d` of a larger shape reads its own coordinate: the side condition of a broadcast's
    read, for a vector of K entries (when K = 1 the broadcast reads entry 0, which is the only one). -/
theorem vec_coord (k : Fin K) : k.val = if K = 1 then 0 else k.val := by
  split
  · next h1 => have := k.isLt; omega
  · rfl

/-- The wrapped index column at row k is the index itself when it lies in [0, 340]. -/
theorem wrapH_apply (hb0 : S_.BroadcastsInDim (Sk K) (![] : Fin 0 → Fin (Sk K).rank))
    (hb1 : (Sk K).BroadcastsInDim (Sk1 K) (![0] : Fin 1 → Fin (Sk1 K).rank)) (idx : IVec (Sk K) 32) (k : Fin K)
    (hk : (idx (ix1 k)).toNat ≤ 340) : wrapH K hb0 hb1 idx (ix2 k 0) = idx (ix1 k) := by
  unfold wrapH
  refine (broadcastInDim_apply _ hb1 _ (ix2 k 0) (ix1 k) ?_).trans ?_
  · intro a
    match a with
    | ⟨0, _⟩ => exact vec_coord k
  · show Scalar.select (IntOp.cmpi .slt (idx (ix1 k)) 0#32) (IntOp.addi (idx (ix1 k)) 341#32) (idx (ix1 k)) = idx (ix1 k)
    exact if_neg (not_slt_zero hk)

/-- The in-range mask is 1 at every row when every index of the column lies in [0, 340]. -/
theorem maskH_apply (hb2 : S_.BroadcastsInDim (Sk1 K) (![] : Fin 0 → Fin (Sk1 K).rank))
    (hb4 : S1x1.BroadcastsInDim (Sk1 K) (![0, 1] : Fin 2 → Fin (Sk1 K).rank))
    (hr : (Sk1 K).ReducesTo [1] (Sk K)) (v5 : IVec (Sk1 K) 32) (hv : ∀ k : Fin K, (v5 (ix2 k 0)).toNat ≤ 340)
    (i : (Sk K).Idx) : maskH K hb2 hb4 hr v5 i = 1#1 := by
  unfold maskH
  refine reduce_andi_ones _ (fun i' => ?_) _ (fun _ => rfl) _ _ _
  obtain ⟨k', z, rfl⟩ : ∃ k' z, i' = ix2 k' z := ⟨i' 0, i' 1, eq_ix2 i'⟩
  obtain rfl : z = 0 := Subsingleton.elim _ _
  show IntOp.andi (IntOp.cmpi .sge (v5 (ix2 k' 0)) 0#32) (IntOp.cmpi .sle (v5 (ix2 k' 0)) 340#32) = 1#1
  exact in_range_bits (hv k')

/-- The same for the one-index mask. -/
theorem maskH1_apply (v5 : IVec S1x1 32) (hv : (v5 (ix2 0 0)).toNat ≤ 340) (i : S1.Idx) : maskH1 v5 i = 1#1 := by
  unfold maskH1
  refine reduce_andi_ones _ (fun i' => ?_) _ (fun _ => rfl) _ _ _
  obtain ⟨k', z, rfl⟩ : ∃ k' z, i' = ix2 k' z := ⟨i' 0, i' 1, eq_ix2 i'⟩
  obtain rfl : k' = 0 := Subsingleton.elim _ _
  obtain rfl : z = 0 := Subsingleton.elim _ _
  show IntOp.andi (IntOp.cmpi .sge (v5 (ix2 0 0)) 0#32) (IntOp.cmpi .sle (v5 (ix2 0 0)) 340#32) = 1#1
  exact in_range_bits hv

/-- The masked gather at (b, t, k, j) where the mask is 1 at k: the gathered element. -/
theorem fillH_apply (wf : GatherDims.WF S256x64x341x4 (Sk1 K) (So K) [0, 1, 3] [2] [] [2] [] 1 ![256, 64, 1, 4])
    (hb5 : (Sk K).BroadcastsInDim (So K) (![2] : Fin 1 → Fin (So K).rank))
    (hb6 : S_.BroadcastsInDim (So K) (![] : Fin 0 → Fin (So K).rank))
    (P : FVec F S256x64x341x4 .f32) (v5 : IVec (Sk1 K) 32) (mask : IVec (Sk K) 1)
    (b : Fin 256) (t : Fin 64) (k : Fin K) (j : Fin 4) (hm : mask (ix1 k) = 1#1) :
    fillH K (nodeDims K wf) hb5 hb6 P v5 mask (ix4 b t k j)
      = P (ix4 b t ⟨min (v5 (ix2 k 0)).toInt.toNat 340, by omega⟩ j) := by
  unfold fillH
  refine (select_apply _ _ _ _).trans ?_
  rw [broadcastInDim_apply _ hb5 mask (ix4 b t k j) (ix1 k) (fun a => by
    match a with
    | ⟨0, _⟩ => exact vec_coord k), hm, select_one]
  exact gather_node_apply wf P v5 b t k j

end Take

/-! ## `jnp.take` at a table of indices inside [0, 340] -/

section TakeK
variable {F : FTy → Type} [FloatOps F] {K : Nat}

/-- For K indices that all lie in [0, 340]: wrapped, gathered and masked, the result at (b, t, k, j) is the operand at
    (b, t, index k, j). -/
theorem takeK_apply (wf : GatherDims.WF S256x64x341x4 (Sk1 K) (So K) [0, 1, 3] [2] [] [2] [] 1 ![256, 64, 1, 4])
    (hb0 : S_.BroadcastsInDim (Sk K) (![] : Fin 0 → Fin (Sk K).rank))
    (hb1 : (Sk K).BroadcastsInDim (Sk1 K) (![0] : Fin 1 → Fin (Sk1 K).rank))
    (hb2 : S_.BroadcastsInDim (Sk1 K) (![] : Fin 0 → Fin (Sk1 K).rank))
    (hb4 : S1x1.BroadcastsInDim (Sk1 K) (![0, 1] : Fin 2 → Fin (Sk1 K).rank))
    (hr : (Sk1 K).ReducesTo [1] (Sk K))
    (hb5 : (Sk K).BroadcastsInDim (So K) (![2] : Fin 1 → Fin (So K).rank))
    (hb6 : S_.BroadcastsInDim (So K) (![] : Fin 0 → Fin (So K).rank))
    (idx : IVec (Sk K) 32) (n : Fin K → Nat) (hn : ∀ k, n k < 341) (hidx : ∀ k, (idx (ix1 k)).toNat = n k)
    (P : FVec F S256x64x341x4 .f32) (b : Fin 256) (t : Fin 64) (k : Fin K) (j : Fin 4) :
    fillH K (nodeDims K wf) hb5 hb6 P (wrapH K hb0 hb1 idx) (maskH K hb2 hb4 hr (wrapH K hb0 hb1 idx)) (ix4 b t k j)
      = P (ix4 b t ⟨n k, hn k⟩ j) := by
  have hle : ∀ k, (idx (ix1 k)).toNat ≤ 340 := fun k => by have := hn k; have := hidx k; omega
  have hw : ∀ k, wrapH K hb0 hb1 idx (ix2 k 0) = idx (ix1 k) := fun k => wrapH_apply hb0 hb1 idx k (hle k)
  rw [fillH_apply wf hb5 hb6 P _ _ b t k j (maskH_apply hb2 hb4 hr _ (fun k' => by rw [hw]; exact hle k') _)]
  have hval : min (wrapH K hb0 hb1 idx (ix2 k 0)).toInt.toNat 340 = n k := by
    rw [hw, StableHlo.Predicate.toInt_eq_toNat_of_lt (by have := hle k; omega), Int.toNat_natCast, hidx]
    have := hn k; omega
  simp only [hval]

end TakeK

/-! ## The five tables: the preorder numbers of the nodes of each level -/

section Tables

theorem lit0_node : ∀ k : Fin 4, (lit0 k).toNat = Cert.Spec.node 1 k.val := by decide
theorem lit1_node : ∀ k : Fin 16, (lit1 k).toNat = Cert.Spec.node 2 k.val := by decide
theorem lit2_node : ∀ k : Fin 64, (lit2 k).toNat = Cert.Spec.node 3 k.val := by decide
set_option maxRecDepth 8192 in
theorem lit3_node : ∀ k : Fin 256, (lit3 k).toNat = Cert.Spec.node 4 k.val := by decide

/-- The row-major position of a rank-1 index is its coordinate. -/
theorem rowMajor_ix1 {K : Nat} (k : Fin K) : ((Sk K).rowMajor (ix1 k)).val = k.val := Shape.rowMajor_val_one _

end Tables

/-! ## The reference's five reads -/

section Reads

/-- Level 0: the root, node 0. -/
theorem take0_apply (P : FVec Ideal S256x64x341x4 .f32) (b : Fin 256) (t : Fin 64) (k : Fin 1) (j : Fin 4) :
    take0 (F := Ideal) P (ix4 b t k j) = P (ix4 b t ⟨Cert.Spec.node 0 k.val, Cert.Spec.node0_lt k⟩ j) := by
  unfold take0
  have hw : ∀ k : Fin 1, wrapH 1 bcast_S_S1 bcast_S1_S1x1_0 (constantI S1 32 0#32) (ix2 k 0) = 0#32 := fun k =>
    wrapH_apply (K := 1) bcast_S_S1 bcast_S1_S1x1_0 (constantI S1 32 0#32) k (show (0#32 : BitVec 32).toNat ≤ 340 by decide)
  refine (fillH_apply (K := 1) gather_S256x64x341x4_S1x1_S256x64x1x4_013_2_n_n_2_1_2566414_wf bcast_S1_S256x64x1x4_2
    bcast_S_S256x64x1x4 P _ _ b t k j (maskH1_apply _ (by rw [hw]; decide) _)).trans ?_
  have hval : min (wrapH 1 bcast_S_S1 bcast_S1_S1x1_0 (constantI S1 32 0#32) (ix2 k 0)).toInt.toNat 340
      = Cert.Spec.node 0 k.val := by
    rw [hw]; rfl
  simp only [hval]

/-- Level 1. -/
theorem take1_apply (P : FVec Ideal S256x64x341x4 .f32) (b : Fin 256) (t : Fin 64) (k : Fin 4) (j : Fin 4) :
    take1 (F := Ideal) P (ix4 b t k j) = P (ix4 b t ⟨Cert.Spec.node 1 k.val, Cert.Spec.node1_lt k⟩ j) := by
  unfold take1
  exact takeK_apply (K := 4) gather_S256x64x341x4_S4x1_S256x64x4x4_013_2_n_n_2_1_2566414_wf bcast_S_S4 bcast_S4_S4x1_0
    bcast_S_S4x1 bcast_S1x1_S4x1_0_1 reducesTo_S4x1_S4_d1 bcast_S4_S256x64x4x4_2 bcast_S_S256x64x4x4
    (fun i => lit0 (S4.rowMajor i)) (fun k => Cert.Spec.node 1 k.val) Cert.Spec.node1_lt
    (fun k => by rw [← lit0_node]; exact congrArg (fun q => (lit0 q).toNat) (Fin.ext (rowMajor_ix1 k))) P b t k j

/-- Level 2. -/
theorem take2_apply (P : FVec Ideal S256x64x341x4 .f32) (b : Fin 256) (t : Fin 64) (k : Fin 16) (j : Fin 4) :
    take2 (F := Ideal) P (ix4 b t k j) = P (ix4 b t ⟨Cert.Spec.node 2 k.val, Cert.Spec.node2_lt k⟩ j) := by
  unfold take2
  exact takeK_apply (K := 16) gather_S256x64x341x4_S16x1_S256x64x16x4_013_2_n_n_2_1_2566414_wf bcast_S_S16 bcast_S16_S16x1_0
    bcast_S_S16x1 bcast_S1x1_S16x1_0_1 reducesTo_S16x1_S16_d1 bcast_S16_S256x64x16x4_2 bcast_S_S256x64x16x4
    (fun i => lit1 (S16.rowMajor i)) (fun k => Cert.Spec.node 2 k.val) Cert.Spec.node2_lt
    (fun k => by rw [← lit1_node]; exact congrArg (fun q => (lit1 q).toNat) (Fin.ext (rowMajor_ix1 k))) P b t k j

/-- Level 3. -/
theorem take3_apply (P : FVec Ideal S256x64x341x4 .f32) (b : Fin 256) (t : Fin 64) (k : Fin 64) (j : Fin 4) :
    take3 (F := Ideal) P (ix4 b t k j) = P (ix4 b t ⟨Cert.Spec.node 3 k.val, Cert.Spec.node3_lt k⟩ j) := by
  unfold take3
  exact takeK_apply (K := 64) gather_S256x64x341x4_S64x1_S256x64x64x4_013_2_n_n_2_1_2566414_wf bcast_S_S64 bcast_S64_S64x1_0
    bcast_S_S64x1 bcast_S1x1_S64x1_0_1 reducesTo_S64x1_S64_d1 bcast_S64_S256x64x64x4_2 bcast_S_S256x64x64x4
    (fun i => lit2 (S64.rowMajor i)) (fun k => Cert.Spec.node 3 k.val) Cert.Spec.node3_lt
    (fun k => by rw [← lit2_node]; exact congrArg (fun q => (lit2 q).toNat) (Fin.ext (rowMajor_ix1 k))) P b t k j

/-- Level 4. -/
theorem take4_apply (P : FVec Ideal S256x64x341x4 .f32) (b : Fin 256) (t : Fin 64) (k : Fin 256) (j : Fin 4) :
    take4 (F := Ideal) P (ix4 b t k j) = P (ix4 b t ⟨Cert.Spec.node 4 k.val, Cert.Spec.node4_lt k⟩ j) := by
  unfold take4
  exact takeK_apply (K := 256) gather_S256x64x341x4_S256x1_S256x64x256x4_013_2_n_n_2_1_2566414_wf bcast_S_S256 bcast_S256_S256x1_0
    bcast_S_S256x1 bcast_S1x1_S256x1_0_1 reducesTo_S256x1_S256_d1 bcast_S256_S256x64x256x4_2 bcast_S_S256x64x256x4
    (fun i => lit3 (S256.rowMajor i)) (fun k => Cert.Spec.node 4 k.val) Cert.Spec.node4_lt
    (fun k => by rw [← lit3_node]; exact congrArg (fun q => (lit3 q).toNat) (Fin.ext (rowMajor_ix1 k))) P b t k j

end Reads

end Cert.ReferenceIdeal.RefVal

end
-- ==== Proof.RefValue.lean ====
/-
  The reference's result is the specification.

  One level of the reference multiplies the weight of node ρ / 4 of the level above by the gathered probability of its
  branch ρ % 4 (`levelH_apply`: the flattening of the two trailing axes [K, 4] → [4K] sends (k, j) to 4k + j).  The
  gathered probabilities of level l are the softmax rows of the nodes `node l k`, so by induction over the five levels
  the level-l weight of node ρ is `treeW one p l ρ`, and the last level is the specification `G`.
-/
import proofs.«166625_j24962349924771_1_alg».proof.Proof.RefDefs
import proofs.«166625_j24962349924771_1_alg».proof.Proof.Gen.ReferenceIdeal
import proofs.«166625_j24962349924771_1_alg».proof.Proof.Spec
import Idealize.ShloMosaic.Lib.ValueIdx
import Idealize.ShloMosaic.Lib.Pipeline.Value

noncomputable section

namespace Cert.ReferenceIdeal.RefVal

open Idealize.ShloMosaic Idealize.ShloMosaic.ValueIdx Cert.ReferenceIdeal
open Cert.ReferenceIdeal.Facts₀ Cert.ReferenceIdeal.Facts

variable [Facts]

/-- **One level read at a tree and a node**: the weight of the parent ρ / 4 times the gathered probability of the
    branch ρ % 4. -/
theorem levelH_apply (K K4 : Nat) (h4 : K4 = 4 * K)
    (hb7 : (Sw K).BroadcastsInDim (Sw1 K) (![0, 1, 2] : Fin 3 → Fin (Sw1 K).rank))
    (hb8 : (Sw1 K).BroadcastsInDim (So K) (![0, 1, 2, 3] : Fin 4 → Fin (So K).rank))
    (hc : (So K).ShapeCasts (Sw K4)) (w : FVec Ideal (Sw K) .f32) (g : FVec Ideal (So K) .f32)
    (b : Fin 256) (t : Fin 64) (ρ : Fin K4) :
    levelH (F := Ideal) K K4 hb7 hb8 hc w g (ix3 b t ρ)
      = w (ix3 b t ⟨ρ.val / 4, by have := ρ.isLt; omega⟩)
        * g (ix4 b t ⟨ρ.val / 4, by have := ρ.isLt; omega⟩ ⟨ρ.val % 4, Nat.mod_lt _ (by decide)⟩) := by
  have hρ : ρ.val / 4 < K := by have := ρ.isLt; omega
  unfold levelH
  -- the flattening: (b, t, k, j) and (b, t, 4k + j) have the same row-major position
  refine (shapeCast_apply _ hc (ix3 b t ρ) (ix4 b t ⟨ρ.val / 4, hρ⟩ ⟨ρ.val % 4, Nat.mod_lt _ (by decide)⟩) ?_).trans ?_
  · rw [Shape.rowMajor_val_four, Shape.rowMajor_val_three]
    show ((b.val * 64 + t.val) * K + ρ.val / 4) * 4 + ρ.val % 4 = (b.val * 64 + t.val) * K4 + ρ.val
    subst h4
    generalize b.val * 64 + t.val = m
    have hm : m * (4 * K) = m * K * 4 := by rw [Nat.mul_comm 4 K, Nat.mul_assoc]
    rw [hm]
    omega
  · rw [mulf_apply]
    congr 1
    -- the weights repeated along the new trailing axis
    refine (broadcastInDim_apply _ hb8 _ _ (ix4 b t ⟨ρ.val / 4, hρ⟩ (0 : Fin 1)) ?_).trans ?_
    · intro a
      match a with
      | ⟨0, _⟩ => rfl
      | ⟨1, _⟩ => rfl
      | ⟨2, _⟩ =>
        show ρ.val / 4 = if K = 1 then 0 else ρ.val / 4
        split_ifs <;> omega
      | ⟨3, _⟩ => rfl
    · refine broadcastInDim_apply _ hb7 _ _ (ix3 b t ⟨ρ.val / 4, hρ⟩) ?_
      intro a
      match a with
      | ⟨0, _⟩ => rfl
      | ⟨1, _⟩ => rfl
      | ⟨2, _⟩ =>
        show ρ.val / 4 = if K = 1 then 0 else ρ.val / 4
        split_ifs <;> omega

open Cert.Spec in
/-- **One level of the induction**: if the level-l weights of tree (b, t) are `treeW one p l` and the gathered
    probabilities are `p` at the level's nodes, the next level's weights are `treeW one p (l + 1)`. -/
theorem level_step (one : EReal) (p : Nat → Nat → EReal) (l K K4 : Nat) (h4 : K4 = 4 * K)
    (hb7 : (Sw K).BroadcastsInDim (Sw1 K) (![0, 1, 2] : Fin 3 → Fin (Sw1 K).rank))
    (hb8 : (Sw1 K).BroadcastsInDim (So K) (![0, 1, 2, 3] : Fin 4 → Fin (So K).rank))
    (hc : (So K).ShapeCasts (Sw K4)) (w : FVec Ideal (Sw K) .f32) (g : FVec Ideal (So K) .f32)
    (b : Fin 256) (t : Fin 64)
    (hw : ∀ ρ : Fin K, w (ix3 b t ρ) = treeW one p l ρ.val)
    (hg : ∀ (k : Fin K) (j : Fin 4), g (ix4 b t k j) = p (node l k.val) j.val) (ρ : Fin K4) :
    levelH (F := Ideal) K K4 hb7 hb8 hc w g (ix3 b t ρ) = treeW one p (l + 1) ρ.val := by
  rw [levelH_apply K K4 h4, hw, hg, treeW_succ]

open Cert.Spec in
/-- **The reference's result is the specification**, given the softmax stage and the five gathers read at an index. -/
theorem refOut_eq_of
    (hsoft : ∀ (x : FVec Ideal S256x64x341x4 .f32) (b : Fin 256) (t : Fin 64) (n : Fin 341) (j : Fin 4),
      softmaxH (F := Ideal) x (ix4 b t n j) = Cert.Spec.smax4 (fun k => x (ix4 b t n k)) j)
    (ht0 : ∀ (P : FVec Ideal S256x64x341x4 .f32) (b : Fin 256) (t : Fin 64) (k : Fin 1) (j : Fin 4),
      take0 (F := Ideal) P (ix4 b t k j) = P (ix4 b t ⟨Cert.Spec.node 0 k.val, Cert.Spec.node0_lt k⟩ j))
    (ht1 : ∀ (P : FVec Ideal S256x64x341x4 .f32) (b : Fin 256) (t : Fin 64) (k : Fin 4) (j : Fin 4),
      take1 (F := Ideal) P (ix4 b t k j) = P (ix4 b t ⟨Cert.Spec.node 1 k.val, Cert.Spec.node1_lt k⟩ j))
    (ht2 : ∀ (P : FVec Ideal S256x64x341x4 .f32) (b : Fin 256) (t : Fin 64) (k : Fin 16) (j : Fin 4),
      take2 (F := Ideal) P (ix4 b t k j) = P (ix4 b t ⟨Cert.Spec.node 2 k.val, Cert.Spec.node2_lt k⟩ j))
    (ht3 : ∀ (P : FVec Ideal S256x64x341x4 .f32) (b : Fin 256) (t : Fin 64) (k : Fin 64) (j : Fin 4),
      take3 (F := Ideal) P (ix4 b t k j) = P (ix4 b t ⟨Cert.Spec.node 3 k.val, Cert.Spec.node3_lt k⟩ j))
    (ht4 : ∀ (P : FVec Ideal S256x64x341x4 .f32) (b : Fin 256) (t : Fin 64) (k : Fin 256) (j : Fin 4),
      take4 (F := Ideal) P (ix4 b t k j) = P (ix4 b t ⟨Cert.Spec.node 4 k.val, Cert.Spec.node4_lt k⟩ j))
    (x : FVec Ideal S256x64x341x4 .f32) : refOut (F := Ideal) x = Cert.Spec.G x := by
  funext i
  obtain ⟨b, t, r, rfl⟩ : ∃ b t r, i = ix3 b t r := ⟨i 0, i 1, i 2, eq_ix3 i⟩
  show refOut (F := Ideal) x (ix3 b t r)
    = treeW (Ideal.ofBits .f32 0x3F800000#32) (probs fun n k => x (ix4 b t n k)) 5 r.val
  -- the branch probabilities of tree (b, t), and the softmax stage read through them
  obtain ⟨p, hp⟩ : ∃ p : Nat → Nat → EReal, p = probs (fun n k => x (ix4 b t n k)) := ⟨_, rfl⟩
  have hP : ∀ (n : Fin 341) (j : Fin 4), softmaxH (F := Ideal) x (ix4 b t n j) = p n.val j.val := fun n j => by
    rw [hsoft, hp]; exact (probs_of_lt (fun n k => x (ix4 b t n k)) n.val j.val n.isLt j.isLt).symm
  rw [← hp]
  -- level by level: the weight of node ρ of level l is treeW one p l ρ
  have h1 := level_step (Ideal.ofBits .f32 0x3F800000#32) p 0 1 4 rfl
    bcast_S256x64x1_S256x64x1x1_0_1_2 bcast_S256x64x1x1_S256x64x1x4_0_1_2_3 shapeCasts_S256x64x1x4_S256x64x4
    onesH (take0 (softmaxH x)) b t (fun _ => rfl) (fun k j => by rw [ht0]; exact hP _ j)
  have h2 := level_step (Ideal.ofBits .f32 0x3F800000#32) p 1 4 16 rfl
    bcast_S256x64x4_S256x64x4x1_0_1_2 bcast_S256x64x4x1_S256x64x4x4_0_1_2_3 shapeCasts_S256x64x4x4_S256x64x16
    _ (take1 (softmaxH x)) b t h1 (fun k j => by rw [ht1]; exact hP _ j)
  have h3 := level_step (Ideal.ofBits .f32 0x3F800000#32) p 2 16 64 rfl
    bcast_S256x64x16_S256x64x16x1_0_1_2 bcast_S256x64x16x1_S256x64x16x4_0_1_2_3 shapeCasts_S256x64x16x4_S256x64x64
    _ (take2 (softmaxH x)) b t h2 (fun k j => by rw [ht2]; exact hP _ j)
  have h4 := level_step (Ideal.ofBits .f32 0x3F800000#32) p 3 64 256 rfl
    bcast_S256x64x64_S256x64x64x1_0_1_2 bcast_S256x64x64x1_S256x64x64x4_0_1_2_3 shapeCasts_S256x64x64x4_S256x64x256
    _ (take3 (softmaxH x)) b t h3 (fun k j => by rw [ht3]; exact hP _ j)
  exact level_step (Ideal.ofBits .f32 0x3F800000#32) p 4 256 1024 rfl
    bcast_S256x64x256_S256x64x256x1_0_1_2 bcast_S256x64x256x1_S256x64x256x4_0_1_2_3 shapeCasts_S256x64x256x4_S256x64x1024
    _ (take4 (softmaxH x)) b t h4 (fun k j => by rw [ht4]; exact hP _ j) r

end Cert.ReferenceIdeal.RefVal

end
-- ==== Proof.lean ====
/-
  The kernel — a Pallas softmax over each node's four logits followed by a five-level product down a 4-ary decision
  tree, on tiles of 512 trees — and the jnp reference — softmax, then five gathers of the levels' nodes and products —
  compute one function of the input over the extended reals: for tree (b, t) and leaf r, the product along the
  root-to-leaf path of the softmax branch probabilities, multiplied in path order starting from 1 (`Cert.Spec.G`).
  Both programs apply the same operations in the same order at every element, so no law of the extended reals beyond
  `0 + s = s` and `max (−∞) m = m` is used, and the precondition is not opened.

  The kernel's run names its result array `G` of the input (`KVal.run_of`: the block at each grid point through the
  five-level chain, the blocks covering the array, the reshape and transpose after the region); the reference's run
  names its result `refOut` of the input, which is `G` (`refOut_eq_of`).  The three frames are the runs with the
  result dropped; the idealization rewrote nothing.
-/
import proofs.«166625_j24962349924771_1_alg».proof.Defs
import proofs.«166625_j24962349924771_1_alg».proof.Proof.Gen.Kernel
import proofs.«166625_j24962349924771_1_alg».proof.Proof.FrameK
import proofs.«166625_j24962349924771_1_alg».proof.Proof.Gen.KernelIdeal
import proofs.«166625_j24962349924771_1_alg».proof.Proof.FrameKI
import proofs.«166625_j24962349924771_1_alg».proof.Proof.Gen.ReferenceIdeal
import proofs.«166625_j24962349924771_1_alg».proof.Proof.Gen.Pre_finite_inputs
import proofs.«166625_j24962349924771_1_alg».proof.Proof.KOut
import proofs.«166625_j24962349924771_1_alg».proof.Proof.KBlock
import proofs.«166625_j24962349924771_1_alg».proof.Proof.KRun
import proofs.«166625_j24962349924771_1_alg».proof.Proof.RefRun
import proofs.«166625_j24962349924771_1_alg».proof.Proof.RefSoftmax
import proofs.«166625_j24962349924771_1_alg».proof.Proof.RefTake
import proofs.«166625_j24962349924771_1_alg».proof.Proof.RefValue
import Idealize.ShloMosaic.Adequacy
import Idealize.ShloMosaic.Init

noncomputable section

namespace Cert.Proof

open Idealize.ShloMosaic Idealize.SL.Sem

/-- The reference's result is the specification. -/
theorem refOut_eq (x : FVec Ideal Cert.ReferenceIdeal.S256x64x341x4 .f32) :
    Cert.ReferenceIdeal.RefVal.refOut (F := Ideal) x = Cert.Spec.G x :=
  Cert.ReferenceIdeal.RefVal.refOut_eq_of Cert.ReferenceIdeal.RefVal.softmaxH_apply
    Cert.ReferenceIdeal.RefVal.take0_apply Cert.ReferenceIdeal.RefVal.take1_apply Cert.ReferenceIdeal.RefVal.take2_apply
    Cert.ReferenceIdeal.RefVal.take3_apply Cert.ReferenceIdeal.RefVal.take4_apply x

/-- The kernel's run, its result named. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
          = Cert.Spec.G (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  Cert.KernelIdeal.KVal.run_of
    (fun m c => Cert.KernelIdeal.KVal.final1_of m Cert.KernelIdeal.KVal.out0_1_apply c) m ρ

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    kernel_run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact refOut_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
